-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x3 : Shape := ⟨3, ![2, 16384, 3]⟩
abbrev S2x2048x3 : Shape := ⟨3, ![2, 2048, 3]⟩
abbrev S2x64x16384 : Shape := ⟨3, ![2, 64, 16384]⟩
abbrev S_ : Shape := ⟨0, ![]⟩

class Facts : Prop where
  bcast_S_S2x16384x3 : S_.BroadcastsInDim S2x16384x3 (![] : Fin 0 → Fin S2x16384x3.rank)
  reducesTo_S2x16384x3_S_d0_1_2 : S2x16384x3.ReducesTo [0, 1, 2] S_
  h_S_ : 0 < S_.numel
  bcast_S_S2x2048x3 : S_.BroadcastsInDim S2x2048x3 (![] : Fin 0 → Fin S2x2048x3.rank)
  reducesTo_S2x2048x3_S_d0_1_2 : S2x2048x3.ReducesTo [0, 1, 2] S_
  bcast_S_S2x64x16384 : S_.BroadcastsInDim S2x64x16384 (![] : Fin 0 → Fin S2x64x16384.rank)
  reducesTo_S2x64x16384_S_d0_1_2 : S2x64x16384.ReducesTo [0, 1, 2] S_

variable [Facts]

def fn {F : FTy → Type} [FloatOps F] (main_arg0 : FVec F S2x16384x3 .f32) (main_arg1 : FVec F S2x2048x3 .f32) (main_arg2 : FVec F S2x64x16384 .f32) : IVec S_ 1 :=
  let main_v0 : FVec F S2x16384x3 .f32 := Host.absf main_arg0
  let main_cst : FVec F S_ .f32 := constant S_ .f32 0x7F800000#32
  let main_v1 : FVec F S2x16384x3 .f32 := broadcastInDim S2x16384x3 ![] bcast_S_S2x16384x3 main_cst
  let main_v2 : IVec S2x16384x3 1 := cmpf .olt main_v0 main_v1
  let main_c : IVec S_ 1 := constantI S_ 1 1#1
  let main_v3 : IVec S_ 1 := (fun x v => Host.reduce IntOp.andi x v reducesTo_S2x16384x3_S_d0_1_2 h_S_) main_v2 main_c
  let main_v4 : FVec F S2x2048x3 .f32 := Host.absf main_arg1
  let main_cst_0 : FVec F S_ .f32 := constant S_ .f32 0x7F800000#32
  let main_v5 : FVec F S2x2048x3 .f32 := broadcastInDim S2x2048x3 ![] bcast_S_S2x2048x3 main_cst_0
  let main_v6 : IVec S2x2048x3 1 := cmpf .olt main_v4 main_v5
  let main_c_1 : IVec S_ 1 := constantI S_ 1 1#1
  let main_v7 : IVec S_ 1 := (fun x v => Host.reduce IntOp.andi x v reducesTo_S2x2048x3_S_d0_1_2 h_S_) main_v6 main_c_1
  let main_v8 : IVec S_ 1 := andi main_v3 main_v7
  let main_v9 : FVec F S2x64x16384 .f32 := Host.absf main_arg2
  let main_cst_2 : FVec F S_ .f32 := constant S_ .f32 0x7F800000#32
  let main_v10 : FVec F S2x64x16384 .f32 := broadcastInDim S2x64x16384 ![] bcast_S_S2x64x16384 main_cst_2
  let main_v11 : IVec S2x64x16384 1 := cmpf .olt main_v9 main_v10
  let main_c_3 : IVec S_ 1 := constantI S_ 1 1#1
  let main_v12 : IVec S_ 1 := (fun x v => Host.reduce IntOp.andi x v reducesTo_S2x64x16384_S_d0_1_2 h_S_) main_v11 main_c_3
  let main_v13 : IVec S_ 1 := andi main_v8 main_v12
  main_v13
-- ==== Kernel.lean ====
abbrev S2x16384x3 : Shape := ⟨3, ![2, 16384, 3]⟩
abbrev S2x2048x3 : Shape := ⟨3, ![2, 2048, 3]⟩
abbrev S2x64x16384 : Shape := ⟨3, ![2, 64, 16384]⟩
abbrev S2x2048x1x3 : Shape := ⟨4, ![2, 2048, 1, 3]⟩
abbrev S2x1x16384x3 : Shape := ⟨4, ![2, 1, 16384, 3]⟩
abbrev S2x2048x16384x3 : Shape := ⟨4, ![2, 2048, 16384, 3]⟩
abbrev S_ : Shape := ⟨0, ![]⟩
abbrev S2x2048x16384 : Shape := ⟨3, ![2, 2048, 16384]⟩
abbrev S2x2048 : Shape := ⟨2, ![2, 2048]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S16384 : Shape := ⟨1, ![16384]⟩
abbrev S1x1x16384 : Shape := ⟨3, ![1, 1, 16384]⟩
abbrev S2x2048x33 : Shape := ⟨3, ![2, 2048, 33]⟩
abbrev S2x2048x16384x1 : Shape := ⟨4, ![2, 2048, 16384, 1]⟩
abbrev S2x2048x32 : Shape := ⟨3, ![2, 2048, 32]⟩
abbrev S32 : Shape := ⟨1, ![32]⟩
abbrev S1x1x32 : Shape := ⟨3, ![1, 1, 32]⟩
abbrev S2x2048x1 : Shape := ⟨3, ![2, 2048, 1]⟩
abbrev S2x3x16384 : Shape := ⟨3, ![2, 3, 16384]⟩
abbrev S2x67x16384 : Shape := ⟨3, ![2, 67, 16384]⟩
abbrev S2x1x65536 : Shape := ⟨3, ![2, 1, 65536]⟩
abbrev S2x3x2048 : Shape := ⟨3, ![2, 3, 2048]⟩
abbrev S2x3x2048x32 : Shape := ⟨4, ![2, 3, 2048, 32]⟩
abbrev S2x3x65536 : Shape := ⟨3, ![2, 3, 65536]⟩
abbrev S2x67x65536 : Shape := ⟨3, ![2, 67, 65536]⟩
abbrev S1x1x1024 : Shape := ⟨3, ![1, 1, 1024]⟩
abbrev S1x67x1024 : Shape := ⟨3, ![1, 67, 1024]⟩
abbrev S1x3x1024 : Shape := ⟨3, ![1, 3, 1024]⟩
abbrev S67x1024 : Shape := ⟨2, ![67, 1024]⟩
abbrev S1024x1 : Shape := ⟨2, ![1024, 1]⟩
abbrev S1x1024 : Shape := ⟨2, ![1, 1024]⟩
abbrev S1024x1024 : Shape := ⟨2, ![1024, 1024]⟩
abbrev S3x1024 : Shape := ⟨2, ![3, 1024]⟩
abbrev S64x1024 : Shape := ⟨2, ![64, 1024]⟩
abbrev S1x64x1024 : Shape := ⟨3, ![1, 64, 1024]⟩
abbrev S2x67x2048x32 : Shape := ⟨4, ![2, 67, 2048, 32]⟩

abbrev nBuf : Space → Nat
  | .hbm => 94
  | .vmem => 9
  | .smem => 0
  | _ => 0

abbrev bufTy : (tb : Table) → Fin (tcTables nBuf tb) → BufTy
  | .hbm, ⟨0, _⟩ => ⟨S2x16384x3, .f32⟩
  | .hbm, ⟨1, _⟩ => ⟨S2x2048x3, .f32⟩
  | .hbm, ⟨2, _⟩ => ⟨S2x64x16384, .f32⟩
  | .hbm, ⟨3, _⟩ => ⟨S2x2048x1x3, .f32⟩
  | .hbm, ⟨4, _⟩ => ⟨S2x1x16384x3, .f32⟩
  | .hbm, ⟨5, _⟩ => ⟨S2x2048x16384x3, .f32⟩
  | .hbm, ⟨6, _⟩ => ⟨S2x2048x16384x3, .f32⟩
  | .hbm, ⟨7, _⟩ => ⟨S2x2048x16384x3, .f32⟩
  | .hbm, ⟨8, _⟩ => ⟨S2x2048x16384x3, .f32⟩
  | .hbm, ⟨9, _⟩ => ⟨S_, .f32⟩
  | .hbm, ⟨10, _⟩ => ⟨S2x2048x16384, .f32⟩
  | .hbm, ⟨11, _⟩ => ⟨S_, .f32⟩
  | .hbm, ⟨12, _⟩ => ⟨S2x2048x16384, .f32⟩
  | .hbm, ⟨13, _⟩ => ⟨S2x2048x16384, .i1⟩
  | .hbm, ⟨14, _⟩ => ⟨S_, .f32⟩
  | .hbm, ⟨15, _⟩ => ⟨S2x2048x16384, .f32⟩
  | .hbm, ⟨16, _⟩ => ⟨S2x2048x16384, .i1⟩
  | .hbm, ⟨17, _⟩ => ⟨S2x2048x16384, .i1⟩
  | .hbm, ⟨18, _⟩ => ⟨S2x2048x16384, .i32⟩
  | .hbm, ⟨19, _⟩ => ⟨S_, .i32⟩
  | .hbm, ⟨20, _⟩ => ⟨S_, .i32⟩
  | .hbm, ⟨21, _⟩ => ⟨S2x2048x16384, .i32⟩
  | .hbm, ⟨22, _⟩ => ⟨S_, .i32⟩
  | .hbm, ⟨23, _⟩ => ⟨S2x2048x16384, .i32⟩
  | .hbm, ⟨24, _⟩ => ⟨S2x2048x16384, .i32⟩
  | .hbm, ⟨25, _⟩ => ⟨S2x2048x16384, .i32⟩
  | .hbm, ⟨26, _⟩ => ⟨S_, .i32⟩
  | .hbm, ⟨27, _⟩ => ⟨S2x2048, .i32⟩
  | .hbm, ⟨28, _⟩ => ⟨S_, .i32⟩
  | .hbm, ⟨29, _⟩ => ⟨S2x2048, .i32⟩
  | .hbm, ⟨30, _⟩ => ⟨S2x2048, .i32⟩
  | .hbm, ⟨31, _⟩ => ⟨S_, .i32⟩
  | .hbm, ⟨32, _⟩ => ⟨S2x2048x16384, .i32⟩
  | .hbm, ⟨33, _⟩ => ⟨S2x2048x16384, .i1⟩
  | .hbm, ⟨34, _⟩ => ⟨S2x2048x16384, .i1⟩
  | .hbm, ⟨35, _⟩ => ⟨S_, .i32⟩
  | .hbm, ⟨36, _⟩ => ⟨S_, .i32⟩
  | .hbm, ⟨37, _⟩ => ⟨S2x2048x16384, .i32⟩
  | .hbm, ⟨38, _⟩ => ⟨S2x2048x16384, .i32⟩
  | .hbm, ⟨39, _⟩ => ⟨S2, .i32⟩
  | .hbm, ⟨40, _⟩ => ⟨S2x1x1, .i32⟩
  | .hbm, ⟨41, _⟩ => ⟨S2048, .i32⟩
  | .hbm, ⟨42, _⟩ => ⟨S1x2048x1, .i32⟩
  | .hbm, ⟨43, _⟩ => ⟨S16384, .i32⟩
  | .hbm, ⟨44, _⟩ => ⟨S1x1x16384, .i32⟩
  | .hbm, ⟨45, _⟩ => ⟨S2x2048x16384, .i32⟩
  | .hbm, ⟨46, _⟩ => ⟨S_, .i32⟩
  | .hbm, ⟨47, _⟩ => ⟨S2x2048x33, .i32⟩
  | .hbm, ⟨48, _⟩ => ⟨S_, .i32⟩
  | .hbm, ⟨49, _⟩ => ⟨S2x1x1, .i32⟩
  | .hbm, ⟨50, _⟩ => ⟨S2x1x1, .i1⟩
  | .hbm, ⟨51, _⟩ => ⟨S_, .i32⟩
  | .hbm, ⟨52, _⟩ => ⟨S2x1x1, .i32⟩
  | .hbm, ⟨53, _⟩ => ⟨S2x1x1, .i32⟩
  | .hbm, ⟨54, _⟩ => ⟨S2x1x1, .i32⟩
  | .hbm, ⟨55, _⟩ => ⟨S_, .i32⟩
  | .hbm, ⟨56, _⟩ => ⟨S1x2048x1, .i32⟩
  | .hbm, ⟨57, _⟩ => ⟨S1x2048x1, .i1⟩
  | .hbm, ⟨58, _⟩ => ⟨S_, .i32⟩
  | .hbm, ⟨59, _⟩ => ⟨S1x2048x1, .i32⟩
  | .hbm, ⟨60, _⟩ => ⟨S1x2048x1, .i32⟩
  | .hbm, ⟨61, _⟩ => ⟨S1x2048x1, .i32⟩
  | .hbm, ⟨62, _⟩ => ⟨S_, .i32⟩
  | .hbm, ⟨63, _⟩ => ⟨S2x2048x16384, .i32⟩
  | .hbm, ⟨64, _⟩ => ⟨S2x2048x16384, .i1⟩
  | .hbm, ⟨65, _⟩ => ⟨S_, .i32⟩
  | .hbm, ⟨66, _⟩ => ⟨S2x2048x16384, .i32⟩
  | .hbm, ⟨67, _⟩ => ⟨S2x2048x16384, .i32⟩
  | .hbm, ⟨68, _⟩ => ⟨S2x2048x16384, .i32⟩
  | .hbm, ⟨69, _⟩ => ⟨S2x2048x16384, .i32⟩
  | .hbm, ⟨70, _⟩ => ⟨S2x2048x16384, .i32⟩
  | .hbm, ⟨71, _⟩ => ⟨S2x2048x16384x1, .i32⟩
  | .hbm, ⟨72, _⟩ => ⟨S2x2048x16384x1, .i32⟩
  | .hbm, ⟨73, _⟩ => ⟨S2x2048x16384x1, .i32⟩
  | .hbm, ⟨74, _⟩ => ⟨S2x2048x16384x3, .i32⟩
  | .hbm, ⟨75, _⟩ => ⟨S2x2048x33, .i32⟩
  | .hbm, ⟨76, _⟩ => ⟨S2x2048x32, .i32⟩
  | .hbm, ⟨77, _⟩ => ⟨S32, .i32⟩
  | .hbm, ⟨78, _⟩ => ⟨S1x1x32, .i32⟩
  | .hbm, ⟨79, _⟩ => ⟨S2x2048x1, .i32⟩
  | .hbm, ⟨80, _⟩ => ⟨S2x2048x32, .i32⟩
  | .hbm, ⟨81, _⟩ => ⟨S2x2048x32, .i32⟩
  | .hbm, ⟨82, _⟩ => ⟨S2x2048x32, .i1⟩
  | .hbm, ⟨83, _⟩ => ⟨S2x2048x1, .i32⟩
  | .hbm, ⟨84, _⟩ => ⟨S2x2048x32, .i32⟩
  | .hbm, ⟨85, _⟩ => ⟨S2x2048x32, .i32⟩
  | .hbm, ⟨86, _⟩ => ⟨S2x3x16384, .f32⟩
  | .hbm, ⟨87, _⟩ => ⟨S2x67x16384, .f32⟩
  | .hbm, ⟨88, _⟩ => ⟨S2x1x65536, .i32⟩
  | .hbm, ⟨89, _⟩ => ⟨S2x3x2048, .f32⟩
  | .hbm, ⟨90, _⟩ => ⟨S2x3x2048x32, .f32⟩
  | .hbm, ⟨91, _⟩ => ⟨S2x3x65536, .f32⟩
  | .hbm, ⟨92, _⟩ => ⟨S2x67x65536, .f32⟩
  | .hbm, ⟨93, _⟩ => ⟨S2x67x2048x32, .f32⟩
  | .local _ .vmem, ⟨0, _⟩ => ⟨S1x1x1024, .i32⟩
  | .local _ .vmem, ⟨1, _⟩ => ⟨S1x1x1024, .i32⟩
  | .local _ .vmem, ⟨2, _⟩ => ⟨S1x67x1024, .f32⟩
  | .local _ .vmem, ⟨3, _⟩ => ⟨S1x67x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x67x1024, .f32⟩
  | .local _ .vmem, ⟨7, _⟩ => ⟨S1x67x1024, .f32⟩
  | .local _ .vmem, ⟨8, _⟩ => ⟨S67x1024, .f32⟩
  | _, _ => ⟨S2x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_c : Ref sig .tc := ⟨.hbm, 19, rfl⟩
abbrev main_call0_call0_v0 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 64, 16], ![false, false, false]⟩

def k0_cond2 (i : grid0.Coords) : BitVec 1 :=
  let arg2 : BitVec 32 := BitVec.ofNat 32 (i 2).val
  let c15_i32 : BitVec 32 := 15#32
  let v22 : BitVec 1 := Scalar.cmpi .eq arg2 c15_i32
  let v23 : BitVec 32 := Scalar.extui v22
  let c0_i32_10 : BitVec 32 := 0#32
  let v24 : BitVec 1 := Scalar.cmpi .ne v23 c0_i32_10
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x67x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x67x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S2x2048x3_S2x2048x1x3_0_1_3 : S2x2048x3.BroadcastsInDim S2x2048x1x3 (![0, 1, 3] : Fin 3 → Fin S2x2048x1x3.rank)
  bcast_S2x16384x3_S2x1x16384x3_0_2_3 : S2x16384x3.BroadcastsInDim S2x1x16384x3 (![0, 2, 3] : Fin 3 → Fin S2x1x16384x3.rank)
  bcast_S2x2048x1x3_S2x2048x16384x3_0_1_2_3 : S2x2048x1x3.BroadcastsInDim S2x2048x16384x3 (![0, 1, 2, 3] : Fin 4 → Fin S2x2048x16384x3.rank)
  bcast_S2x1x16384x3_S2x2048x16384x3_0_1_2_3 : S2x1x16384x3.BroadcastsInDim S2x2048x16384x3 (![0, 1, 2, 3] : Fin 4 → Fin S2x2048x16384x3.rank)
  reducesTo_S2x2048x16384x3_S2x2048x16384_d3 : S2x2048x16384x3.ReducesTo [3] S2x2048x16384
  h_S_ : 0 < S_.numel
  bcast_S_S2x2048x16384 : S_.BroadcastsInDim S2x2048x16384 (![] : Fin 0 → Fin S2x2048x16384.rank)
  natLt_1_32 : 1 < 32
  bcast_S_S_ : S_.BroadcastsInDim S_ (![] : Fin 0 → Fin S_.rank)
  reduceWindows_S2x2048x16384_S2x2048x16384_w1s1p0_0_w1s1p0_0_w16384s1p16383_0 : S2x2048x16384.ReduceWindows (![1, 1, 16384] : Fin 3 → Nat) ![1, 1, 1] ![0, 0, 16383] ![0, 0, 0] S2x2048x16384
  reducesTo_S2x2048x16384_S2x2048_d2 : S2x2048x16384.ReducesTo [2] S2x2048
  bcast_S_S2x2048 : S_.BroadcastsInDim S2x2048 (![] : Fin 0 → Fin S2x2048.rank)
  bcast_S2_S2x1x1_0 : S2.BroadcastsInDim S2x1x1 (![0] : Fin 1 → Fin S2x1x1.rank)
  bcast_S2048_S1x2048x1_1 : S2048.BroadcastsInDim S1x2048x1 (![1] : Fin 1 → Fin S1x2048x1.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x33 : S_.BroadcastsInDim S2x2048x33 (![] : Fin 0 → Fin S2x2048x33.rank)
  bcast_S_S2x1x1 : S_.BroadcastsInDim S2x1x1 (![] : Fin 0 → Fin S2x1x1.rank)
  bcast_S_S1x2048x1 : S_.BroadcastsInDim S1x2048x1 (![] : Fin 0 → Fin S1x2048x1.rank)
  bcast_S2x1x1_S2x2048x16384_0_1_2 : S2x1x1.BroadcastsInDim S2x2048x16384 (![0, 1, 2] : Fin 3 → Fin S2x2048x16384.rank)
  bcast_S1x2048x1_S2x2048x16384_0_1_2 : S1x2048x1.BroadcastsInDim S2x2048x16384 (![0, 1, 2] : Fin 3 → Fin S2x2048x16384.rank)
  bcast_S2x2048x16384_S2x2048x16384x1_0_1_2 : S2x2048x16384.BroadcastsInDim S2x2048x16384x1 (![0, 1, 2] : Fin 3 → Fin S2x2048x16384x1.rank)
  concatenates_S2x2048x16384x1_S2x2048x16384x1_S2x2048x16384x1_S2x2048x16384x3_d3 : Shape.Concatenates [S2x2048x16384x1, S2x2048x16384x1, S2x2048x16384x1] S2x2048x16384x3 3
  slices_S2x2048x33_S2x2048x32_0_0_0 : S2x2048x33.Slices ![0, 0, 0] S2x2048x32
  bcast_S32_S1x1x32_2 : S32.BroadcastsInDim S1x1x32 (![2] : Fin 1 → Fin S1x1x32.rank)
  bcast_S2x2048_S2x2048x1_0_1 : S2x2048.BroadcastsInDim S2x2048x1 (![0, 1] : Fin 2 → Fin S2x2048x1.rank)
  bcast_S1x1x32_S2x2048x32_0_1_2 : S1x1x32.BroadcastsInDim S2x2048x32 (![0, 1, 2] : Fin 3 → Fin S2x2048x32.rank)
  bcast_S2x2048x1_S2x2048x32_0_1_2 : S2x2048x1.BroadcastsInDim S2x2048x32 (![0, 1, 2] : Fin 3 → Fin S2x2048x32.rank)
  slices_S2x2048x32_S2x2048x1_0_0_0 : S2x2048x32.Slices ![0, 0, 0] S2x2048x1
  transposes_S2x16384x3_S2x3x16384_0_2_1 : S2x16384x3.Transposes [0, 2, 1] S2x3x16384
  concatenates_S2x3x16384_S2x64x16384_S2x67x16384_d1 : Shape.Concatenates [S2x3x16384, S2x64x16384] S2x67x16384 1
  shapeCasts_S2x2048x32_S2x1x65536 : S2x2048x32.ShapeCasts S2x1x65536
  transposes_S2x2048x3_S2x3x2048_0_2_1 : S2x2048x3.Transposes [0, 2, 1] S2x3x2048
  bcast_S2x3x2048_S2x3x2048x32_0_1_2 : S2x3x2048.BroadcastsInDim S2x3x2048x32 (![0, 1, 2] : Fin 3 → Fin S2x3x2048x32.rank)
  shapeCasts_S2x3x2048x32_S2x3x65536 : S2x3x2048x32.ShapeCasts S2x3x65536
  inb_S67x1024_S67x1024_0_0 : ∀ a, (![0, 0] : Fin 2 → Nat) a + S67x1024.size a ≤ S67x1024.size a
  h_S67x1024 : 0 < S67x1024.numel
  shapeCasts_S67x1024_S67x1024 : S67x1024.ShapeCasts S67x1024
  iota_S1024x1_d0_w32 : S1024x1.Iotas .tc 32 [0]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x67x1024_S1x67x1024_0_0_0 : ∀ a, (![0, 0, 0] : Fin 3 → Nat) a + S1x67x1024.size a ≤ S1x67x1024.size a
  h_S1x67x1024 : 0 < S1x67x1024.numel
  shapeCasts_S1x67x1024_S67x1024 : S1x67x1024.ShapeCasts S67x1024
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S67x1024_o0_0_S3x1024 : S67x1024.Slices ![0, 0] S3x1024
  inb_S1x67x1024_S1x3x1024_0_0_0 : ∀ a, (![0, 0, 0] : Fin 3 → Nat) a + S1x3x1024.size a ≤ S1x67x1024.size a
  shapeCasts_S3x1024_S1x3x1024 : S3x1024.ShapeCasts S1x3x1024
  slices_S67x1024_o3_0_S64x1024 : S67x1024.Slices ![3, 0] S64x1024
  inb_S1x67x1024_S1x64x1024_0_3_0 : ∀ a, (![0, 3, 0] : Fin 3 → Nat) a + S1x64x1024.size a ≤ S1x67x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S2x67x65536_S2x67x2048x32 : S2x67x65536.ShapeCasts S2x67x2048x32
  scatter_S2x2048x33_S2x2048x16384x3_S2x2048x16384_n_012_012_3_wf : ScatterDims.WF S2x2048x33 S2x2048x16384x3 S2x2048x16384 [] [0, 1, 2] [0, 1, 2] 3
  dot_S67x1024_S1024x1024_S67x1024_1_0_0_1_n_n_wf : DotDims.WF S67x1024 S1024x1024 S67x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S2x1x65536.size a
  hwx0_0 : ∀ i : grid0.Coords, EltTy.bits .i32 = 32 ∨ (Rect.block (s := S2x1x65536) S1x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x67x1024.size a ≤ S2x67x16384.size a
  hwx0_1 : ∀ i : grid0.Coords, EltTy.bits .f32 = 32 ∨ (Rect.block (s := S2x67x16384) S1x67x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1024.size a ≤ S2x3x65536.size a
  hwx0_2 : ∀ i : grid0.Coords, EltTy.bits .f32 = 32 ∨ (Rect.block (s := S2x3x65536) S1x3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x67x1024.size a ≤ S2x67x65536.size a
  hwx0_3 : ∀ i : grid0.Coords, EltTy.bits .f32 = 32 ∨ (Rect.block (s := S2x67x65536) S1x67x1024.size (cc0_transform_3 i) (hinb0_3 i)).WholeWords (EltTy.packing .f32)

variable [Facts₀]

def scatter_S2x2048x33_S2x2048x16384x3_S2x2048x16384_n_012_012_3 : ScatterDims S2x2048x33 S2x2048x16384x3 S2x2048x16384 where
  updateWindowDims := []
  insertedWindowDims := [0, 1, 2]
  scatterDimsToOperandDims := [0, 1, 2]
  indexVectorDim := 3
  wf := scatter_S2x2048x33_S2x2048x16384x3_S2x2048x16384_n_012_012_3_wf
def dot_S67x1024_S1024x1024_S67x1024_1_0_0_1_n_n : DotDims S67x1024 S1024x1024 S67x1024 where
  lhsContracting := [1]
  rhsContracting := [0]
  lhsNonContracting := [0]
  rhsNonContracting := [1]
  lhsBatch := []
  rhsBatch := []
  wf := dot_S67x1024_S1024x1024_S67x1024_1_0_0_1_n_n_wf

abbrev win0_0 : Pipeline.Window sig grid0 :=
  Pipeline.Window.ofSpec (Memref.whole main_v64) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S1x67x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x3x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S1x67x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x16384x3 : Shape := ⟨3, ![2, 16384, 3]⟩
abbrev S2x2048x3 : Shape := ⟨3, ![2, 2048, 3]⟩
abbrev S2x64x16384 : Shape := ⟨3, ![2, 64, 16384]⟩
abbrev S2x2048x1x3 : Shape := ⟨4, ![2, 2048, 1, 3]⟩
abbrev S2x1x16384x3 : Shape := ⟨4, ![2, 1, 16384, 3]⟩
abbrev S2x2048x16384x3 : Shape := ⟨4, ![2, 2048, 16384, 3]⟩
abbrev S_ : Shape := ⟨0, ![]⟩
abbrev S2x2048x16384 : Shape := ⟨3, ![2, 2048, 16384]⟩
abbrev S2x2048 : Shape := ⟨2, ![2, 2048]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S16384 : Shape := ⟨1, ![16384]⟩
abbrev S1x1x16384 : Shape := ⟨3, ![1, 1, 16384]⟩
abbrev S2x2048x33 : Shape := ⟨3, ![2, 2048, 33]⟩
abbrev S2x2048x16384x1 : Shape := ⟨4, ![2, 2048, 16384, 1]⟩
abbrev S2x2048x32 : Shape := ⟨3, ![2, 2048, 32]⟩
abbrev S32 : Shape := ⟨1, ![32]⟩
abbrev S1x1x32 : Shape := ⟨3, ![1, 1, 32]⟩
abbrev S2x2048x1 : Shape := ⟨3, ![2, 2048, 1]⟩
abbrev S2x3x16384 : Shape := ⟨3, ![2, 3, 16384]⟩
abbrev S2x1x65536 : Shape := ⟨3, ![2, 1, 65536]⟩
abbrev S2x65536x1 : Shape := ⟨3, ![2, 65536, 1]⟩
abbrev S1 : Shape := ⟨1, ![1]⟩
abbrev S1x1x1 : Shape := ⟨3, ![1, 1, 1]⟩
abbrev S2x65536 : Shape := ⟨2, ![2, 65536]⟩
abbrev S2x3x65536 : Shape := ⟨3, ![2, 3, 65536]⟩
abbrev S2x3x2048x32 : Shape := ⟨4, ![2, 3, 2048, 32]⟩
abbrev S2x3x2048 : Shape := ⟨3, ![2, 3, 2048]⟩
abbrev S2x3x2048x1 : Shape := ⟨4, ![2, 3, 2048, 1]⟩
abbrev S2x64x65536 : Shape := ⟨3, ![2, 64, 65536]⟩
abbrev S2x64x2048x32 : Shape := ⟨4, ![2, 64, 2048, 32]⟩
abbrev S2x67x2048x32 : Shape := ⟨4, ![2, 67, 2048, 32]⟩

abbrev nBuf : Space → Nat
  | .hbm => 142
  | .vmem => 0
  | .smem => 0
  | _ => 0

abbrev hbmTy0_0 (i : Nat) : BufTy := match i % 128 with
  | 0 => ⟨S2x16384x3, .f32⟩
  | 1 => ⟨S2x2048x3, .f32⟩
  | 2 => ⟨S2x64x16384, .f32⟩
  | 3 => ⟨S2x2048x1x3, .f32⟩
  | 4 => ⟨S2x1x16384x3, .f32⟩
  | 5 => ⟨S2x2048x16384x3, .f32⟩
  | 6 => ⟨S2x2048x16384x3, .f32⟩
  | 7 => ⟨S2x2048x16384x3, .f32⟩
  | 8 => ⟨S2x2048x16384x3, .f32⟩
  | 9 => ⟨S_, .f32⟩
  | 10 => ⟨S2x2048x16384, .f32⟩
  | 11 => ⟨S_, .f32⟩
  | 12 => ⟨S2x2048x16384, .f32⟩
  | 13 => ⟨S2x2048x16384, .i1⟩
  | 14 => ⟨S_, .f32⟩
  | 15 => ⟨S2x2048x16384, .f32⟩
  | 16 => ⟨S2x2048x16384, .i1⟩
  | 17 => ⟨S2x2048x16384, .i1⟩
  | 18 => ⟨S2x2048x16384, .i32⟩
  | 19 => ⟨S_, .i32⟩
  | 20 => ⟨S_, .i32⟩
  | 21 => ⟨S2x2048x16384, .i32⟩
  | 22 => ⟨S_, .i32⟩
  | 23 => ⟨S2x2048x16384, .i32⟩
  | 24 => ⟨S2x2048x16384, .i32⟩
  | 25 => ⟨S2x2048x16384, .i32⟩
  | 26 => ⟨S_, .i32⟩
  | 27 => ⟨S2x2048, .i32⟩
  | 28 => ⟨S_, .i32⟩
  | 29 => ⟨S2x2048, .i32⟩
  | 30 => ⟨S2x2048, .i32⟩
  | 31 => ⟨S_, .i32⟩
  | 32 => ⟨S2x2048x16384, .i32⟩
  | 33 => ⟨S2x2048x16384, .i1⟩
  | 34 => ⟨S2x2048x16384, .i1⟩
  | 35 => ⟨S_, .i32⟩
  | 36 => ⟨S_, .i32⟩
  | 37 => ⟨S2x2048x16384, .i32⟩
  | 38 => ⟨S2x2048x16384, .i32⟩
  | 39 => ⟨S2, .i32⟩
  | 40 => ⟨S2x1x1, .i32⟩
  | 41 => ⟨S2048, .i32⟩
  | 42 => ⟨S1x2048x1, .i32⟩
  | 43 => ⟨S16384, .i32⟩
  | 44 => ⟨S1x1x16384, .i32⟩
  | 45 => ⟨S2x2048x16384, .i32⟩
  | 46 => ⟨S_, .i32⟩
  | 47 => ⟨S2x2048x33, .i32⟩
  | 48 => ⟨S_, .i32⟩
  | 49 => ⟨S2x1x1, .i32⟩
  | 50 => ⟨S2x1x1, .i1⟩
  | 51 => ⟨S_, .i32⟩
  | 52 => ⟨S2x1x1, .i32⟩
  | 53 => ⟨S2x1x1, .i32⟩
  | 54 => ⟨S2x1x1, .i32⟩
  | 55 => ⟨S_, .i32⟩
  | 56 => ⟨S1x2048x1, .i32⟩
  | 57 => ⟨S1x2048x1, .i1⟩
  | 58 => ⟨S_, .i32⟩
  | 59 => ⟨S1x2048x1, .i32⟩
  | 60 => ⟨S1x2048x1, .i32⟩
  | 61 => ⟨S1x2048x1, .i32⟩
  | 62 => ⟨S_, .i32⟩
  | 63 => ⟨S2x2048x16384, .i32⟩
  | 64 => ⟨S2x2048x16384, .i1⟩
  | 65 => ⟨S_, .i32⟩
  | 66 => ⟨S2x2048x16384, .i32⟩
  | 67 => ⟨S2x2048x16384, .i32⟩
  | 68 => ⟨S2x2048x16384, .i32⟩
  | 69 => ⟨S2x2048x16384, .i32⟩
  | 70 => ⟨S2x2048x16384, .i32⟩
  | 71 => ⟨S2x2048x16384x1, .i32⟩
  | 72 => ⟨S2x2048x16384x1, .i32⟩
  | 73 => ⟨S2x2048x16384x1, .i32⟩
  | 74 => ⟨S2x2048x16384x3, .i32⟩
  | 75 => ⟨S2x2048x33, .i32⟩
  | 76 => ⟨S2x2048x32, .i32⟩
  | 77 => ⟨S32, .i32⟩
  | 78 => ⟨S1x1x32, .i32⟩
  | 79 => ⟨S2x2048x1, .i32⟩
  | 80 => ⟨S2x2048x32, .i32⟩
  | 81 => ⟨S2x2048x32, .i32⟩
  | 82 => ⟨S2x2048x32, .i1⟩
  | 83 => ⟨S2x2048x1, .i32⟩
  | 84 => ⟨S2x2048x32, .i32⟩
  | 85 => ⟨S2x2048x32, .i32⟩
  | 86 => ⟨S2x3x16384, .f32⟩
  | 87 => ⟨S2x1x65536, .i32⟩
  | 88 => ⟨S_, .i32⟩
  | 89 => ⟨S2x1x65536, .i32⟩
  | 90 => ⟨S2x1x65536, .i1⟩
  | 91 => ⟨S_, .i32⟩
  | 92 => ⟨S2x1x65536, .i32⟩
  | 93 => ⟨S2x1x65536, .i32⟩
  | 94 => ⟨S2x1x65536, .i32⟩
  | 95 => ⟨S2x65536x1, .i32⟩
  | 96 => ⟨S1, .i32⟩
  | 97 => ⟨S_, .i32⟩
  | 98 => ⟨S2x65536x1, .i32⟩
  | 99 => ⟨S2x65536x1, .i1⟩
  | 100 => ⟨S1x1x1, .i32⟩
  | 101 => ⟨S2x65536x1, .i32⟩
  | 102 => ⟨S2x65536x1, .i1⟩
  | 103 => ⟨S2x65536x1, .i1⟩
  | 104 => ⟨S_, .i1⟩
  | 105 => ⟨S2x65536, .i1⟩
  | 106 => ⟨S2x3x65536, .f32⟩
  | 107 => ⟨S2x3x65536, .i1⟩
  | 108 => ⟨S_, .f32⟩
  | 109 => ⟨S2x3x65536, .f32⟩
  | 110 => ⟨S2x3x65536, .f32⟩
  | 111 => ⟨S2x3x2048x32, .f32⟩
  | 112 => ⟨S2x3x2048, .f32⟩
  | 113 => ⟨S2x3x2048x1, .f32⟩
  | 114 => ⟨S2x3x2048x32, .f32⟩
  | 115 => ⟨S2x3x2048x32, .f32⟩
  | 116 => ⟨S2x1x65536, .i32⟩
  | 117 => ⟨S_, .i32⟩
  | 118 => ⟨S2x1x65536, .i32⟩
  | 119 => ⟨S2x1x65536, .i1⟩
  | 120 => ⟨S_, .i32⟩
  | 121 => ⟨S2x1x65536, .i32⟩
  | 122 => ⟨S2x1x65536, .i32⟩
  | 123 => ⟨S2x1x65536, .i32⟩
  | 124 => ⟨S2x65536x1, .i32⟩
  | 125 => ⟨S1, .i32⟩
  | 126 => ⟨S_, .i32⟩
  | 127 => ⟨S2x65536x1, .i32⟩
  | _ => ⟨S2x16384x3, .f32⟩

abbrev hbmTy0_1 (i : Nat) : BufTy := match i % 128 with
  | 0 => ⟨S2x65536x1, .i1⟩
  | 1 => ⟨S1x1x1, .i32⟩
  | 2 => ⟨S2x65536x1, .i32⟩
  | 3 => ⟨S2x65536x1, .i1⟩
  | 4 => ⟨S2x65536x1, .i1⟩
  | 5 => ⟨S_, .i1⟩
  | 6 => ⟨S2x65536, .i1⟩
  | 7 => ⟨S2x64x65536, .f32⟩
  | 8 => ⟨S2x64x65536, .i1⟩
  | 9 => ⟨S_, .f32⟩
  | 10 => ⟨S2x64x65536, .f32⟩
  | 11 => ⟨S2x64x65536, .f32⟩
  | 12 => ⟨S2x64x2048x32, .f32⟩
  | 13 => ⟨S2x67x2048x32, .f32⟩
  | _ => ⟨S2x16384x3, .f32⟩

abbrev hbmTy (i : Nat) : BufTy := match i / 128 with
  | 0 => hbmTy0_0 i
  | 1 => hbmTy0_1 i
  | _ => ⟨S2x16384x3, .f32⟩

abbrev bufTy : (tb : Table) → Fin (tcTables nBuf tb) → BufTy
  | .hbm, ⟨i, _⟩ => hbmTy i
  | _, _ => ⟨S2x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_c : Ref sig .tc := ⟨.hbm, 19, rfl⟩
abbrev main_call0_call0_v0 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩

abbrev nD : Nat := 1
abbrev τ : Topo := Topo.v7x

variable {F : FTy → Type} [FloatOps F]

class Facts₀ : Prop where
  bcast_S2x2048x3_S2x2048x1x3_0_1_3 : S2x2048x3.BroadcastsInDim S2x2048x1x3 (![0, 1, 3] : Fin 3 → Fin S2x2048x1x3.rank)
  bcast_S2x16384x3_S2x1x16384x3_0_2_3 : S2x16384x3.BroadcastsInDim S2x1x16384x3 (![0, 2, 3] : Fin 3 → Fin S2x1x16384x3.rank)
  bcast_S2x2048x1x3_S2x2048x16384x3_0_1_2_3 : S2x2048x1x3.BroadcastsInDim S2x2048x16384x3 (![0, 1, 2, 3] : Fin 4 → Fin S2x2048x16384x3.rank)
  bcast_S2x1x16384x3_S2x2048x16384x3_0_1_2_3 : S2x1x16384x3.BroadcastsInDim S2x2048x16384x3 (![0, 1, 2, 3] : Fin 4 → Fin S2x2048x16384x3.rank)
  reducesTo_S2x2048x16384x3_S2x2048x16384_d3 : S2x2048x16384x3.ReducesTo [3] S2x2048x16384
  h_S_ : 0 < S_.numel
  bcast_S_S2x2048x16384 : S_.BroadcastsInDim S2x2048x16384 (![] : Fin 0 → Fin S2x2048x16384.rank)
  natLt_1_32 : 1 < 32
  bcast_S_S_ : S_.BroadcastsInDim S_ (![] : Fin 0 → Fin S_.rank)
  reduceWindows_S2x2048x16384_S2x2048x16384_w1s1p0_0_w1s1p0_0_w16384s1p16383_0 : S2x2048x16384.ReduceWindows (![1, 1, 16384] : Fin 3 → Nat) ![1, 1, 1] ![0, 0, 16383] ![0, 0, 0] S2x2048x16384
  reducesTo_S2x2048x16384_S2x2048_d2 : S2x2048x16384.ReducesTo [2] S2x2048
  bcast_S_S2x2048 : S_.BroadcastsInDim S2x2048 (![] : Fin 0 → Fin S2x2048.rank)
  bcast_S2_S2x1x1_0 : S2.BroadcastsInDim S2x1x1 (![0] : Fin 1 → Fin S2x1x1.rank)
  bcast_S2048_S1x2048x1_1 : S2048.BroadcastsInDim S1x2048x1 (![1] : Fin 1 → Fin S1x2048x1.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x33 : S_.BroadcastsInDim S2x2048x33 (![] : Fin 0 → Fin S2x2048x33.rank)
  bcast_S_S2x1x1 : S_.BroadcastsInDim S2x1x1 (![] : Fin 0 → Fin S2x1x1.rank)
  bcast_S_S1x2048x1 : S_.BroadcastsInDim S1x2048x1 (![] : Fin 0 → Fin S1x2048x1.rank)
  bcast_S2x1x1_S2x2048x16384_0_1_2 : S2x1x1.BroadcastsInDim S2x2048x16384 (![0, 1, 2] : Fin 3 → Fin S2x2048x16384.rank)
  bcast_S1x2048x1_S2x2048x16384_0_1_2 : S1x2048x1.BroadcastsInDim S2x2048x16384 (![0, 1, 2] : Fin 3 → Fin S2x2048x16384.rank)
  bcast_S2x2048x16384_S2x2048x16384x1_0_1_2 : S2x2048x16384.BroadcastsInDim S2x2048x16384x1 (![0, 1, 2] : Fin 3 → Fin S2x2048x16384x1.rank)
  concatenates_S2x2048x16384x1_S2x2048x16384x1_S2x2048x16384x1_S2x2048x16384x3_d3 : Shape.Concatenates [S2x2048x16384x1, S2x2048x16384x1, S2x2048x16384x1] S2x2048x16384x3 3
  slices_S2x2048x33_S2x2048x32_0_0_0 : S2x2048x33.Slices ![0, 0, 0] S2x2048x32
  bcast_S32_S1x1x32_2 : S32.BroadcastsInDim S1x1x32 (![2] : Fin 1 → Fin S1x1x32.rank)
  bcast_S2x2048_S2x2048x1_0_1 : S2x2048.BroadcastsInDim S2x2048x1 (![0, 1] : Fin 2 → Fin S2x2048x1.rank)
  bcast_S1x1x32_S2x2048x32_0_1_2 : S1x1x32.BroadcastsInDim S2x2048x32 (![0, 1, 2] : Fin 3 → Fin S2x2048x32.rank)
  bcast_S2x2048x1_S2x2048x32_0_1_2 : S2x2048x1.BroadcastsInDim S2x2048x32 (![0, 1, 2] : Fin 3 → Fin S2x2048x32.rank)
  slices_S2x2048x32_S2x2048x1_0_0_0 : S2x2048x32.Slices ![0, 0, 0] S2x2048x1
  transposes_S2x16384x3_S2x3x16384_0_2_1 : S2x16384x3.Transposes [0, 2, 1] S2x3x16384
  shapeCasts_S2x2048x32_S2x1x65536 : S2x2048x32.ShapeCasts S2x1x65536
  bcast_S_S2x1x65536 : S_.BroadcastsInDim S2x1x65536 (![] : Fin 0 → Fin S2x1x65536.rank)
  shapeCasts_S2x1x65536_S2x65536x1 : S2x1x65536.ShapeCasts S2x65536x1
  bcast_S_S2x65536x1 : S_.BroadcastsInDim S2x65536x1 (![] : Fin 0 → Fin S2x65536x1.rank)
  bcast_S1_S1x1x1_2 : S1.BroadcastsInDim S1x1x1 (![2] : Fin 1 → Fin S1x1x1.rank)
  bcast_S1x1x1_S2x65536x1_0_1_2 : S1x1x1.BroadcastsInDim S2x65536x1 (![0, 1, 2] : Fin 3 → Fin S2x65536x1.rank)
  reducesTo_S2x65536x1_S2x65536_d2 : S2x65536x1.ReducesTo [2] S2x65536
  bcast_S2x65536_S2x3x65536_0_2 : S2x65536.BroadcastsInDim S2x3x65536 (![0, 2] : Fin 2 → Fin S2x3x65536.rank)
  bcast_S_S2x3x65536 : S_.BroadcastsInDim S2x3x65536 (![] : Fin 0 → Fin S2x3x65536.rank)
  shapeCasts_S2x3x65536_S2x3x2048x32 : S2x3x65536.ShapeCasts S2x3x2048x32
  transposes_S2x2048x3_S2x3x2048_0_2_1 : S2x2048x3.Transposes [0, 2, 1] S2x3x2048
  bcast_S2x3x2048_S2x3x2048x1_0_1_2 : S2x3x2048.BroadcastsInDim S2x3x2048x1 (![0, 1, 2] : Fin 3 → Fin S2x3x2048x1.rank)
  bcast_S2x3x2048x1_S2x3x2048x32_0_1_2_3 : S2x3x2048x1.BroadcastsInDim S2x3x2048x32 (![0, 1, 2, 3] : Fin 4 → Fin S2x3x2048x32.rank)
  bcast_S2x65536_S2x64x65536_0_2 : S2x65536.BroadcastsInDim S2x64x65536 (![0, 2] : Fin 2 → Fin S2x64x65536.rank)
  bcast_S_S2x64x65536 : S_.BroadcastsInDim S2x64x65536 (![] : Fin 0 → Fin S2x64x65536.rank)
  shapeCasts_S2x64x65536_S2x64x2048x32 : S2x64x65536.ShapeCasts S2x64x2048x32
  concatenates_S2x3x2048x32_S2x64x2048x32_S2x67x2048x32_d1 : Shape.Concatenates [S2x3x2048x32, S2x64x2048x32] S2x67x2048x32 1
  scatter_S2x2048x33_S2x2048x16384x3_S2x2048x16384_n_012_012_3_wf : ScatterDims.WF S2x2048x33 S2x2048x16384x3 S2x2048x16384 [] [0, 1, 2] [0, 1, 2] 3
  gather_S2x3x16384_S2x65536x1_S2x3x65536_1_2_0_0_2_2_131_wf : GatherDims.WF S2x3x16384 S2x65536x1 S2x3x65536 [1] [2] [0] [2] [0] 2 ![1, 3, 1]
  gather_S2x64x16384_S2x65536x1_S2x64x65536_1_2_0_0_2_2_1641_wf : GatherDims.WF S2x64x16384 S2x65536x1 S2x64x65536 [1] [2] [0] [2] [0] 2 ![1, 64, 1]

variable [Facts₀]

def scatter_S2x2048x33_S2x2048x16384x3_S2x2048x16384_n_012_012_3 : ScatterDims S2x2048x33 S2x2048x16384x3 S2x2048x16384 where
  updateWindowDims := []
  insertedWindowDims := [0, 1, 2]
  scatterDimsToOperandDims := [0, 1, 2]
  indexVectorDim := 3
  wf := scatter_S2x2048x33_S2x2048x16384x3_S2x2048x16384_n_012_012_3_wf
def gather_S2x3x16384_S2x65536x1_S2x3x65536_1_2_0_0_2_2_131 : GatherDims S2x3x16384 S2x65536x1 S2x3x65536 where
  offsetDims := [1]
  collapsedSliceDims := [2]
  operandBatchingDims := [0]
  startIndicesBatchingDims := [0]
  startIndexMap := [2]
  indexVectorDim := 2
  sliceSizes := ![1, 3, 1]
  wf := gather_S2x3x16384_S2x65536x1_S2x3x65536_1_2_0_0_2_2_131_wf
def gather_S2x64x16384_S2x65536x1_S2x64x65536_1_2_0_0_2_2_1641 : GatherDims S2x64x16384 S2x65536x1 S2x64x65536 where
  offsetDims := [1]
  collapsedSliceDims := [2]
  operandBatchingDims := [0]
  startIndicesBatchingDims := [0]
  startIndexMap := [2]
  indexVectorDim := 2
  sliceSizes := ![1, 64, 1]
  wf := gather_S2x64x16384_S2x65536x1_S2x64x65536_1_2_0_0_2_2_1641_wf

class Facts : Prop extends Facts₀ where

variable [Facts]
-- ==== Proof.KCond.lean ====
/-
  The gather kernel's two branches as propositions over the grid point, where each holds, where the output
  window is idle, and the memrefs the pipeline passes the body at a point.

  The grid is (batch, query tile, table tile) = (2, 64, 16), the table tile running fastest: point t has
  table tile t mod 16. The first branch (clear the accumulator) is taken at table tile 0, the second
  (write the output block) at table tile 15; at the other tiles the body only accumulates.
-/
import proofs.«138576_j31576599560762_1_alg».proof.Proof.Gen.Kernel.Launch
import proofs.«138576_j31576599560762_1_alg».proof.Proof.Gen.Kernel.Skeleton
import proofs.«138576_j31576599560762_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The accumulator is cleared: the table-tile coordinate is 0. -/
abbrev cond0_0 (i : grid0.Coords) : Prop := (Scalar.cmpi .ne (Scalar.extui (Scalar.cmpi .eq (BitVec.ofNat 32 (i 2).val) 0#32)) 0#32) = 1#1
/-- That is at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The output block is written: the table-tile coordinate is 15. -/
abbrev cond0_1 (i : grid0.Coords) : Prop := k0_cond2 i = 1#1
/-- That is at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output block is not written (table tile below 15) the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At table tile 15 the output window is live. -/
theorem liveAt0_3_C : ∀ t : Fin cfg0.N, ¬cond0_0 (grid0.coords t) → cond0_1 (grid0.coords t) → cfg0.idle 3 (grid0.coords t) = false := by decide +kernel

/-! ## The memrefs at a point -/

/-- One staging buffer of the output window, through which its contents are stated. -/
abbrev VO0_3 : View sig .tc .vmem S1x67x1024 .f32 := (Memref.whole cc0_stg3_0 : Memref sig .tc .vmem S1x67x1024 .f32).view
/-- Each window's current staging memref at point `t`, as the pipeline passes it, and its wholeness. -/
abbrev ms0_0 (t : Fin cfg0.N) : Memref sig .tc .vmem S1x1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x67x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x67x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S67x1024 .f32 := Memref.whole cc0_scratch0
abbrev VS0_0 : View sig .tc .vmem S67x1024 .f32 := scM0_0.view

/-- What the launch hands the region besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/-
  The gather kernel's body at a point of table tile 0 (the first branch taken, the second not), run as one
  weakest-precondition triple over any whole staging memrefs.

  At table tile 0 the accumulator holds nothing of this query tile yet. The body reads it once (the value is used
  by no store), overwrites all of it with zeros, reads the index row, the table block and the accumulator (now
  zero), and overwrites all of the accumulator with zero plus the one-hot product. The output block is not touched:
  table tile 0 is not the last one. So the accumulator ends as two whole-buffer writes over whatever it held, and
  the output buffer ends as it began.
-/
import proofs.«138576_j31576599560762_1_alg».proof.Proof.KCond

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Table tile 0. The pieces written, last first: none into the output buffer; into the accumulator the
    accumulating store over the clearing store, each covering all 67 x 1024 cells. With them the triple: from the
    three inputs at their contents `x0`, `x1`, `x2`, the output buffer at any contents `xi3` and the accumulator at
    some contents, the body reaches a continuation that is given the inputs and the output buffer back unchanged
    and the accumulator with its two pieces written over what it held. -/
noncomputable def kernelRun0_A (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) :
    Σ' (L3 : List (View.Piece (Elt F) S1x67x1024 .f32)), { LS0 : List (View.Piece (Elt F) S67x1024 .f32) //
      ∀ (xi3 : Vec F S1x67x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  -- no piece for the output buffer; the accumulator's pieces are read off the run
  refine ⟨[], ?_, fun xi3 E K => ?run⟩
  case run =>
    simp only [cc0__gather_kernel_eq_skeleton]; unfold cc0__gather_kernel_skel
    unfold owns
    -- the four window buffers come with the function they are the unread image of; the accumulator with any function
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    -- the body: first branch in, second branch out
    sl_exec (disch := first | exact hc0 | exact hc1)
    sl_step
    iapply Hk
    -- every window buffer goes back holding what was read off it
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    -- the accumulator goes back as written: this fixes its pieces
    iexists _; iexact HS0

end Cert.Kernel.Fr

end
-- ==== Proof.KRunB.lean ====
/-
  The gather kernel's body at a point of a middle table tile (1 to 14: neither branch taken), run as one
  weakest-precondition triple over any whole staging memrefs.

  The accumulator holds the partial sum over the table tiles before this one. Nothing is cleared. The body reads
  the index row, the table block and the accumulator, and overwrites all of the accumulator with the partial sum
  plus this tile's one-hot product. The output block is not touched. So the accumulator ends as one whole-buffer
  write over the partial sum it was handed, and the output buffer ends as it began.
-/
import proofs.«138576_j31576599560762_1_alg».proof.Proof.KRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Table tiles 1 to 14. The pieces written: none into the output buffer; into the accumulator the one
    accumulating store, covering all 67 x 1024 cells. With them the triple: from the three inputs at their
    contents `x0`, `x1`, `x2`, the output buffer at any contents `xi3` and the accumulator at the partial sum
    `xs0` the point before left, the body reaches a continuation that is given the inputs and the output buffer
    back unchanged and the accumulator with its piece written over `xs0`. -/
noncomputable def kernelRun0_B (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) :
    Σ' (L3 : List (View.Piece (Elt F) S1x67x1024 .f32)), { LS0 : List (View.Piece (Elt F) S67x1024 .f32) //
      ∀ (xi3 : Vec F S1x67x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  -- no piece for the output buffer; the accumulator's piece is read off the run
  refine ⟨[], ?_, fun xi3 E K => ?run⟩
  case run =>
    simp only [cc0__gather_kernel_eq_skeleton]; unfold cc0__gather_kernel_skel
    unfold owns
    -- all five buffers come with the function they are the unread image of
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    -- the body: both branches out
    sl_exec (disch := first | exact hc0 | exact hc1)
    sl_step
    iapply Hk
    -- every window buffer goes back holding what was read off it
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    -- the accumulator goes back as written: this fixes its piece
    iexists _; iexact HS0

end Cert.Kernel.Fr

end
-- ==== Proof.KRunC.lean ====
/-
  The gather kernel's body at a point of table tile 15 (the first branch not taken, the second taken), run as
  one weakest-precondition triple over any whole staging memrefs.

  The accumulator holds the partial sum over table tiles 0 to 14. The body reads the index row, the table block and
  the accumulator, and overwrites all of the accumulator with the full sum. Then the second branch: it reads the
  accumulator (the full sum) and the third input (3 x 1024), reads rows 0 to 2 of the output buffer (the value is
  used by no store) and overwrites them with the first three rows of the sum minus the third input; it reads rows
  3 to 66 of the output buffer (again used by no store) and overwrites them with rows 3 to 66 of the sum. The two
  row bands 0..2 and 3..66 tile the 67 rows, so every cell of the output buffer is written, whatever it held.
-/
import proofs.«138576_j31576599560762_1_alg».proof.Proof.KRunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Table tile 15. The pieces written, last first: into the output buffer the band of rows 3 to 66 over the
    band of rows 0 to 2; into the accumulator the one accumulating store, covering all 67 x 1024 cells. With them
    the triple: from the three inputs at their contents `x0`, `x1`, `x2`, the output buffer at some contents and
    the accumulator at the partial sum `xs0` the point before left, the body reaches a continuation that is given
    the inputs back unchanged and the output buffer and the accumulator each with its pieces written. -/
noncomputable def kernelRun0_C (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) :
    Σ' (L3 : List (View.Piece (Elt F) S1x67x1024 .f32)), { LS0 : List (View.Piece (Elt F) S67x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  -- both lists of pieces are read off the run
  refine ⟨?_, ?_, fun E K => ?run⟩
  case run =>
    simp only [cc0__gather_kernel_eq_skeleton]; unfold cc0__gather_kernel_skel
    unfold owns
    -- the inputs and the accumulator come with the function they are the unread image of; the output buffer with any
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    -- the body: first branch out, second branch in
    sl_exec (disch := first | exact hc0 | exact hc1)
    sl_step
    iapply Hk
    -- the inputs go back holding what was read off them
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    -- the output buffer and the accumulator go back as written: this fixes their pieces
    isplitl [H3]; · iexists _; iexact H3
    iexists _; iexact HS0

end Cert.Kernel.Fr

end
-- ==== Proof.KOuts.lean ====
/-
  What each of the gather kernel's three cases leaves in the output window's staging buffer and in the accumulator.

  Point t of the 2048-point grid works on table tile t mod 16. At table tile 0 the body clears the 67 x 1024
  accumulator and adds the first matrix product; at table tiles 1 .. 14 it adds a product to what it finds; at table
  tile 15 it adds the last product and copies the sum into the output block, rows 0 .. 2 combined with the third
  input, rows 3 .. 66 as they are. Each case's run comes with the pieces (rectangle, values) it stored, last store
  first. Here those pieces are shown to cover the buffer they were stored into, and the contents they leave are named:
  pieces that cover a buffer leave contents that depend on nothing else.
-/
import proofs.«138576_j31576599560762_1_alg».proof.Proof.KRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves

A case's stores are a list of pieces (rectangle, values), last store first. Written over any prior contents and read
back, a list that covers the whole shape gives contents that depend on the pieces alone; that is how the contents
below are named: the pieces written over arbitrary contents of one fixed buffer, read back. -/

/-- Table tile 0 stores nothing into the output buffer. The name stands for "no pieces read back", a value nothing
    consults: at these points the buffer is neither written back nor looked at by the next point. -/
def out0_A_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) : Vec F S1x67x1024 .f32 :=
  VO0_3.read (Elt F) (VO0_3.writes (Elt F) VO0_3.junk (kernelRun0_A c i arg3 harg3 arg4 harg4 arg5 harg5 arg6 harg6 arg7 harg7 hc0 hc1 x0 x1 x2).1)

/-- Table tile 0's accumulator pieces, the clearing store and the accumulating store, are each the whole 67 x 1024
    rectangle, so together they cover it. -/
theorem scover0_A_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) (y : S67x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S67x1024.size (by sl_kernel_rfl) y

/-- What table tile 0 leaves in the accumulator: zero plus the first product. -/
def sout0_A_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) : Vec F S67x1024 .f32 :=
  VS0_0.read (Elt F) (VS0_0.writes (Elt F) VS0_0.junk (kernelRun0_A c i arg3 harg3 arg4 harg4 arg5 harg5 arg6 harg6 arg7 harg7 hc0 hc1 x0 x1 x2).2.1)

/-- Table tiles 1 .. 14 store nothing into the output buffer either (the same placeholder). -/
def out0_B_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) : Vec F S1x67x1024 .f32 :=
  VO0_3.read (Elt F) (VO0_3.writes (Elt F) VO0_3.junk (kernelRun0_B c i arg3 harg3 arg4 harg4 arg5 harg5 arg6 harg6 arg7 harg7 hc0 hc1 x0 x1 x2 xs0).1)

/-- Their one accumulator piece is the whole rectangle. -/
theorem scover0_B_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) (y : S67x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S67x1024.size (by sl_kernel_rfl) y

/-- What a middle table tile leaves in the accumulator: what it found, `xs0`, plus its product. -/
def sout0_B_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) : Vec F S67x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- Table tile 15 fills the output block in two stores of different heights, rows 0 .. 2 and rows 3 .. 66, each
    1024 wide. Cut into single rows of 1024 (one row is the common measure of the heights 3 and 64 and of the
    offsets 0 and 3) they are 67 rows, one at each row offset: they cover the block. -/
theorem cover0_C_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) (y : S1x67x1024.Idx) :
    ∃ pc ∈ (kernelRun0_C c i arg3 harg3 arg4 harg4 arg5 harg5 arg6 harg6 arg7 harg7 hc0 hc1 x0 x1 x2 xs0).1, y ∈ pc.1.set :=
  View.cover_of_tiledBy (kernelRun0_C c i arg3 harg3 arg4 harg4 arg5 harg5 arg6 harg6 arg7 harg7 hc0 hc1 x0 x1 x2 xs0).1 ![1, 1, 1024] (by sl_kernel_rfl) y

/-- What table tile 15 leaves in the output's staging buffer: the finished block. -/
def out0_C_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) : Vec F S1x67x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-- Its one accumulator piece is the whole rectangle. -/
theorem scover0_C_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) (y : S67x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S67x1024.size (by sl_kernel_rfl) y

/-- What table tile 15 leaves in the accumulator: the full sum of the sixteen products. -/
def sout0_C_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) : Vec F S67x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

end Cert.Kernel.Fr

end
-- ==== Proof.KAround.lean ====
/-
  The gather program around its one kernel region.

  The program is seven stretches of host operations (90 operations: the neighbour search, the index table,
  the three arrays the kernel reads), the kernel region, and one reshape of the kernel's output. This module
  reduces a run of the whole program to the region continued by that reshape, names the contents the region
  finds (the launch contents pushed through the 90 operations, kept folded), and reads the frame claim off a
  run of the region: the three argument arrays are written by no host operation and staged by no window, so
  they end as launched.
-/
import proofs.«138576_j31576599560762_1_alg».proof.Proof.KCond

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch contents after the seven stretches of host
    operations, in program order. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a TensorCore reference. -/
abbrev V (c : Dev nD) (b : Ref sig .tc) : Buf (Elt F) ((c : Thread nD τ).loc b) := V0 m c (Proc.devRef .tc b)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The program around the region -/

/-- A run of the program from the launch contents is a run of the region from `V` continued by the reshape of
    the kernel's output: the seven stretches before the region touch unscoped TensorCore buffers only and
    allocate nothing, so they carry the launch contents to `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    (by simp only [List.Forall]
        exact ⟨hostOps0_sub, hostOps0_1_sub, hostOps0_2_sub, hostOps0_3_sub, hostOps0_4_sub, hostOps0_5_sub, hostOps0_6_sub⟩)
    (by simp only [List.Forall]
        exact ⟨hostOps0_fresh, hostOps0_1_fresh, hostOps0_2_fresh, hostOps0_3_fresh, hostOps0_4_fresh, hostOps0_5_fresh, hostOps0_6_fresh⟩)
    main_chain

/-! ## The reshape after the region -/

/-- It touches only buffers a line after the region may touch: with nothing prefetched those are all the
    unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes none of the kernel's four arrays: its result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are written by nobody -/

/-- Every host operation writes exactly its one result buffer, and no result buffer is the given reference:
    closes "no operation of these literal stretches writes this literal reference". -/
local macro "no_host_write" : tactic => `(tactic|
  (simp only [hostOps0, hostOps0_1, hostOps0_2, hostOps0_3, hostOps0_4, hostOps0_5, hostOps0_6, hostOps1,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.nary_writes, StableHlo.reshape_writes, Finset.mem_singleton]
   repeat' apply And.intro
   all_goals exact StableHlo.devRef_ne_of_ne (by decide)))

/-- The region finds the first argument as launched. -/
theorem V_main_arg0 (c : Dev nD) : V m c main_arg0 = m ((c : Thread nD τ).loc main_arg0) :=
  StableHlo.after_of_forall_not_mem (b := Proc.devRef .tc main_arg0) _ _ (List.forall_iff_forall_mem.mp (by no_host_write))
/-- The region finds the second argument as launched. -/
theorem V_main_arg1 (c : Dev nD) : V m c main_arg1 = m ((c : Thread nD τ).loc main_arg1) :=
  StableHlo.after_of_forall_not_mem (b := Proc.devRef .tc main_arg1) _ _ (List.forall_iff_forall_mem.mp (by no_host_write))
/-- The region finds the third argument as launched. -/
theorem V_main_arg2 (c : Dev nD) : V m c main_arg2 = m ((c : Thread nD τ).loc main_arg2) :=
  StableHlo.after_of_forall_not_mem (b := Proc.devRef .tc main_arg2) _ _ (List.forall_iff_forall_mem.mp (by no_host_write))

/-- After the region and the reshape the first argument is still as launched: the reshape does not write it, and it
    is none of the kernel's arrays, so overwriting those with what the region leaves does not reach it. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_host_write)),
    Pipeline.withArrays_of_ne _ c (V0 m c) _ main_arg0 (by exact (by decide : ∀ w, Pipeline.arrRef spec0 w ≠ main_arg0))]
  exact V_main_arg0 m c
/-- Likewise the second argument. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_host_write)),
    Pipeline.withArrays_of_ne _ c (V0 m c) _ main_arg1 (by exact (by decide : ∀ w, Pipeline.arrRef spec0 w ≠ main_arg1))]
  exact V_main_arg1 m c
/-- Likewise the third argument. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by no_host_write)),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`: its rectangle of the window's array, read off the contents the region
    finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The index window's staging buffer holds its block at every grid point, whether the pipeline fetched there or
    not (unfetched, the block index has not moved since the last fetch): for any proof data whose array is the
    region's entry contents and whose body leaves the block in place. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the table window (window 1). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of the query-coordinate window (window 2). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim off a run of the region -/

/-- From a run whose post says "each kernel array holds what the proof data compute, every other unscoped buffer
    what it held at the region's entry pushed through the reshape", the frame claim: each argument array is
    unscoped and none of the kernel's arrays, so the post's second clause speaks of it, and there it is as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.Kernel.Fr

end
-- ==== Proof.KFrame.lean ====
/-
  The frame of the gather kernel's program, assembled.

  The grid has 2 * 64 * 16 = 2048 points, the table tile running fastest, so point t works on table tile t mod 16.
  For one (batch, query tile) pair the sixteen table tiles add sixteen matrix products into one 67 x 1024
  accumulator, which lives in a buffer of the kernel's own and so survives from point to point:
    * at table tile 0 the accumulator is first cleared, then the first product is added;
    * at table tiles 1 .. 14 a product is added to what the point before left;
    * at table tile 15 the last product is added and the finished sum is copied into the output block, rows 0 .. 2
      combined with the third input and rows 3 .. 66 as they are.
  Only at table tile 15 does the output window hold anything the pipeline writes back; at the other points it is
  handed to the body and taken back untouched.

  Given what each case leaves in the two buffers, this file states what the output's staging buffer and the accumulator hold after every point (a recursion on the
  point, since a point's accumulator is a function of the one before), takes that as the pipeline's proof data,
  proves the body's obligation at a generic point by the three cases, and concludes the frame run and the frame
  claim: the three argument arrays of the program end as they began.
-/
import proofs.«138576_j31576599560762_1_alg».proof.Proof.KOuts
import proofs.«138576_j31576599560762_1_alg».proof.Proof.KAround

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The pair (output staging buffer, accumulator) after the body at position `n`, by recursion on `n`: the residue of
    `n` mod 16 selects the case; the case runs on the point's own memrefs and input blocks, and, unless it is the
    clearing case, on the accumulator the position before left. No position has residue 0 and 15 at once. -/
def outsAt0 (c : Dev nD) : (n : ℕ) → n < cfg0.N → Vec F S1x67x1024 .f32 × Vec F S67x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => by have h' : (0 : ℕ) % 16 = 15 := (hcond0_1 ⟨0, hn⟩).mp h; omega) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => by have h' : (0 : ℕ) % 16 = 15 := (hcond0_1 ⟨0, hn⟩).mp h; omega) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a point of table tile 0: the clearing case's pair, whatever came before. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a point of a middle table tile: the accumulating case's pair over the accumulator of the point before. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod 16) h0
  | succ n => exact (dif_neg h0).trans ((dif_neg h1).trans rfl)

/-- At a point of table tile 15: the finishing case's pair over the accumulator of the point before. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod 16) h0
  | succ n => exact (dif_neg h0).trans ((dif_pos h1).trans rfl)

/-! ## The invariant: the accumulator is carried -/

/-- What the region holds besides the windows, before position `n`. Before the first point: what the launch gives,
    the accumulator at unknown contents and the generator register. After a point: the accumulator at exactly what
    that point left in it, and the generator register. Naming the contents is what lets the next point's sum be stated. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n`: the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before any point but the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer still at its block and the
    output's at `outsAt0`'s first component; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The data's arrays are the region-entry contents (a projection; the entry valuation is never opened). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, whether fetched there or kept from before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, and the four windows' current
    buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns: the same at the next point, each buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks. The residue of the point mod 16 says which case it
    is in. The invariant supplies the accumulator: at unknown contents at the very first point, which is a clearing
    point and does not care; otherwise at what the point before left, which is exactly what the accumulating and
    finishing cases were stated over. The case's run then applies, and the accumulator comes back with the case's
    pieces written, which, covering it, is the contents `outsAt0` names for this point. The output buffer goes in
    and out untouched except at table tile 15, where its two pieces cover the block. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · by_cases h1 : t.val % 16 = 15
    · exfalso; omega
    · -- table tile 0: clear, then add
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · -- the very first point: the accumulator is at whatever the launch left
        rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · -- a later clearing point: the last sum is still there, and is overwritten
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    · -- table tile 15: add, then fill the output block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- table tiles 1 .. 14: add
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The pipeline's body obligation, at every point: the four windows conjoined one by one. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last of the 2048 points. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

set_option backward.isDefEq.respectTransparency.types false in
/-- From any memory with zero counters, every weakly fair execution of the program on the TensorCores terminates, and
    in every final state each array of the pipeline holds what the proof data compute for it and every other
    unscoped buffer is as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance: the program's three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  frame_of m ρ (dats m) (A_eq m) (run_main m ρ)

end Cert.Kernel.Fr

end
-- ==== Proof.KICond.lean ====
/-
  The gather kernel's two branches as propositions over the grid point, where each holds, where the output
  window is idle, and the memrefs the pipeline passes the body at a point.

  The grid is (batch, query tile, table tile) = (2, 64, 16), the table tile running fastest: point t has
  table tile t mod 16. The first branch (clear the accumulator) is taken at table tile 0, the second
  (write the output block) at table tile 15; at the other tiles the body only accumulates.
-/
import proofs.«138576_j31576599560762_1_alg».proof.Proof.Gen.KernelIdeal.Launch
import proofs.«138576_j31576599560762_1_alg».proof.Proof.Gen.KernelIdeal.Skeleton
import proofs.«138576_j31576599560762_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The accumulator is cleared: the table-tile coordinate is 0. -/
abbrev cond0_0 (i : grid0.Coords) : Prop := (Scalar.cmpi .ne (Scalar.extui (Scalar.cmpi .eq (BitVec.ofNat 32 (i 2).val) 0#32)) 0#32) = 1#1
/-- That is at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The output block is written: the table-tile coordinate is 15. -/
abbrev cond0_1 (i : grid0.Coords) : Prop := k0_cond2 i = 1#1
/-- That is at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output block is not written (table tile below 15) the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At table tile 15 the output window is live. -/
theorem liveAt0_3_C : ∀ t : Fin cfg0.N, ¬cond0_0 (grid0.coords t) → cond0_1 (grid0.coords t) → cfg0.idle 3 (grid0.coords t) = false := by decide +kernel

/-! ## The memrefs at a point -/

/-- One staging buffer of the output window, through which its contents are stated. -/
abbrev VO0_3 : View sig .tc .vmem S1x67x1024 .f32 := (Memref.whole cc0_stg3_0 : Memref sig .tc .vmem S1x67x1024 .f32).view
/-- Each window's current staging memref at point `t`, as the pipeline passes it, and its wholeness. -/
abbrev ms0_0 (t : Fin cfg0.N) : Memref sig .tc .vmem S1x1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x67x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x67x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S67x1024 .f32 := Memref.whole cc0_scratch0
abbrev VS0_0 : View sig .tc .vmem S67x1024 .f32 := scM0_0.view

/-- What the launch hands the region besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The gather kernel's body at a point of table tile 0 (the first branch taken, the second not), run as one
  weakest-precondition triple over any whole staging memrefs.

  At table tile 0 the accumulator holds nothing of this query tile yet. The body reads it once (the value is used
  by no store), overwrites all of it with zeros, reads the index row, the table block and the accumulator (now
  zero), and overwrites all of the accumulator with zero plus the one-hot product. The output block is not touched:
  table tile 0 is not the last one. So the accumulator ends as two whole-buffer writes over whatever it held, and
  the output buffer ends as it began.
-/
import proofs.«138576_j31576599560762_1_alg».proof.Proof.KICond

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Table tile 0. The pieces written, last first: none into the output buffer; into the accumulator the
    accumulating store over the clearing store, each covering all 67 x 1024 cells. With them the triple: from the
    three inputs at their contents `x0`, `x1`, `x2`, the output buffer at any contents `xi3` and the accumulator at
    some contents, the body reaches a continuation that is given the inputs and the output buffer back unchanged
    and the accumulator with its two pieces written over what it held. -/
noncomputable def kernelRun0_A (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) :
    Σ' (L3 : List (View.Piece (Elt F) S1x67x1024 .f32)), { LS0 : List (View.Piece (Elt F) S67x1024 .f32) //
      ∀ (xi3 : Vec F S1x67x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  -- no piece for the output buffer; the accumulator's pieces are read off the run
  refine ⟨[], ?_, fun xi3 E K => ?run⟩
  case run =>
    simp only [cc0__gather_kernel_eq_skeleton]; unfold cc0__gather_kernel_skel
    unfold owns
    -- the four window buffers come with the function they are the unread image of; the accumulator with any function
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    -- the body: first branch in, second branch out
    sl_exec (disch := first | exact hc0 | exact hc1)
    sl_step
    iapply Hk
    -- every window buffer goes back holding what was read off it
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    -- the accumulator goes back as written: this fixes its pieces
    iexists _; iexact HS0

end Cert.KernelIdeal.Fr

end
-- ==== Proof.KIRunB.lean ====
/-
  The gather kernel's body at a point of a middle table tile (1 to 14: neither branch taken), run as one
  weakest-precondition triple over any whole staging memrefs.

  The accumulator holds the partial sum over the table tiles before this one. Nothing is cleared. The body reads
  the index row, the table block and the accumulator, and overwrites all of the accumulator with the partial sum
  plus this tile's one-hot product. The output block is not touched. So the accumulator ends as one whole-buffer
  write over the partial sum it was handed, and the output buffer ends as it began.
-/
import proofs.«138576_j31576599560762_1_alg».proof.Proof.KIRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Table tiles 1 to 14. The pieces written: none into the output buffer; into the accumulator the one
    accumulating store, covering all 67 x 1024 cells. With them the triple: from the three inputs at their
    contents `x0`, `x1`, `x2`, the output buffer at any contents `xi3` and the accumulator at the partial sum
    `xs0` the point before left, the body reaches a continuation that is given the inputs and the output buffer
    back unchanged and the accumulator with its piece written over `xs0`. -/
noncomputable def kernelRun0_B (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) :
    Σ' (L3 : List (View.Piece (Elt F) S1x67x1024 .f32)), { LS0 : List (View.Piece (Elt F) S67x1024 .f32) //
      ∀ (xi3 : Vec F S1x67x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  -- no piece for the output buffer; the accumulator's piece is read off the run
  refine ⟨[], ?_, fun xi3 E K => ?run⟩
  case run =>
    simp only [cc0__gather_kernel_eq_skeleton]; unfold cc0__gather_kernel_skel
    unfold owns
    -- all five buffers come with the function they are the unread image of
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    -- the body: both branches out
    sl_exec (disch := first | exact hc0 | exact hc1)
    sl_step
    iapply Hk
    -- every window buffer goes back holding what was read off it
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    -- the accumulator goes back as written: this fixes its piece
    iexists _; iexact HS0

end Cert.KernelIdeal.Fr

end
-- ==== Proof.KIRunC.lean ====
/-
  The gather kernel's body at a point of table tile 15 (the first branch not taken, the second taken), run as
  one weakest-precondition triple over any whole staging memrefs.

  The accumulator holds the partial sum over table tiles 0 to 14. The body reads the index row, the table block and
  the accumulator, and overwrites all of the accumulator with the full sum. Then the second branch: it reads the
  accumulator (the full sum) and the third input (3 x 1024), reads rows 0 to 2 of the output buffer (the value is
  used by no store) and overwrites them with the first three rows of the sum minus the third input; it reads rows
  3 to 66 of the output buffer (again used by no store) and overwrites them with rows 3 to 66 of the sum. The two
  row bands 0..2 and 3..66 tile the 67 rows, so every cell of the output buffer is written, whatever it held.
-/
import proofs.«138576_j31576599560762_1_alg».proof.Proof.KIRunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Table tile 15. The pieces written, last first: into the output buffer the band of rows 3 to 66 over the
    band of rows 0 to 2; into the accumulator the one accumulating store, covering all 67 x 1024 cells. With them
    the triple: from the three inputs at their contents `x0`, `x1`, `x2`, the output buffer at some contents and
    the accumulator at the partial sum `xs0` the point before left, the body reaches a continuation that is given
    the inputs back unchanged and the output buffer and the accumulator each with its pieces written. -/
noncomputable def kernelRun0_C (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) :
    Σ' (L3 : List (View.Piece (Elt F) S1x67x1024 .f32)), { LS0 : List (View.Piece (Elt F) S67x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  -- both lists of pieces are read off the run
  refine ⟨?_, ?_, fun E K => ?run⟩
  case run =>
    simp only [cc0__gather_kernel_eq_skeleton]; unfold cc0__gather_kernel_skel
    unfold owns
    -- the inputs and the accumulator come with the function they are the unread image of; the output buffer with any
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    -- the body: first branch out, second branch in
    sl_exec (disch := first | exact hc0 | exact hc1)
    sl_step
    iapply Hk
    -- the inputs go back holding what was read off them
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    -- the output buffer and the accumulator go back as written: this fixes their pieces
    isplitl [H3]; · iexists _; iexact H3
    iexists _; iexact HS0

end Cert.KernelIdeal.Fr

end
-- ==== Proof.KIOuts.lean ====
/-
  What each of the gather kernel's three cases leaves in the output window's staging buffer and in the accumulator.

  Point t of the 2048-point grid works on table tile t mod 16. At table tile 0 the body clears the 67 x 1024
  accumulator and adds the first matrix product; at table tiles 1 .. 14 it adds a product to what it finds; at table
  tile 15 it adds the last product and copies the sum into the output block, rows 0 .. 2 combined with the third
  input, rows 3 .. 66 as they are. Each case's run comes with the pieces (rectangle, values) it stored, last store
  first. Here those pieces are shown to cover the buffer they were stored into, and the contents they leave are named:
  pieces that cover a buffer leave contents that depend on nothing else.
-/
import proofs.«138576_j31576599560762_1_alg».proof.Proof.KIRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves

A case's stores are a list of pieces (rectangle, values), last store first. Written over any prior contents and read
back, a list that covers the whole shape gives contents that depend on the pieces alone; that is how the contents
below are named: the pieces written over arbitrary contents of one fixed buffer, read back. -/

/-- Table tile 0 stores nothing into the output buffer. The name stands for "no pieces read back", a value nothing
    consults: at these points the buffer is neither written back nor looked at by the next point. -/
def out0_A_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) : Vec F S1x67x1024 .f32 :=
  VO0_3.read (Elt F) (VO0_3.writes (Elt F) VO0_3.junk (kernelRun0_A c i arg3 harg3 arg4 harg4 arg5 harg5 arg6 harg6 arg7 harg7 hc0 hc1 x0 x1 x2).1)

/-- Table tile 0's accumulator pieces, the clearing store and the accumulating store, are each the whole 67 x 1024
    rectangle, so together they cover it. -/
theorem scover0_A_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) (y : S67x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S67x1024.size (by sl_kernel_rfl) y

/-- What table tile 0 leaves in the accumulator: zero plus the first product. -/
def sout0_A_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i)
    (x0 : Vec F S1x1x1024 .i32) (x1 : Vec F S1x67x1024 .f32) (x2 : Vec F S1x3x1024 .f32) : Vec F S67x1024 .f32 :=
  VS0_0.read (Elt F) (VS0_0.writes (Elt F) VS0_0.junk (kernelRun0_A c i arg3 harg3 arg4 harg4 arg5 harg5 arg6 harg6 arg7 harg7 hc0 hc1 x0 x1 x2).2.1)

/-- Table tiles 1 .. 14 store nothing into the output buffer either (the same placeholder). -/
def out0_B_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) : Vec F S1x67x1024 .f32 :=
  VO0_3.read (Elt F) (VO0_3.writes (Elt F) VO0_3.junk (kernelRun0_B c i arg3 harg3 arg4 harg4 arg5 harg5 arg6 harg6 arg7 harg7 hc0 hc1 x0 x1 x2 xs0).1)

/-- Their one accumulator piece is the whole rectangle. -/
theorem scover0_B_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) (y : S67x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S67x1024.size (by sl_kernel_rfl) y

/-- What a middle table tile leaves in the accumulator: what it found, `xs0`, plus its product. -/
def sout0_B_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i)
    (x0 : Vec F S1x1x1024 .i32) (x1 : Vec F S1x67x1024 .f32) (x2 : Vec F S1x3x1024 .f32) (xs0 : Vec F S67x1024 .f32) : Vec F S67x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- Table tile 15 fills the output block in two stores of different heights, rows 0 .. 2 and rows 3 .. 66, each
    1024 wide. Cut into single rows of 1024 (one row is the common measure of the heights 3 and 64 and of the
    offsets 0 and 3) they are 67 rows, one at each row offset: they cover the block. -/
theorem cover0_C_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) (y : S1x67x1024.Idx) :
    ∃ pc ∈ (kernelRun0_C c i arg3 harg3 arg4 harg4 arg5 harg5 arg6 harg6 arg7 harg7 hc0 hc1 x0 x1 x2 xs0).1, y ∈ pc.1.set :=
  View.cover_of_tiledBy (kernelRun0_C c i arg3 harg3 arg4 harg4 arg5 harg5 arg6 harg6 arg7 harg7 hc0 hc1 x0 x1 x2 xs0).1 ![1, 1, 1024] (by sl_kernel_rfl) y

/-- What table tile 15 leaves in the output's staging buffer: the finished block. -/
def out0_C_3 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) : Vec F S1x67x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-- Its one accumulator piece is the whole rectangle. -/
theorem scover0_C_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) (y : S67x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S67x1024.size (by sl_kernel_rfl) y

/-- What table tile 15 leaves in the accumulator: the full sum of the sixteen products. -/
def sout0_C_0 (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec F S1x1x1024 .i32) (x1 : Vec F S1x67x1024 .f32) (x2 : Vec F S1x3x1024 .f32) (xs0 : Vec F S67x1024 .f32) : Vec F S67x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

end Cert.KernelIdeal.Fr

end
-- ==== Proof.KIAround.lean ====
/-
  The gather program around its one kernel region.

  The program is seven stretches of host operations (90 operations: the neighbour search, the index table,
  the three arrays the kernel reads), the kernel region, and one reshape of the kernel's output. This module
  reduces a run of the whole program to the region continued by that reshape, names the contents the region
  finds (the launch contents pushed through the 90 operations, kept folded), and reads the frame claim off a
  run of the region: the three argument arrays are written by no host operation and staged by no window, so
  they end as launched.
-/
import proofs.«138576_j31576599560762_1_alg».proof.Proof.KICond

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch contents after the seven stretches of host
    operations, in program order. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a TensorCore reference. -/
abbrev V (c : Dev nD) (b : Ref sig .tc) : Buf (Elt F) ((c : Thread nD τ).loc b) := V0 m c (Proc.devRef .tc b)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The program around the region -/

/-- A run of the program from the launch contents is a run of the region from `V` continued by the reshape of
    the kernel's output: the seven stretches before the region touch unscoped TensorCore buffers only and
    allocate nothing, so they carry the launch contents to `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    (by simp only [List.Forall]
        exact ⟨hostOps0_sub, hostOps0_1_sub, hostOps0_2_sub, hostOps0_3_sub, hostOps0_4_sub, hostOps0_5_sub, hostOps0_6_sub⟩)
    (by simp only [List.Forall]
        exact ⟨hostOps0_fresh, hostOps0_1_fresh, hostOps0_2_fresh, hostOps0_3_fresh, hostOps0_4_fresh, hostOps0_5_fresh, hostOps0_6_fresh⟩)
    main_chain

/-! ## The reshape after the region -/

/-- It touches only buffers a line after the region may touch: with nothing prefetched those are all the
    unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes none of the kernel's four arrays: its result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are written by nobody -/

/-- Every host operation writes exactly its one result buffer, and no result buffer is the given reference:
    closes "no operation of these literal stretches writes this literal reference". -/
local macro "no_host_write" : tactic => `(tactic|
  (simp only [hostOps0, hostOps0_1, hostOps0_2, hostOps0_3, hostOps0_4, hostOps0_5, hostOps0_6, hostOps1,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes,
      StableHlo.nary_writes, StableHlo.reshape_writes, Finset.mem_singleton]
   repeat' apply And.intro
   all_goals exact StableHlo.devRef_ne_of_ne (by decide)))

/-- The region finds the first argument as launched. -/
theorem V_main_arg0 (c : Dev nD) : V m c main_arg0 = m ((c : Thread nD τ).loc main_arg0) :=
  StableHlo.after_of_forall_not_mem (b := Proc.devRef .tc main_arg0) _ _ (List.forall_iff_forall_mem.mp (by no_host_write))
/-- The region finds the second argument as launched. -/
theorem V_main_arg1 (c : Dev nD) : V m c main_arg1 = m ((c : Thread nD τ).loc main_arg1) :=
  StableHlo.after_of_forall_not_mem (b := Proc.devRef .tc main_arg1) _ _ (List.forall_iff_forall_mem.mp (by no_host_write))
/-- The region finds the third argument as launched. -/
theorem V_main_arg2 (c : Dev nD) : V m c main_arg2 = m ((c : Thread nD τ).loc main_arg2) :=
  StableHlo.after_of_forall_not_mem (b := Proc.devRef .tc main_arg2) _ _ (List.forall_iff_forall_mem.mp (by no_host_write))

/-- After the region and the reshape the first argument is still as launched: the reshape does not write it, and it
    is none of the kernel's arrays, so overwriting those with what the region leaves does not reach it. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_host_write)),
    Pipeline.withArrays_of_ne _ c (V0 m c) _ main_arg0 (by exact (by decide : ∀ w, Pipeline.arrRef spec0 w ≠ main_arg0))]
  exact V_main_arg0 m c
/-- Likewise the second argument. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_host_write)),
    Pipeline.withArrays_of_ne _ c (V0 m c) _ main_arg1 (by exact (by decide : ∀ w, Pipeline.arrRef spec0 w ≠ main_arg1))]
  exact V_main_arg1 m c
/-- Likewise the third argument. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by no_host_write)),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`: its rectangle of the window's array, read off the contents the region
    finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The index window's staging buffer holds its block at every grid point, whether the pipeline fetched there or
    not (unfetched, the block index has not moved since the last fetch): for any proof data whose array is the
    region's entry contents and whose body leaves the block in place. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the table window (window 1). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of the query-coordinate window (window 2). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim off a run of the region -/

/-- From a run whose post says "each kernel array holds what the proof data compute, every other unscoped buffer
    what it held at the region's entry pushed through the reshape", the frame claim: each argument array is
    unscoped and none of the kernel's arrays, so the post's second clause speaks of it, and there it is as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.KernelIdeal.Fr

end
-- ==== Proof.KIFrame.lean ====
/-
  The frame of the gather kernel's program, assembled.

  The grid has 2 * 64 * 16 = 2048 points, the table tile running fastest, so point t works on table tile t mod 16.
  For one (batch, query tile) pair the sixteen table tiles add sixteen matrix products into one 67 x 1024
  accumulator, which lives in a buffer of the kernel's own and so survives from point to point:
    * at table tile 0 the accumulator is first cleared, then the first product is added;
    * at table tiles 1 .. 14 a product is added to what the point before left;
    * at table tile 15 the last product is added and the finished sum is copied into the output block, rows 0 .. 2
      combined with the third input and rows 3 .. 66 as they are.
  Only at table tile 15 does the output window hold anything the pipeline writes back; at the other points it is
  handed to the body and taken back untouched.

  Given what each case leaves in the two buffers, this file states what the output's staging buffer and the accumulator hold after every point (a recursion on the
  point, since a point's accumulator is a function of the one before), takes that as the pipeline's proof data,
  proves the body's obligation at a generic point by the three cases, and concludes the frame run and the frame
  claim: the three argument arrays of the program end as they began.
-/
import proofs.«138576_j31576599560762_1_alg».proof.Proof.KIOuts
import proofs.«138576_j31576599560762_1_alg».proof.Proof.KIAround

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The pair (output staging buffer, accumulator) after the body at position `n`, by recursion on `n`: the residue of
    `n` mod 16 selects the case; the case runs on the point's own memrefs and input blocks, and, unless it is the
    clearing case, on the accumulator the position before left. No position has residue 0 and 15 at once. -/
def outsAt0 (c : Dev nD) : (n : ℕ) → n < cfg0.N → Vec F S1x67x1024 .f32 × Vec F S67x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => by have h' : (0 : ℕ) % 16 = 15 := (hcond0_1 ⟨0, hn⟩).mp h; omega) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => by have h' : (0 : ℕ) % 16 = 15 := (hcond0_1 ⟨0, hn⟩).mp h; omega) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a point of table tile 0: the clearing case's pair, whatever came before. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a point of a middle table tile: the accumulating case's pair over the accumulator of the point before. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod 16) h0
  | succ n => exact (dif_neg h0).trans ((dif_neg h1).trans rfl)

/-- At a point of table tile 15: the finishing case's pair over the accumulator of the point before. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod 16) h0
  | succ n => exact (dif_neg h0).trans ((dif_pos h1).trans rfl)

/-! ## The invariant: the accumulator is carried -/

/-- What the region holds besides the windows, before position `n`. Before the first point: what the launch gives,
    the accumulator at unknown contents and the generator register. After a point: the accumulator at exactly what
    that point left in it, and the generator register. Naming the contents is what lets the next point's sum be stated. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n`: the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before any point but the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer still at its block and the
    output's at `outsAt0`'s first component; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The data's arrays are the region-entry contents (a projection; the entry valuation is never opened). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, whether fetched there or kept from before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, and the four windows' current
    buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns: the same at the next point, each buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks. The residue of the point mod 16 says which case it
    is in. The invariant supplies the accumulator: at unknown contents at the very first point, which is a clearing
    point and does not care; otherwise at what the point before left, which is exactly what the accumulating and
    finishing cases were stated over. The case's run then applies, and the accumulator comes back with the case's
    pieces written, which, covering it, is the contents `outsAt0` names for this point. The output buffer goes in
    and out untouched except at table tile 15, where its two pieces cover the block. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · by_cases h1 : t.val % 16 = 15
    · exfalso; omega
    · -- table tile 0: clear, then add
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · -- the very first point: the accumulator is at whatever the launch left
        rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · -- a later clearing point: the last sum is still there, and is overwritten
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    · -- table tile 15: add, then fill the output block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- table tiles 1 .. 14: add
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The pipeline's body obligation, at every point: the four windows conjoined one by one. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last of the 2048 points. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

set_option backward.isDefEq.respectTransparency.types false in
/-- From any memory with zero counters, every weakly fair execution of the program on the TensorCores terminates, and
    in every final state each array of the pipeline holds what the proof data compute for it and every other
    unscoped buffer is as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance: the program's three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  frame_of m ρ (dats m) (A_eq m) (run_main m ρ)

end Cert.KernelIdeal.Fr

end
-- ==== Proof.Chain.lean ====
/-
  The index computation both programs share, stage by stage, as plain functions of the two point clouds.

  For every batch b and query m the programs mark the points n whose squared distance to the query lies in
  the shell [r_in², r_out²), rank the marked points in order of n by a running count, and scatter the point
  number n into slot rank(n) of a row of 33 slots (slot 32 taking every unmarked or late point); the first 32
  slots, the unfilled ones replaced by slot 0, are the 32 neighbour indices of the query. The count of marked
  points, capped at 32, is the first result. Nothing here is evaluated: each stage is one operation over the
  stages before it, and the two programs' runs are read back as these same terms.
-/
import proofs.«138576_j31576599560762_1_alg».proof.KernelIdeal

noncomputable section

namespace Cert.KernelIdeal.Chain

open Idealize.ShloMosaic Cert.KernelIdeal
open Cert.KernelIdeal.Facts₀ Cert.KernelIdeal.Facts

variable {F : FTy → Type} [FloatOps F] [Cert.KernelIdeal.Facts]
variable (xyz : FVec F S2x16384x3 .f32) (nx : FVec F S2x2048x3 .f32)

/-- Squared distance of query m to point n, per batch: the sum over the three coordinates of the squared difference. -/
def dist2 : FVec F S2x2048x16384 .f32 :=
  Host.reduceAdd
    (mulf
      (subf (broadcastInDim S2x2048x16384x3 ![0, 1, 2, 3] bcast_S2x2048x1x3_S2x2048x16384x3_0_1_2_3 (broadcastInDim S2x2048x1x3 ![0, 1, 3] bcast_S2x2048x3_S2x2048x1x3_0_1_3 nx))
        (broadcastInDim S2x2048x16384x3 ![0, 1, 2, 3] bcast_S2x1x16384x3_S2x2048x16384x3_0_1_2_3 (broadcastInDim S2x1x16384x3 ![0, 2, 3] bcast_S2x16384x3_S2x1x16384x3_0_2_3 xyz)))
      (subf (broadcastInDim S2x2048x16384x3 ![0, 1, 2, 3] bcast_S2x2048x1x3_S2x2048x16384x3_0_1_2_3 (broadcastInDim S2x2048x1x3 ![0, 1, 3] bcast_S2x2048x3_S2x2048x1x3_0_1_3 nx))
        (broadcastInDim S2x2048x16384x3 ![0, 1, 2, 3] bcast_S2x1x16384x3_S2x2048x16384x3_0_1_2_3 (broadcastInDim S2x1x16384x3 ![0, 2, 3] bcast_S2x16384x3_S2x1x16384x3_0_2_3 xyz))))
    (constant S_ .f32 0x00000000#32) reducesTo_S2x2048x16384x3_S2x2048x16384_d3 h_S_

/-- The shell: r_in² ≤ d² and d² < r_out². -/
def shell : IVec S2x2048x16384 1 :=
  andi (cmpf .oge (dist2 xyz nx) (broadcastInDim S2x2048x16384 ![] bcast_S_S2x2048x16384 (constant (F := F) S_ .f32 0x3B23D70A#32)))
    (cmpf .olt (dist2 xyz nx) (broadcastInDim S2x2048x16384 ![] bcast_S_S2x2048x16384 (constant (F := F) S_ .f32 0x3D23D70A#32)))

/-- The rank of point n among the marked points of its row: the running count of marks up to n, less one. -/
def rank : IVec S2x2048x16384 32 :=
  subi
    (Host.reduceWindow IntOp.addi ![1, 1, 16384] ![1, 1, 1] ![0, 0, 16383] ![0, 0, 0] (extui 32 (shell xyz nx) natLt_1_32)
      (broadcastInDim S_ ![] bcast_S_S_ (constantI S_ 32 0#32))
      reduceWindows_S2x2048x16384_S2x2048x16384_w1s1p0_0_w1s1p0_0_w16384s1p16383_0 h_S_)
    (broadcastInDim S2x2048x16384 ![] bcast_S_S2x2048x16384 (constantI S_ 32 1#32))

/-- The first result: the number of marked points of a row, capped at 32. -/
def count : IVec S2x2048 32 :=
  minsi (Host.reduce IntOp.addi (extui 32 (shell xyz nx) natLt_1_32) (constantI S_ 32 0#32) reducesTo_S2x2048x16384_S2x2048_d2 h_S_)
    (broadcastInDim S2x2048 ![] bcast_S_S2x2048 (constantI S_ 32 32#32))

/-- The slot a point is sent to: its rank when it is marked and among the first 32, else slot 32. -/
def slot : IVec S2x2048x16384 32 :=
  select (andi (shell xyz nx) (cmpi .slt (rank xyz nx) (broadcastInDim S2x2048x16384 ![] bcast_S_S2x2048x16384 (constantI S_ 32 32#32))))
    (rank xyz nx) (broadcastInDim S2x2048x16384 ![] bcast_S_S2x2048x16384 (constantI S_ 32 32#32))

/-- The slot with a negative value wrapped by the row length 33 (as the scatter's index normalisation does). -/
def slotN : IVec S2x2048x16384 32 :=
  select (cmpi .slt (slot xyz nx) (broadcastInDim S2x2048x16384 ![] bcast_S_S2x2048x16384 (constantI S_ 32 0#32)))
    (addi (slot xyz nx) (broadcastInDim S2x2048x16384 ![] bcast_S_S2x2048x16384 (constantI S_ 32 33#32))) (slot xyz nx)

/-- The batch number, wrapped likewise, along the batch axis. -/
def batchIx : IVec S2x1x1 32 :=
  select (cmpi .slt (broadcastInDim S2x1x1 ![0] bcast_S2_S2x1x1_0 (iotaInDim S2 32 0)) (broadcastInDim S2x1x1 ![] bcast_S_S2x1x1 (constantI S_ 32 0#32)))
    (addi (broadcastInDim S2x1x1 ![0] bcast_S2_S2x1x1_0 (iotaInDim S2 32 0)) (broadcastInDim S2x1x1 ![] bcast_S_S2x1x1 (constantI S_ 32 2#32)))
    (broadcastInDim S2x1x1 ![0] bcast_S2_S2x1x1_0 (iotaInDim S2 32 0))

/-- The query number, wrapped likewise, along the query axis. -/
def queryIx : IVec S1x2048x1 32 :=
  select (cmpi .slt (broadcastInDim S1x2048x1 ![1] bcast_S2048_S1x2048x1_1 (iotaInDim S2048 32 0)) (broadcastInDim S1x2048x1 ![] bcast_S_S1x2048x1 (constantI S_ 32 0#32)))
    (addi (broadcastInDim S1x2048x1 ![1] bcast_S2048_S1x2048x1_1 (iotaInDim S2048 32 0)) (broadcastInDim S1x2048x1 ![] bcast_S_S1x2048x1 (constantI S_ 32 2048#32)))
    (broadcastInDim S1x2048x1 ![1] bcast_S2048_S1x2048x1_1 (iotaInDim S2048 32 0))

/-- The scatter's index vectors (batch, query, slot), one per (b, m, n). -/
def scatIx : IVec S2x2048x16384x3 32 :=
  concatenate S2x2048x16384x3 3
    [⟨S2x2048x16384x1, broadcastInDim S2x2048x16384x1 ![0, 1, 2] bcast_S2x2048x16384_S2x2048x16384x1_0_1_2 (broadcastInDim S2x2048x16384 ![0, 1, 2] bcast_S2x1x1_S2x2048x16384_0_1_2 batchIx)⟩,
     ⟨S2x2048x16384x1, broadcastInDim S2x2048x16384x1 ![0, 1, 2] bcast_S2x2048x16384_S2x2048x16384x1_0_1_2 (broadcastInDim S2x2048x16384 ![0, 1, 2] bcast_S1x2048x1_S2x2048x16384_0_1_2 queryIx)⟩,
     ⟨S2x2048x16384x1, broadcastInDim S2x2048x16384x1 ![0, 1, 2] bcast_S2x2048x16384_S2x2048x16384x1_0_1_2 (slotN xyz nx)⟩]
    concatenates_S2x2048x16384x1_S2x2048x16384x1_S2x2048x16384x1_S2x2048x16384x3_d3

/-- The point number n at (b, m, n): what the scatter writes. -/
def pointNo : IVec S2x2048x16384 32 :=
  broadcastInDim S2x2048x16384 ![0, 1, 2] bcast_S1x1x16384_S2x2048x16384_0_1_2 (broadcastInDim S1x1x16384 ![2] bcast_S16384_S1x1x16384_2 (iotaInDim S16384 32 0))

/-- The rows of 33 slots after the scatter, from zeros. -/
def slots33 : IVec S2x2048x33 32 :=
  Host.scatter scatter_S2x2048x33_S2x2048x16384x3_S2x2048x16384_n_012_012_3 (fun _ b => b)
    (broadcastInDim S2x2048x33 ![] bcast_S_S2x2048x33 (constantI S_ 32 0#32)) (scatIx xyz nx) pointNo

/-- The first 32 slots of each row. -/
def slots32 : IVec S2x2048x32 32 :=
  extractStridedSlice S2x2048x32 ![0, 0, 0] (slots33 xyz nx) slices_S2x2048x33_S2x2048x32_0_0_0

/-- The neighbour indices: slot s when s is below the count, else slot 0. -/
def nbr : IVec S2x2048x32 32 :=
  select
    (cmpi .slt (broadcastInDim S2x2048x32 ![0, 1, 2] bcast_S1x1x32_S2x2048x32_0_1_2 (broadcastInDim S1x1x32 ![2] bcast_S32_S1x1x32_2 (iotaInDim S32 32 0)))
      (broadcastInDim S2x2048x32 ![0, 1, 2] bcast_S2x2048x1_S2x2048x32_0_1_2 (broadcastInDim S2x2048x1 ![0, 1] bcast_S2x2048_S2x2048x1_0_1 (count xyz nx))))
    (slots32 xyz nx)
    (broadcastInDim S2x2048x32 ![0, 1, 2] bcast_S2x2048x1_S2x2048x32_0_1_2 (extractStridedSlice S2x2048x1 ![0, 0, 0] (slots32 xyz nx) slices_S2x2048x32_S2x2048x1_0_0_0))

/-- The neighbour indices laid flat: query-major, slot-minor. -/
def nbrFlat : IVec S2x1x65536 32 :=
  shapeCast S2x1x65536 (nbr xyz nx) shapeCasts_S2x2048x32_S2x1x65536

/-- The kernel's table: for each batch, the three point coordinates as rows 0, 1, 2 and the 64 feature channels as rows 3 … 66, each row indexed by the point number. -/
def table (ft : FVec F S2x64x16384 .f32) : FVec F S2x67x16384 .f32 :=
  concatenate S2x67x16384 1
    [⟨S2x3x16384, transpose S2x3x16384 [0, 2, 1] xyz transposes_S2x16384x3_S2x3x16384_0_2_1⟩, ⟨S2x64x16384, ft⟩]
    concatenates_S2x3x16384_S2x64x16384_S2x67x16384_d1

/-- The query centres, coordinate-major, each repeated over its 32 slots and laid flat. -/
def centres : FVec F S2x3x65536 .f32 :=
  shapeCast S2x3x65536
    (broadcastInDim S2x3x2048x32 ![0, 1, 2] bcast_S2x3x2048_S2x3x2048x32_0_1_2 (transpose S2x3x2048 [0, 2, 1] nx transposes_S2x2048x3_S2x3x2048_0_2_1))
    shapeCasts_S2x3x2048x32_S2x3x65536

end Cert.KernelIdeal.Chain

end
-- ==== Proof.LibNary3.lean ====
/-
  A host operation of three operands, each read at its own buffer.

  The result of an operation over a literal family of three references is its function applied to the three
  operands' contents, each taken at its own reference (so that a reading of the program can go on through the
  operands), instead of at a family indexed by a bound variable.
-/
import Idealize.ShloMosaic.Lib.StableHlo.Run

noncomputable section

namespace Idealize.ShloMosaic.StableHlo

variable {τ : Topo} {sig : RefSig} {Val : EltTy → Type}
variable {x a b y : Ref sig .tc}

/-- The result buffer holds the function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for a rewriting pass that does not index on the reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KIHost.lean ====
/-
  What the host operations around the kernel region compute, as terms of the three argument arrays.

  Before the region, 90 host operations build the three arrays the kernel reads: the neighbour indices laid
  flat (the shell test on squared distances, the running count that ranks the marked points, the scatter of
  point numbers into 33 slots, the first 32 slots with the unfilled ones replaced by slot 0), the table of
  point coordinates over feature channels, and the query centres repeated over their 32 slots. Each array, and
  the capped count of marked points, is read back here as the same composition of operations over the launch
  contents of the arguments that the stage-by-stage definitions state. After the region one reshape reads the
  kernel's output array as the region leaves it; the count is untouched by it.
-/
import proofs.«138576_j31576599560762_1_alg».proof.Proof.KIAround
import proofs.«138576_j31576599560762_1_alg».proof.Proof.Chain
import proofs.«138576_j31576599560762_1_alg».proof.Proof.LibNary3
import Idealize.ShloMosaic.Lib.StableHlo.Run

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## Reading a buffer after a line of operations -/

/-- Equal operand lists concatenate to the same vector (the evidence that the operands' shapes tile the result
    speaks of the shapes only, so it moves along the equation). -/
private theorem concatenate_operands_congr {α : Type} (t : Shape) (a : Fin t.rank) {xs xs' : List ((s : Shape) × (s.Idx → α))}
    (e : xs = xs') (h : Shape.Concatenates (xs.map (·.1)) t a) :
    concatenate t a xs h = concatenate t a xs' (e ▸ h) := by subst e; rfl

attribute [local congr] concatenate_operands_congr

/-- The seven stretches before the region as one list of 90 operations, folded over the launch contents. -/
local macro "open_host" : tactic => `(tactic|
  (dsimp only [V, V0]
   simp only [hostOps0, hostOps0_1, hostOps0_2, hostOps0_3, hostOps0_4, hostOps0_5, hostOps0_6,
     List.flatten_cons, List.flatten_nil, List.append_nil, List.cons_append, List.nil_append]))

/-- What a buffer holds after a literal line of operations: at the operation that writes it, that operation's
    function of its operands' contents before it; at every other operation, what it held before (the two
    references differ). Unfolded from the last operation back to the launch contents. -/
local macro "read_host" : tactic => `(tactic|
  simp (disch := decide) only [StableHlo.after_cons, StableHlo.after_nil,
    StableHlo.TRef.nullary, StableHlo.TRef.unary, StableHlo.TRef.binary, StableHlo.TRef.ternary,
    StableHlo.TRef.of, StableHlo.TRef.toBuf, StableHlo.TRef.ofBuf, cast_eq,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne'])

/-! ## The arrays the region finds -/

set_option maxHeartbeats 16000000 in
/-- The index array the region finds is the neighbour indices laid flat. -/
theorem V_nbrFlat (c : Dev nD) : V m c main_v64 = Chain.nbrFlat (m ((c : Thread nD τ).loc main_arg0)) (m ((c : Thread nD τ).loc main_arg1)) := by
  open_host
  read_host
  rfl

set_option maxHeartbeats 16000000 in
/-- The table array the region finds is the point coordinates over the feature channels. -/
theorem V_table (c : Dev nD) : V m c main_v63 = Chain.table (m ((c : Thread nD τ).loc main_arg0)) (m ((c : Thread nD τ).loc main_arg2)) := by
  open_host
  read_host
  rfl

set_option maxHeartbeats 16000000 in
/-- The centre array the region finds is the query centres, coordinate-major, repeated over their slots. -/
theorem V_centres (c : Dev nD) : V m c main_v67 = Chain.centres (m ((c : Thread nD τ).loc main_arg1)) := by
  open_host
  read_host
  rfl

set_option maxHeartbeats 16000000 in
/-- The count buffer at the region's entry is the number of marked points of each row, capped at 32. -/
theorem V_count (c : Dev nD) : V m c main_v18 = Chain.count (m ((c : Thread nD τ).loc main_arg0)) (m ((c : Thread nD τ).loc main_arg1)) := by
  open_host
  read_host
  rfl

/-! ## After the region -/

/-- The count is still that after the region and the reshape: the reshape writes another buffer, and the count
    buffer is none of the kernel's arrays, so what the region leaves in those does not reach it. -/
theorem W_count (dats : (p : Fin 1) → (c : Dev nD) → Dat τ (Elt F) Unit ℕ (UR sig nD τ) ℕ (cfgs p) c) (c : Dev nD) :
    Pipeline.afterTail₀ cfgs dats 0 (V0 m) [hostOps1] c main_v18
      = Chain.count (m ((c : Thread nD τ).loc main_arg0)) (m ((c : Thread nD τ).loc main_arg1)) := by
  unfold Pipeline.afterTail₀
  rw [StableHlo.after_of_forall_not_mem (b := Proc.devRef .tc main_v18) _ _ (List.forall_iff_forall_mem.mp (by
        simp only [hostOps1, List.flatten_cons, List.flatten_nil, List.append_nil, List.Forall, StableHlo.reshape_writes, Finset.mem_singleton]
        exact StableHlo.devRef_ne_of_ne (by decide))),
    Pipeline.withArrays_of_ne _ c (V0 m c) _ main_v18 (by exact (by decide : ∀ w, Pipeline.arrRef spec0 w ≠ main_v18))]
  exact V_count m c

/-- The program's second result is the kernel's output array, as the region leaves it, recast to four axes
    (query and slot apart): the one operation after the region is that reshape, and it reads the output window's
    array. -/
theorem W_out (dats : (p : Fin 1) → (c : Dev nD) → Dat τ (Elt F) Unit ℕ (UR sig nD τ) ℕ (cfgs p) c) (c : Dev nD) :
    Pipeline.afterTail₀ cfgs dats 0 (V0 m) [hostOps1] c main_v69
      = (fun i => shapeCast S2x67x2048x32 ((dats 0 c).arrAt 3 cfg0.N) shapeCasts_S2x67x65536_S2x67x2048x32 i) := by
  unfold Pipeline.afterTail₀
  show StableHlo.after hostOps1 _ (Proc.devRef .tc main_v69) = _
  after_results
  rw [Pipeline.withArrays_arr spec0 launch0.win.arr_inj c _ _ 3]
  rfl

end Cert.KernelIdeal.Fr

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KIPay.lean ====
/-
  The gather kernel's four stored values, each read at one index, at the ideal values (a float is an extended real
  and every float operation is the exact one).

  The kernel gathers table columns by a product with a 0/1 matrix. At table tile t the matrix has a row for each of the
  tile's 1024 points and a column for each of the 1024 queries; entry (k, q) is 1 when the query's index word is the
  word of the point number 1024 t + k and 0 otherwise. The table block [67, 1024] times this matrix is added to the
  running [67, 1024] accumulator. So, entry by entry:
    * the clearing value is 0;
    * the accumulating value at (p, q) is the accumulator there plus the sum over k of table (p, k) times entry (k, q);
    * at the last tile rows 0 .. 2 of the output are the accumulator's rows minus the query centres;
    * and rows 3 .. 66 are the accumulator's rows unchanged.
-/
import proofs.«138576_j31576599560762_1_alg».proof.Proof.Gen.KernelIdeal.Skeleton
import proofs.«138576_j31576599560762_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

variable [Cert.KernelIdeal.Facts]

/-! ## Small pieces -/

/-- A column [a, 1] broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of the point number: tile number times 1024 plus the row, computed on 32-bit words, is the word of the
    natural number 1024 t + k (words add and multiply as the naturals do, modulo 2 ^ 32). -/
theorem point_word (t k : ℕ) :
    IntOp.addi (Scalar.muli (BitVec.ofNat 32 t) 1024#32) (BitVec.ofNat 32 k) = BitVec.ofNat 32 (1024 * t + k) := by
  show BitVec.ofNat 32 t * BitVec.ofNat 32 1024 + BitVec.ofNat 32 k = _
  rw [← BitVec.ofNat_mul, ← BitVec.ofNat_add, Nat.mul_comm]

/-- A 0/1 entry: the comparison bit of two words, widened to a word and read as a signed integer, is the extended
    real 1 when the words are equal and 0 when they are not. -/
theorem onehot_entry (a b : BitVec 32) :
    (FloatOps.sitofp (F := Ideal) .f32 ((IntOp.cmpi .eq a b).setWidth 32) : EReal) = if a = b then 1 else 0 := by
  show (((((BitVec.ofBool (a == b)).setWidth 32).toInt : ℝ)) : EReal) = _
  by_cases h : a = b
  · have e : ((BitVec.ofBool true).setWidth 32).toInt = 1 := by decide
    rw [if_pos h, beq_iff_eq.mpr h, e, Int.cast_one, EReal.coe_one]
  · have e : ((BitVec.ofBool false).setWidth 32).toInt = 0 := by decide
    rw [if_neg h, beq_eq_false_iff_ne.mpr h, e, Int.cast_zero, EReal.coe_zero]

/-! ## The four values -/

/-- The clearing value is zero everywhere. -/
theorem pay1_apply (j : S67x1024.Idx) : k0_pay1 (F := Ideal) j = (0 : EReal) := by
  unfold k0_pay1
  rw [shapeCast_self]
  exact Ideal.ofBits_zero_f32

/-- The accumulating value: the accumulator plus the table block times the 0/1 matrix of the tile. -/
theorem pay2_apply (i : grid0.Coords) (x0 : Vec Ideal S1x1x1024 .i32) (x1 : Vec Ideal S1x67x1024 .f32)
    (acc : Vec Ideal S67x1024 .f32) (p : Fin 67) (q : Fin 1024) :
    k0_pay2 (F := Ideal) i x0 x1 acc (ix2 p q)
      = acc (ix2 p q) + ∑ k : Fin 1024, x1 (ix3 (0 : Fin 1) p k)
          * (if BitVec.ofNat 32 (1024 * (i 2).val + k.val) = x0 (ix3 (0 : Fin 1) (0 : Fin 1) q) then (1 : EReal) else 0) := by
  unfold k0_pay2
  rw [shapeCast_self]
  refine congrArg (acc (ix2 p q) + ·) ?_
  refine (PlainDot.matmul_zero_apply dot_S67x1024_S1024x1024_S67x1024_1_0_0_1_n_n rfl rfl rfl rfl rfl rfl rfl rfl
    (some .fp32) _ _ p q).trans ?_
  refine Finset.sum_congr rfl fun k _ => ?_
  refine congr (congrArg _ (shapeCast_1ab_ab_apply x1 _ p k)) ?_
  refine (onehot_entry _ _).trans ?_
  have ea : broadcastTo S1024x1024 (addi (broadcast S1024x1 (Scalar.muli (BitVec.ofNat 32 (i 2).val) 1024#32))
        (iota .tc S1024x1 32 [0] iota_S1024x1_d0_w32)) broadcasts_S1024x1_S1024x1024 (ix2 k q)
      = BitVec.ofNat 32 (1024 * (i 2).val + k.val) := by
    refine (broadcastTo_a1_ab_apply _ _ k q).trans ?_
    show IntOp.addi (Scalar.muli (BitVec.ofNat 32 (i 2).val) 1024#32)
      (iota .tc S1024x1 32 [0] iota_S1024x1_d0_w32 (ix2 k (0 : Fin 1))) = _
    rw [iota_single_apply]
    exact point_word _ _
  have eb : broadcastTo S1024x1024 (shapeCast S1x1024 x0 shapeCasts_S1x1x1024_S1x1024) broadcasts_S1x1024_S1024x1024 (ix2 k q)
      = x0 (ix3 (0 : Fin 1) (0 : Fin 1) q) :=
    (broadcastTo_1b_ab_apply _ _ k q).trans (shapeCast_1ab_ab_apply x0 _ (0 : Fin 1) q)
  rw [ea, eb]

/-- Rows 0 .. 2 of the output at the last tile: the accumulator's row minus the query centre. -/
theorem pay3_apply (acc : Vec Ideal S67x1024 .f32) (x2 : Vec Ideal S1x3x1024 .f32) (p : Fin 3) (q : Fin 1024) :
    k0_pay3 (F := Ideal) acc x2 (ix3 (0 : Fin 1) p q)
      = acc (ix2 (⟨p.val, by omega⟩ : Fin 67) q) - x2 (ix3 (0 : Fin 1) p q) := by
  unfold k0_pay3
  refine (shapeCast_ab_1ab_apply _ _ (0 : Fin 1) p q).trans ?_
  refine congr (congrArg _ (slice2_axis0_apply 0 acc _ p q _ (Nat.zero_add _).symm)) ?_
  exact shapeCast_1ab_ab_apply x2 _ p q

/-- Rows 3 .. 66 of the output at the last tile: the accumulator's rows 3 .. 66. -/
theorem pay4_apply (acc : Vec Ideal S67x1024 .f32) (p : Fin 64) (q : Fin 1024) :
    k0_pay4 (F := Ideal) acc (ix3 (0 : Fin 1) p q) = acc (ix2 (⟨p.val + 3, by omega⟩ : Fin 67) q) := by
  unfold k0_pay4
  refine (shapeCast_ab_1ab_apply _ _ (0 : Fin 1) p q).trans ?_
  exact slice2_axis0_apply 3 acc _ p q _ (Nat.add_comm _ _)

end Cert.KernelIdeal.Pay

end
-- ==== Proof.KIPieces.lean ====
/-
  What the gather kernel's three cases store, named through the kernel's payloads.

  Each case's run comes with the pieces (rectangle, values) it stored, and the contents those pieces leave were named
  in the module before this one. Here each such contents is identified:

    table tile 0     the accumulator ends at the accumulate step's payload of the index row, the table block and the
                     ZERO block: the clearing store covers the accumulator, so the load after it reads the zero block.
    table tiles 1-14 the accumulator ends at the accumulate step's payload of the index row, the table block and what
                     the accumulator held on entry.
    table tile 15    the accumulator likewise; the output block ends, on rows 0 to 2, at the first band's payload (the
                     accumulator just stored, less the third input) and, on rows 3 to 66, at the second band's
                     payload (rows 3 to 66 of the accumulator just stored). Both bands read the accumulator after
                     the accumulate step's store, which covers it, so they read that store's payload.

  A load through the rectangle of all of a buffer reads its contents; a store through it leaves its payload whatever
  was there; and two row bands stored one after the other are read back band by band.
-/
import proofs.«138576_j31576599560762_1_alg».proof.Proof.KIOuts
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## Zero offsets, and the two row bands of the output block -/

/-- The offsets of a whole rank-2 rectangle are all zero. -/
theorem pieces_hz2 : (![0, 0] : Fin 2 → Nat) = fun _ => 0 := funext fun a => by fin_cases a <;> rfl
/-- The offsets of a whole rank-3 rectangle are all zero. -/
theorem pieces_hz3 : (![0, 0, 0] : Fin 3 → Nat) = fun _ => 0 := funext fun a => by fin_cases a <;> rfl

variable {Val : EltTy → Type}

/-- Rows 0..2: the lower band's own index (0, p, q) sits at (0, p, q) of the block. -/
theorem band_lo_emb (inb) (p : Fin 3) (q : Fin 1024) :
    (Rect.unit (s := S1x67x1024) ![0, 0, 0] ![1, 3, 1024] inb).emb (ix3 (0 : Fin 1) p q)
      = ix3 (0 : Fin 1) (⟨p.val, by omega⟩ : Fin 67) q := by
  funext a
  apply Fin.ext
  match a with
  | ⟨0, _⟩ => rfl
  | ⟨1, _⟩ => show 0 + 1 * p.val = p.val; omega
  | ⟨2, _⟩ => show 0 + 1 * q.val = q.val; omega

/-- Rows 3..66: the upper band's own index (0, p, q) sits at (0, p + 3, q) of the block. -/
theorem band_hi_emb (inb) (p : Fin 64) (q : Fin 1024) :
    (Rect.unit (s := S1x67x1024) ![0, 3, 0] ![1, 64, 1024] inb).emb (ix3 (0 : Fin 1) p q)
      = ix3 (0 : Fin 1) (⟨p.val + 3, by omega⟩ : Fin 67) q := by
  funext a
  apply Fin.ext
  match a with
  | ⟨0, _⟩ => rfl
  | ⟨1, _⟩ => show 3 + 1 * p.val = p.val + 3; omega
  | ⟨2, _⟩ => show 0 + 1 * q.val = q.val; omega

/-- A row below 3 is not in the upper band. -/
theorem band_hi_not_mem (inb) (p : Fin 3) (q : Fin 1024) :
    ix3 (0 : Fin 1) (⟨p.val, by omega⟩ : Fin 67) q ∉ (Rect.unit (s := S1x67x1024) ![0, 3, 0] ![1, 64, 1024] inb).set := by
  rw [Rect.mem_set_unit]
  intro h
  have h1 := (h (1 : Fin 3)).1
  change 3 ≤ p.val at h1
  omega

/-- The upper band stored over the lower band, read at a row below 3: the lower band's values. -/
theorem canon_bands_lo [∀ e, Nonempty (Val e)] {e : EltTy} (inbH inbL)
    (wH : (Rect.unit (s := S1x67x1024) ![0, 3, 0] ![1, 64, 1024] inbH).shape.Idx → Val e)
    (wL : (Rect.unit (s := S1x67x1024) ![0, 0, 0] ![1, 3, 1024] inbL).shape.Idx → Val e) (p : Fin 3) (q : Fin 1024) :
    View.canon [(⟨Rect.unit ![0, 3, 0] ![1, 64, 1024] inbH, wH⟩ : View.Piece Val S1x67x1024 e), ⟨Rect.unit ![0, 0, 0] ![1, 3, 1024] inbL, wL⟩]
        (ix3 (0 : Fin 1) (⟨p.val, by omega⟩ : Fin 67) q)
      = wL (ix3 (0 : Fin 1) p q) := by
  have hoff := View.canon_cons_of_not_mem
    (⟨Rect.unit (s := S1x67x1024) ![0, 3, 0] ![1, 64, 1024] inbH, wH⟩ : View.Piece Val S1x67x1024 e)
    [(⟨Rect.unit (s := S1x67x1024) ![0, 0, 0] ![1, 3, 1024] inbL, wL⟩ : View.Piece Val S1x67x1024 e)] (band_hi_not_mem inbH p q)
  rw [hoff, ← band_lo_emb inbL p q]
  exact View.canon_cons_emb (Rect.unit (s := S1x67x1024) ![0, 0, 0] ![1, 3, 1024] inbL) wL [] (ix3 (0 : Fin 1) p q)

/-- The same read at a row from 3 on: the upper band's values. -/
theorem canon_bands_hi [∀ e, Nonempty (Val e)] {e : EltTy} (inbH inbL)
    (wH : (Rect.unit (s := S1x67x1024) ![0, 3, 0] ![1, 64, 1024] inbH).shape.Idx → Val e)
    (wL : (Rect.unit (s := S1x67x1024) ![0, 0, 0] ![1, 3, 1024] inbL).shape.Idx → Val e) (p : Fin 64) (q : Fin 1024) :
    View.canon [(⟨Rect.unit ![0, 3, 0] ![1, 64, 1024] inbH, wH⟩ : View.Piece Val S1x67x1024 e), ⟨Rect.unit ![0, 0, 0] ![1, 3, 1024] inbL, wL⟩]
        (ix3 (0 : Fin 1) (⟨p.val + 3, by omega⟩ : Fin 67) q)
      = wH (ix3 (0 : Fin 1) p q) := by
  rw [← band_hi_emb inbH p q]
  exact View.canon_cons_emb (Rect.unit (s := S1x67x1024) ![0, 3, 0] ![1, 64, 1024] inbH) wH
    [(⟨Rect.unit (s := S1x67x1024) ![0, 0, 0] ![1, 3, 1024] inbL, wL⟩ : View.Piece Val S1x67x1024 e)] (ix3 (0 : Fin 1) p q)

/-! ## The accumulator after each case -/

/-- Table tile 0: zero plus the first product. The pieces are the accumulate step's store over the clearing store;
    the last store is all of the accumulator, so it alone is read back, and the accumulator value it adds to is the
    load of the clearing store's zero block. -/
theorem sout_A (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : cond0_0 i) (hc1 : ¬cond0_1 i) (x0 : Vec F S1x1x1024 .i32) (x1 : Vec F S1x67x1024 .f32) (x2 : Vec F S1x3x1024 .f32) :
    sout0_A_0 c i arg3 harg3 arg4 harg4 arg5 harg5 arg6 harg6 arg7 harg7 hc0 hc1 x0 x1 x2 = k0_pay2 i x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S67x1024) pieces_hz2, View.readCov_unit_zero (S := S67x1024) _ pieces_hz2]
  simp only [View.readAt_eq_ld, harg3.read_unread, harg4.read_unread, View.ld_unit_zero (S := S1x1x1024) pieces_hz3, View.ld_unit_zero (S := S1x67x1024) pieces_hz3]

/-- Table tiles 1 to 14: what the accumulator held, plus this tile's product. One piece, all of the accumulator. -/
theorem sout_B (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : ¬cond0_1 i) (x0 : Vec F S1x1x1024 .i32) (x1 : Vec F S1x67x1024 .f32) (x2 : Vec F S1x3x1024 .f32) (xs0 : Vec F S67x1024 .f32) :
    sout0_B_0 c i arg3 harg3 arg4 harg4 arg5 harg5 arg6 harg6 arg7 harg7 hc0 hc1 x0 x1 x2 xs0 = k0_pay2 i x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S67x1024) pieces_hz2]
  simp only [View.readAt_eq_ld, harg3.read_unread, harg4.read_unread, harg7.read_unread, View.ld_unit_zero (S := S1x1x1024) pieces_hz3, View.ld_unit_zero (S := S1x67x1024) pieces_hz3, View.ld_unit_zero (S := S67x1024) pieces_hz2]

/-- Table tile 15: the same for the accumulator (the output stores do not touch it). -/
theorem sout_C (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i) (x0 : Vec F S1x1x1024 .i32) (x1 : Vec F S1x67x1024 .f32) (x2 : Vec F S1x3x1024 .f32) (xs0 : Vec F S67x1024 .f32) :
    sout0_C_0 c i arg3 harg3 arg4 harg4 arg5 harg5 arg6 harg6 arg7 harg7 hc0 hc1 x0 x1 x2 xs0 = k0_pay2 i x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S67x1024) pieces_hz2]
  simp only [View.readAt_eq_ld, harg3.read_unread, harg4.read_unread, harg7.read_unread, View.ld_unit_zero (S := S1x1x1024) pieces_hz3, View.ld_unit_zero (S := S1x67x1024) pieces_hz3, View.ld_unit_zero (S := S67x1024) pieces_hz2]

/-! ## The output block after table tile 15 -/

/-- Rows 0 to 2 of the finished block: the first band's payload, of the accumulator just stored and the third input. -/
theorem out_C_lo (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i) (x0 : Vec F S1x1x1024 .i32) (x1 : Vec F S1x67x1024 .f32) (x2 : Vec F S1x3x1024 .f32) (xs0 : Vec F S67x1024 .f32) (p : Fin 3) (q : Fin 1024) :
    out0_C_3 c i arg3 harg3 arg4 harg4 arg5 harg5 arg6 harg6 arg7 harg7 hc0 hc1 x0 x1 x2 xs0 (ix3 (0 : Fin 1) (⟨p.val, by omega⟩ : Fin 67) q)
      = k0_pay3 (k0_pay2 i x0 x1 xs0) x2 (ix3 (0 : Fin 1) p q) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.readCov_unit_zero (S := S67x1024) _ pieces_hz2]
  simp only [View.readAt_eq_ld, harg3.read_unread, harg4.read_unread, harg5.read_unread, harg7.read_unread, View.ld_unit_zero (S := S1x1x1024) pieces_hz3, View.ld_unit_zero (S := S1x67x1024) pieces_hz3, View.ld_unit_zero (S := S1x3x1024) pieces_hz3, View.ld_unit_zero (S := S67x1024) pieces_hz2]
  exact canon_bands_lo _ _ _ _ p q

/-- Rows 3 to 66 of the finished block: the second band's payload, rows 3 to 66 of the accumulator just stored. -/
theorem out_C_hi (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i) (x0 : Vec F S1x1x1024 .i32) (x1 : Vec F S1x67x1024 .f32) (x2 : Vec F S1x3x1024 .f32) (xs0 : Vec F S67x1024 .f32) (p : Fin 64) (q : Fin 1024) :
    out0_C_3 c i arg3 harg3 arg4 harg4 arg5 harg5 arg6 harg6 arg7 harg7 hc0 hc1 x0 x1 x2 xs0 (ix3 (0 : Fin 1) (⟨p.val + 3, by omega⟩ : Fin 67) q)
      = k0_pay4 (k0_pay2 i x0 x1 xs0) (ix3 (0 : Fin 1) p q) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.readCov_unit_zero (S := S67x1024) _ pieces_hz2]
  simp only [View.readAt_eq_ld, harg3.read_unread, harg4.read_unread, harg5.read_unread, harg7.read_unread, View.ld_unit_zero (S := S1x1x1024) pieces_hz3, View.ld_unit_zero (S := S1x67x1024) pieces_hz3, View.ld_unit_zero (S := S1x3x1024) pieces_hz3, View.ld_unit_zero (S := S67x1024) pieces_hz2]
  exact canon_bands_hi _ _ _ _ p q

end Cert.KernelIdeal.Fr

end
-- ==== Proof.GatherSpec.lean ====
/-
  What the gather kernel's result array holds, as one function of its three operands.

  For batch b, table row p (a point coordinate for p < 3, a feature channel from 3 on) and flat query slot Q, the
  kernel sums over all 16384 point numbers n, taken in 16 tiles of 1024, the table entry (b, p, n) times 1 when the
  32-bit word of n equals the index word at (b, Q) and 0 otherwise; from rows 0, 1, 2 it then subtracts the
  query centre's coordinate. `part … J` is the sum over the first J tiles: what the accumulator holds after tile
  J - 1.
-/
import proofs.«138576_j31576599560762_1_alg».proof.KernelIdeal
import Idealize.ShloMosaic.Lib.ValueIdx
import Idealize.ShloMosaic.PureOps.Ideal

noncomputable section

namespace Cert.KernelIdeal.Spec

open Idealize.ShloMosaic Idealize.ShloMosaic.ValueIdx Cert.KernelIdeal
open scoped BigOperators

/-- Row p of batch b of the table as a function of the point number (0 past the table's end). -/
def row (tbl : FVec Ideal S2x67x16384 .f32) (b : Fin 2) (p : Fin 67) (n : ℕ) : EReal :=
  if h : n < 16384 then (tbl (ix3 b p ⟨n, h⟩) : EReal) else 0

/-- 1 when the word of point number n is the index word, else 0. -/
def hot (n : ℕ) (w : BitVec 32) : EReal := if BitVec.ofNat 32 n = w then 1 else 0

/-- The one-hot sum over the first J table tiles. -/
def part (idx : IVec S2x1x65536 32) (tbl : FVec Ideal S2x67x16384 .f32) (b : Fin 2) (p : Fin 67) (Q : Fin 65536) (J : ℕ) : EReal :=
  ∑ j ∈ Finset.range J, ∑ k : Fin 1024, row tbl b p (1024 * j + k.val) * hot (1024 * j + k.val) (idx (ix3 b (0 : Fin 1) Q))

/-- The result array: the full one-hot sum, less the query centre on the three coordinate rows. -/
def out (idx : IVec S2x1x65536 32) (tbl : FVec Ideal S2x67x16384 .f32) (cen : FVec Ideal S2x3x65536 .f32) : FVec Ideal S2x67x65536 .f32 :=
  fun i =>
    if h : (i 1).val < 3 then (part idx tbl (i 0) (i 1) (i 2) 16 - (cen (ix3 (i 0) (⟨(i 1).val, h⟩ : Fin 3) (i 2)) : EReal) : EReal)
    else part idx tbl (i 0) (i 1) (i 2) 16

end Cert.KernelIdeal.Spec

end
-- ==== Proof.KIBlocks.lean ====
/-
  The windows' blocks, read off the arrays the region finds.

  The grid has 2 * 64 * 16 = 2048 points, the table tile fastest: point t has batch t / 1024, query tile
  (t / 16) mod 64 and table tile t mod 16. Each window's block index is (batch, 0, query tile), except the table's,
  which is (batch, 0, table tile). A block's coordinate in its array is always block index times block size plus the
  coordinate inside the block, so every entry of a block is one entry of the array, at the place named here.
-/
import proofs.«138576_j31576599560762_1_alg».proof.Proof.KIAround
import Idealize.ShloMosaic.Lib.Pipeline.Value
import Idealize.ShloMosaic.Lib.ValueIdx

noncomputable section

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Fr

variable {F : FTy → Type} [FloatOps F]
variable (m : (ℓ : Loc nD τ sig) → Buf (Elt F) ℓ)

/-! ## The index maps over the grid -/

/-- Point t's grid coordinates: batch t / 1024, query tile (t / 16) mod 64, table tile t mod 16 (row-major, the last
    axis fastest: the strides are 1024, 16 and 1). -/
theorem coords_val (t : Fin cfg0.N) :
    ((grid0.coords t) 0).val = t.val / 1024 ∧ ((grid0.coords t) 1).val = (t.val / 16) % 64 ∧ ((grid0.coords t) 2).val = t.val % 16 := by
  have hN : cfg0.N = 2048 := N_0
  have ht := t.isLt
  have s0 : grid0.stride 0 = 1024 := by decide
  have s1 : grid0.stride 1 = 16 := by decide
  have s2 : grid0.stride 2 = 1 := by decide
  refine ⟨?_, ?_, ?_⟩
  · show t.val / grid0.stride 0 % 2 = _
    rw [s0]; omega
  · show t.val / grid0.stride 1 % 64 = _
    rw [s1]
  · show t.val / grid0.stride 2 % 16 = _
    rw [s2]; omega

/-- Point t's last grid coordinate is its table tile. -/
theorem coord2 (t : Fin cfg0.N) : ((grid0.coords t) 2).val = t.val % 16 := (coords_val t).2.2

/-- A grid coordinate's 32-bit word, read back as a number, is the coordinate. -/
theorem word_val (n : ℕ) (h : n < 2048) : (BitVec.ofNat 32 n).toNat = n := by
  rw [BitVec.toNat_ofNat]; omega

/-- The index window's block index at point t is (batch, 0, query tile). -/
theorem idx_facts0 (t : Fin cfg0.N) : win0_0.index t 0 = t.val / 1024 ∧ win0_0.index t 1 = 0 ∧ win0_0.index t 2 = (t.val / 16) % 64 := by
  obtain ⟨c0, c1, c2⟩ := coords_val t
  have hN : cfg0.N = 2048 := N_0
  have ht := t.isLt
  refine ⟨?_, rfl, ?_⟩
  · show (BitVec.ofNat 32 ((grid0.coords t) 0).val).toNat = _
    rw [c0, word_val _ (by omega)]
  · show (BitVec.ofNat 32 ((grid0.coords t) 1).val).toNat = _
    rw [c1, word_val _ (by omega)]

/-- The table window's block index at point t is (batch, 0, table tile). -/
theorem idx_facts1 (t : Fin cfg0.N) : win0_1.index t 0 = t.val / 1024 ∧ win0_1.index t 1 = 0 ∧ win0_1.index t 2 = t.val % 16 := by
  obtain ⟨c0, c1, c2⟩ := coords_val t
  have hN : cfg0.N = 2048 := N_0
  have ht := t.isLt
  refine ⟨?_, rfl, ?_⟩
  · show (BitVec.ofNat 32 ((grid0.coords t) 0).val).toNat = _
    rw [c0, word_val _ (by omega)]
  · show (BitVec.ofNat 32 ((grid0.coords t) 2).val).toNat = _
    rw [c2, word_val _ (by omega)]

/-- The centre window's block index at point t is (batch, 0, query tile). -/
theorem idx_facts2 (t : Fin cfg0.N) : win0_2.index t 0 = t.val / 1024 ∧ win0_2.index t 1 = 0 ∧ win0_2.index t 2 = (t.val / 16) % 64 := by
  obtain ⟨c0, c1, c2⟩ := coords_val t
  have hN : cfg0.N = 2048 := N_0
  have ht := t.isLt
  refine ⟨?_, rfl, ?_⟩
  · show (BitVec.ofNat 32 ((grid0.coords t) 0).val).toNat = _
    rw [c0, word_val _ (by omega)]
  · show (BitVec.ofNat 32 ((grid0.coords t) 1).val).toNat = _
    rw [c1, word_val _ (by omega)]

/-- The output window's block index at point t is (batch, 0, query tile). -/
theorem idx_facts3 (t : Fin cfg0.N) : win0_3.index t 0 = t.val / 1024 ∧ win0_3.index t 1 = 0 ∧ win0_3.index t 2 = (t.val / 16) % 64 := by
  obtain ⟨c0, c1, c2⟩ := coords_val t
  have hN : cfg0.N = 2048 := N_0
  have ht := t.isLt
  refine ⟨?_, rfl, ?_⟩
  · show (BitVec.ofNat 32 ((grid0.coords t) 0).val).toNat = _
    rw [c0, word_val _ (by omega)]
  · show (BitVec.ofNat 32 ((grid0.coords t) 1).val).toNat = _
    rw [c1, word_val _ (by omega)]

/-- All of the above at one point. -/
theorem idx_facts (t : Fin cfg0.N) :
    win0_0.index t 0 = t.val / 1024 ∧ win0_0.index t 1 = 0 ∧ win0_0.index t 2 = (t.val / 16) % 64
    ∧ win0_1.index t 0 = t.val / 1024 ∧ win0_1.index t 1 = 0 ∧ win0_1.index t 2 = t.val % 16
    ∧ win0_2.index t 0 = t.val / 1024 ∧ win0_2.index t 1 = 0 ∧ win0_2.index t 2 = (t.val / 16) % 64
    ∧ win0_3.index t 0 = t.val / 1024 ∧ win0_3.index t 1 = 0 ∧ win0_3.index t 2 = (t.val / 16) % 64
    ∧ ((grid0.coords t) 2).val = t.val % 16 :=
  ⟨(idx_facts0 t).1, (idx_facts0 t).2.1, (idx_facts0 t).2.2, (idx_facts1 t).1, (idx_facts1 t).2.1, (idx_facts1 t).2.2,
    (idx_facts2 t).1, (idx_facts2 t).2.1, (idx_facts2 t).2.2, (idx_facts3 t).1, (idx_facts3 t).2.1, (idx_facts3 t).2.2, coord2 t⟩

/-! ## The input blocks, entry by entry

Each block is first read off ANY contents of its array: the place of a block's entry in the array depends on the
window's index map alone. The region's own contents are then put in. -/

/-- A point's batch is 0 or 1. -/
theorem batch_lt (n : ℕ) (h : n < cfg0.N) : n / 1024 < 2 := by have hN : cfg0.N = 2048 := N_0; omega
/-- A query's flat slot, 1024 * query tile + q, is below 65536. -/
theorem slot_lt (n : ℕ) (q : Fin 1024) : 1024 * ((n / 16) % 64) + q.val < 65536 := by have := q.isLt; omega
/-- A point number, 1024 * table tile + k, is below 16384. -/
theorem point_lt (n : ℕ) (k : Fin 1024) : 1024 * (n % 16) + k.val < 16384 := by have := k.isLt; omega

/-- Entry q of the index window's block at point t, read off contents A of the index array, is A's entry
    (batch, 0, 1024 * query tile + q). -/
theorem read0_apply (A : Vec F S2x1x65536 .i32) (t : Fin cfg0.N) (q : Fin 1024) :
    ((((cfg0.win 0).blk t).view.read (Elt F) A) : Vec F S1x1x1024 .i32) (ix3 (0 : Fin 1) (0 : Fin 1) q)
      = A (ix3 (⟨t.val / 1024, batch_lt t.val t.isLt⟩ : Fin 2) (0 : Fin 1) (⟨1024 * ((t.val / 16) % 64) + q.val, slot_lt t.val q⟩ : Fin 65536)) := by
  have hi := idx_facts0 t
  rw [View.read_apply]
  show A _ = A _
  refine congrArg A (funext fun a => Fin.ext ?_)
  match a with
  | ⟨0, _⟩ => show win0_0.index t 0 * 1 + 1 * 0 = t.val / 1024; rw [hi.1]; omega
  | ⟨1, _⟩ => show win0_0.index t 1 * 1 + 1 * 0 = 0; rw [hi.2.1]
  | ⟨2, _⟩ => show win0_0.index t 2 * 1024 + 1 * q.val = 1024 * ((t.val / 16) % 64) + q.val; rw [hi.2.2]; omega

/-- Entry (p, k) of the table window's block at point t, read off contents A of the table, is A's entry
    (batch, p, 1024 * table tile + k). -/
theorem read1_apply (A : Vec F S2x67x16384 .f32) (t : Fin cfg0.N) (p : Fin 67) (k : Fin 1024) :
    ((((cfg0.win 1).blk t).view.read (Elt F) A) : Vec F S1x67x1024 .f32) (ix3 (0 : Fin 1) p k)
      = A (ix3 (⟨t.val / 1024, batch_lt t.val t.isLt⟩ : Fin 2) p (⟨1024 * (t.val % 16) + k.val, point_lt t.val k⟩ : Fin 16384)) := by
  have hi := idx_facts1 t
  rw [View.read_apply]
  show A _ = A _
  refine congrArg A (funext fun a => Fin.ext ?_)
  match a with
  | ⟨0, _⟩ => show win0_1.index t 0 * 1 + 1 * 0 = t.val / 1024; rw [hi.1]; omega
  | ⟨1, _⟩ => show win0_1.index t 1 * 67 + 1 * p.val = p.val; rw [hi.2.1]; omega
  | ⟨2, _⟩ => show win0_1.index t 2 * 1024 + 1 * k.val = 1024 * (t.val % 16) + k.val; rw [hi.2.2]; omega

/-- Entry (p, q) of the centre window's block at point t, read off contents A of the centre array, is A's entry
    (batch, p, 1024 * query tile + q). -/
theorem read2_apply (A : Vec F S2x3x65536 .f32) (t : Fin cfg0.N) (p : Fin 3) (q : Fin 1024) :
    ((((cfg0.win 2).blk t).view.read (Elt F) A) : Vec F S1x3x1024 .f32) (ix3 (0 : Fin 1) p q)
      = A (ix3 (⟨t.val / 1024, batch_lt t.val t.isLt⟩ : Fin 2) p (⟨1024 * ((t.val / 16) % 64) + q.val, slot_lt t.val q⟩ : Fin 65536)) := by
  have hi := idx_facts2 t
  rw [View.read_apply]
  show A _ = A _
  refine congrArg A (funext fun a => Fin.ext ?_)
  match a with
  | ⟨0, _⟩ => show win0_2.index t 0 * 1 + 1 * 0 = t.val / 1024; rw [hi.1]; omega
  | ⟨1, _⟩ => show win0_2.index t 1 * 3 + 1 * p.val = p.val; rw [hi.2.1]; omega
  | ⟨2, _⟩ => show win0_2.index t 2 * 1024 + 1 * q.val = 1024 * ((t.val / 16) % 64) + q.val; rw [hi.2.2]; omega

/-- Entry q of the index block at point t is the index array's entry (batch, 0, 1024 * query tile + q). -/
theorem iblk0_apply (c : Dev nD) (t : Fin cfg0.N) (q : Fin 1024) :
    (iblk m c 0 t : Vec F S1x1x1024 .i32) (ix3 (0 : Fin 1) (0 : Fin 1) q)
      = (V m c main_v64 : Vec F S2x1x65536 .i32) (ix3 (⟨t.val / 1024, batch_lt t.val t.isLt⟩ : Fin 2) (0 : Fin 1)
          (⟨1024 * ((t.val / 16) % 64) + q.val, slot_lt t.val q⟩ : Fin 65536)) :=
  read0_apply (V m c main_v64) t q

/-- Entry (p, k) of the table block at point t is the table's entry (batch, p, 1024 * table tile + k). -/
theorem iblk1_apply (c : Dev nD) (t : Fin cfg0.N) (p : Fin 67) (k : Fin 1024) :
    (iblk m c 1 t : Vec F S1x67x1024 .f32) (ix3 (0 : Fin 1) p k)
      = (V m c main_v63 : Vec F S2x67x16384 .f32) (ix3 (⟨t.val / 1024, batch_lt t.val t.isLt⟩ : Fin 2) p
          (⟨1024 * (t.val % 16) + k.val, point_lt t.val k⟩ : Fin 16384)) :=
  read1_apply (V m c main_v63) t p k

/-- Entry (p, q) of the centre block at point t is the centre array's entry (batch, p, 1024 * query tile + q). -/
theorem iblk2_apply (c : Dev nD) (t : Fin cfg0.N) (p : Fin 3) (q : Fin 1024) :
    (iblk m c 2 t : Vec F S1x3x1024 .f32) (ix3 (0 : Fin 1) p q)
      = (V m c main_v67 : Vec F S2x3x65536 .f32) (ix3 (⟨t.val / 1024, batch_lt t.val t.isLt⟩ : Fin 2) p
          (⟨1024 * ((t.val / 16) % 64) + q.val, slot_lt t.val q⟩ : Fin 65536)) :=
  read2_apply (V m c main_v67) t p q

end Cert.KernelIdeal.Val

end
-- ==== Proof.KIAcc.lean ====
/-
  The accumulator invariant of the gather kernel, at the ideal values.

  For one (batch, query tile) pair the sixteen table tiles are sixteen consecutive grid points. The first clears the
  67 x 1024 accumulator and adds its product, each later one adds its product to what it finds. The product of the
  table block with the tile's 0/1 matrix, read at (p, q), is the sum over the tile's 1024 point numbers n of the table
  entry (batch, p, n) times 1 when the word of n is the index word of query q and 0 otherwise: one tile's term of the
  one-hot sum. So after point n the accumulator holds the one-hot sum over the table tiles 0 .. n mod 16, for the
  point's batch and, in column q, the flat query slot 1024 * query tile + q. This is proved by induction on the point:
  a clearing point starts the sum afresh, and any other point has the batch and the query tile of the point before it,
  whose sum it extends by one tile.
-/
import proofs.«138576_j31576599560762_1_alg».proof.Proof.KIFrame
import proofs.«138576_j31576599560762_1_alg».proof.Proof.KIPieces
import proofs.«138576_j31576599560762_1_alg».proof.Proof.KIPay
import proofs.«138576_j31576599560762_1_alg».proof.Proof.KIBlocks
import proofs.«138576_j31576599560762_1_alg».proof.Proof.GatherSpec

set_option maxRecDepth 16384

open scoped BigOperators

noncomputable section

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Fr Cert.KernelIdeal.Pay Cert.KernelIdeal.Spec

variable (m : (ℓ : Loc nD τ sig) → Buf (Elt Ideal) ℓ)

/-! ## The one-hot sum, tile by tile -/

/-- One tile's term of the one-hot sum. -/
def tile (idx : IVec S2x1x65536 32) (tbl : FVec Ideal S2x67x16384 .f32) (b : Fin 2) (p : Fin 67) (Q : Fin 65536) (j : ℕ) : EReal :=
  ∑ k : Fin 1024, row tbl b p (1024 * j + k.val) * hot (1024 * j + k.val) (idx (ix3 b (0 : Fin 1) Q))

/-- The sum over no tiles is zero. -/
theorem part_zero (idx : IVec S2x1x65536 32) (tbl : FVec Ideal S2x67x16384 .f32) (b : Fin 2) (p : Fin 67) (Q : Fin 65536) :
    part idx tbl b p Q 0 = 0 := Finset.sum_range_zero _

/-- One more tile adds its term. -/
theorem part_succ (idx : IVec S2x1x65536 32) (tbl : FVec Ideal S2x67x16384 .f32) (b : Fin 2) (p : Fin 67) (Q : Fin 65536) (J : ℕ) :
    part idx tbl b p Q (J + 1) = part idx tbl b p Q J + tile idx tbl b p Q J := Finset.sum_range_succ _ _

/-- A tile's product row, over a table block and an index block that are read off the arrays at batch b, table tile j and
    flat query slot Q, is that tile's term of the one-hot sum. -/
theorem tile_of_blocks (idx : IVec S2x1x65536 32) (tbl : FVec Ideal S2x67x16384 .f32)
    (x0 : Vec Ideal S1x1x1024 .i32) (x1 : Vec Ideal S1x67x1024 .f32)
    (b : Fin 2) (Q : Fin 65536) (p : Fin 67) (q : Fin 1024) (j g : ℕ) (hj : j < 16) (hg : g = j)
    (h0 : x0 (ix3 (0 : Fin 1) (0 : Fin 1) q) = idx (ix3 b (0 : Fin 1) Q))
    (h1 : ∀ k : Fin 1024, x1 (ix3 (0 : Fin 1) p k) = tbl (ix3 b p (⟨1024 * j + k.val, by have := k.isLt; omega⟩ : Fin 16384))) :
    (∑ k : Fin 1024, x1 (ix3 (0 : Fin 1) p k)
        * (if BitVec.ofNat 32 (1024 * g + k.val) = x0 (ix3 (0 : Fin 1) (0 : Fin 1) q) then (1 : EReal) else 0))
      = tile idx tbl b p Q j := by
  subst hg
  unfold tile
  refine Finset.sum_congr rfl fun k _ => ?_
  have hk : 1024 * g + k.val < 16384 := by have := k.isLt; omega
  rw [h1 k, h0]
  unfold row hot
  rw [dif_pos hk]

/-! ## The blocks and arrays under literal types -/

/-- The index block at point t. -/
abbrev idxBlk (c : Dev nD) (t : Fin cfg0.N) : Vec Ideal S1x1x1024 .i32 := iblk m c 0 t
/-- The table block at point t. -/
abbrev tblBlk (c : Dev nD) (t : Fin cfg0.N) : Vec Ideal S1x67x1024 .f32 := iblk m c 1 t
/-- The centre block at point t. -/
abbrev cenBlk (c : Dev nD) (t : Fin cfg0.N) : Vec Ideal S1x3x1024 .f32 := iblk m c 2 t
/-- The index array as the region finds it. -/
abbrev idxArr (c : Dev nD) : IVec S2x1x65536 32 := V m c main_v64
/-- The table as the region finds it. -/
abbrev tblArr (c : Dev nD) : FVec Ideal S2x67x16384 .f32 := V m c main_v63
/-- The accumulator after point n. -/
abbrev accAt (c : Dev nD) (n : ℕ) (h : n < cfg0.N) : Vec Ideal S67x1024 .f32 := (outsAt0 m c n h).2

/-- The product row a point adds at (p, q). -/
def added (c : Dev nD) (t : Fin cfg0.N) (p : Fin 67) (q : Fin 1024) : EReal :=
  ∑ k : Fin 1024, tblBlk m c t (ix3 (0 : Fin 1) p k)
    * (if BitVec.ofNat 32 (1024 * ((grid0.coords t) 2).val + k.val) = idxBlk m c t (ix3 (0 : Fin 1) (0 : Fin 1) q) then (1 : EReal) else 0)

/-- What a point adds is its table tile's term of the one-hot sum, at the point's batch and the flat slot of query q
    of the point's query tile. -/
theorem added_eq (c : Dev nD) (t : Fin cfg0.N) (p : Fin 67) (q : Fin 1024) (b : Fin 2) (Q : Fin 65536) (j : ℕ)
    (hb : b.val = t.val / 1024) (hQ : Q.val = 1024 * ((t.val / 16) % 64) + q.val) (hj : j = t.val % 16) :
    added m c t p q = tile (idxArr m c) (tblArr m c) b p Q j := by
  obtain rfl : b = ⟨t.val / 1024, batch_lt t.val t.isLt⟩ := Fin.ext hb
  obtain rfl : Q = ⟨1024 * ((t.val / 16) % 64) + q.val, slot_lt t.val q⟩ := Fin.ext hQ
  subst hj
  have ht : t.val % 16 < 16 := Nat.mod_lt _ (by decide)
  exact tile_of_blocks (idxArr m c) (tblArr m c) (idxBlk m c t) (tblBlk m c t) _ _ p q (t.val % 16) ((grid0.coords t) 2).val
    ht (coord2 t) (iblk0_apply m c t q) (fun k => iblk1_apply m c t p k)

/-! ## One point's effect on the accumulator -/

/-- A clearing point leaves zero plus what it adds. -/
theorem acc_A (c : Dev nD) (t : Fin cfg0.N) (h0 : t.val % 16 = 0) (h1 : ¬t.val % 16 = 15) (p : Fin 67) (q : Fin 1024) :
    accAt m c t.val t.isLt (ix2 p q) = 0 + added m c t p q := by
  show (outsAt0 m c t.val t.isLt).2 (ix2 p q) = _
  rw [outsAt0_A m c t h0 h1]
  dsimp only
  exact (congrFun (sout_A c (grid0.coords t) (ms0_0 t) (hs0_0 t) (ms0_1 t) (hs0_1 t) (ms0_2 t) (hs0_2 t) (ms0_3 t) (hs0_3 t) scM0_0
      (Memref.isWhole_whole _) ((hcond0_0 t).mpr h0) (fun h => h1 ((hcond0_1 t).mp h)) (iblk m c 0 t) (iblk m c 1 t) (iblk m c 2 t)) (ix2 p q)).trans
    ((pay2_apply (grid0.coords t) (idxBlk m c t) (tblBlk m c t) (k0_pay1 (F := Ideal)) p q).trans
      (congrArg (· + added m c t p q) (pay1_apply (ix2 p q))))

/-- A middle point leaves what it found plus what it adds. -/
theorem acc_B (c : Dev nD) (t : Fin cfg0.N) (h0 : ¬t.val % 16 = 0) (h1 : ¬t.val % 16 = 15) (p : Fin 67) (q : Fin 1024) :
    accAt m c t.val t.isLt (ix2 p q)
      = accAt m c (t.val - 1) (Nat.lt_of_le_of_lt (Nat.sub_le _ _) t.isLt) (ix2 p q) + added m c t p q := by
  show (outsAt0 m c t.val t.isLt).2 (ix2 p q) = _
  rw [outsAt0_B m c t h0 h1]
  dsimp only
  exact (congrFun (sout_B c (grid0.coords t) (ms0_0 t) (hs0_0 t) (ms0_1 t) (hs0_1 t) (ms0_2 t) (hs0_2 t) (ms0_3 t) (hs0_3 t) scM0_0
      (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2) (ix2 p q)).trans
    (pay2_apply (grid0.coords t) (idxBlk m c t) (tblBlk m c t) (accAt m c (t.val - 1) (Nat.lt_of_le_of_lt (Nat.sub_le _ _) t.isLt)) p q)

/-- So does the last point of a query tile. -/
theorem acc_C (c : Dev nD) (t : Fin cfg0.N) (h0 : ¬t.val % 16 = 0) (h1 : t.val % 16 = 15) (p : Fin 67) (q : Fin 1024) :
    accAt m c t.val t.isLt (ix2 p q)
      = accAt m c (t.val - 1) (Nat.lt_of_le_of_lt (Nat.sub_le _ _) t.isLt) (ix2 p q) + added m c t p q := by
  show (outsAt0 m c t.val t.isLt).2 (ix2 p q) = _
  rw [outsAt0_C m c t h0 h1]
  dsimp only
  exact (congrFun (sout_C c (grid0.coords t) (ms0_0 t) (hs0_0 t) (ms0_1 t) (hs0_1 t) (ms0_2 t) (hs0_2 t) (ms0_3 t) (hs0_3 t) scM0_0
      (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2) (ix2 p q)).trans
    (pay2_apply (grid0.coords t) (idxBlk m c t) (tblBlk m c t) (accAt m c (t.val - 1) (Nat.lt_of_le_of_lt (Nat.sub_le _ _) t.isLt)) p q)

/-- Any point that does not clear: what it found plus what it adds. -/
theorem acc_step (c : Dev nD) (t : Fin cfg0.N) (h0 : ¬t.val % 16 = 0) (p : Fin 67) (q : Fin 1024) :
    accAt m c t.val t.isLt (ix2 p q)
      = accAt m c (t.val - 1) (Nat.lt_of_le_of_lt (Nat.sub_le _ _) t.isLt) (ix2 p q) + added m c t p q := by
  by_cases h1 : t.val % 16 = 15
  · exact acc_C m c t h0 h1 p q
  · exact acc_B m c t h0 h1 p q

/-! ## The invariant -/

/-- After point n the accumulator holds, at (p, q), the one-hot sum over the table tiles 0 .. n mod 16, at the point's
    batch and the flat slot of query q of the point's query tile. The batch and the slot are stated as any b and Q with
    those values, so that a point and the point before it, which share them, are compared at the same b and Q. -/
theorem acc_eq' (c : Dev nD) : ∀ (n : ℕ) (h : n < cfg0.N) (p : Fin 67) (q : Fin 1024) (b : Fin 2) (Q : Fin 65536),
    b.val = n / 1024 → Q.val = 1024 * ((n / 16) % 64) + q.val →
    accAt m c n h (ix2 p q) = part (idxArr m c) (tblArr m c) b p Q (n % 16 + 1) := by
  intro n
  induction n with
  | zero =>
    intro h p q b Q hb hQ
    rw [show 0 % 16 + 1 = 0 + 1 from rfl, part_succ, part_zero]
    refine (acc_A m c ⟨0, h⟩ rfl (by show ¬(0 : ℕ) % 16 = 15; decide) p q).trans (congrArg (0 + ·) ?_)
    exact added_eq m c ⟨0, h⟩ p q b Q 0 hb hQ rfl
  | succ n ih =>
    intro h p q b Q hb hQ
    by_cases h0 : (n + 1) % 16 = 0
    · rw [h0, part_succ, part_zero]
      refine (acc_A m c ⟨n + 1, h⟩ h0 (by show ¬(n + 1) % 16 = 15; omega) p q).trans (congrArg (0 + ·) ?_)
      exact added_eq m c ⟨n + 1, h⟩ p q b Q 0 hb hQ h0.symm
    · have hJ : (n + 1) % 16 = n % 16 + 1 := by omega
      have hprev := ih (Nat.lt_of_succ_lt h) p q b Q (by omega) (by omega)
      rw [hJ, part_succ, ← hprev]
      refine (acc_step m c ⟨n + 1, h⟩ h0 p q).trans ?_
      show accAt m c n _ (ix2 p q) + _ = accAt m c n _ (ix2 p q) + _
      exact congrArg (accAt m c n _ (ix2 p q) + ·) (added_eq m c ⟨n + 1, h⟩ p q b Q (n % 16 + 1) hb hQ hJ.symm)

/-- THE ACCUMULATOR INVARIANT. After point n the accumulator holds, at (p, q), the one-hot sum over the table tiles
    0 .. n mod 16 for batch n / 1024 and the flat query slot 1024 * ((n / 16) mod 64) + q. -/
theorem acc_eq (c : Dev nD) : ∀ (n : ℕ) (h : n < cfg0.N) (p : Fin 67) (q : Fin 1024),
    ((outsAt0 m c n h).2 : Vec Ideal S67x1024 .f32) (ix2 p q)
      = Spec.part (V m c main_v64) (V m c main_v63) (⟨n / 1024, batch_lt n h⟩ : Fin 2) p
          (⟨1024 * ((n / 16) % 64) + q.val, slot_lt n q⟩ : Fin 65536) (n % 16 + 1) :=
  fun n h p q => acc_eq' m c n h p q _ _ rfl rfl

end Cert.KernelIdeal.Val

end
-- ==== Proof.KIFinal.lean ====
/-
  The gather kernel's result array.

  The kernel runs on 2048 grid points (batch b, query tile, table tile), the table tile running fastest. For one
  (batch, query tile) pair the sixteen table tiles each add to a 67 x 1024 accumulator the product of the tile's
  table block with a one-hot matrix: entry (k, q) of that matrix is 1 when the 32-bit word of the point number
  1024 * tile + k equals the index word of query slot q, else 0. At table tile 15 the output block is written: the
  accumulator's rows 0, 1, 2 less the query centres' coordinates, rows 3 .. 66 as they are; only those points write
  their block back to the output array.

  This module reads the output array after the run. At a point of table tile 15 the accumulator found holds the
  one-hot sum over tiles 0 .. 14 (the accumulator invariant), this point adds tile 15's term, so each entry of the
  output block is the full sum over the 16384 point numbers, less the centre on the coordinate rows: the entry of
  `Spec.out` at (batch, row, 1024 * query tile + q). An entry of a block sits in the array, on each axis, at block
  index times block size plus its coordinate in the block; the blocks of the 128 writing points, one per (batch,
  query tile), cover the array. So the array ends holding `Spec.out` of the three operand arrays.
-/
import proofs.«138576_j31576599560762_1_alg».proof.Proof.KIFrame
import proofs.«138576_j31576599560762_1_alg».proof.Proof.KIPay
import proofs.«138576_j31576599560762_1_alg».proof.Proof.KIPieces
import proofs.«138576_j31576599560762_1_alg».proof.Proof.GatherSpec
import proofs.«138576_j31576599560762_1_alg».proof.Proof.KIAcc
import Idealize.ShloMosaic.Lib.Pipeline.Value

set_option maxRecDepth 16384

noncomputable section

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Fr Cert.KernelIdeal.Pay Cert.KernelIdeal.Spec
open scoped BigOperators

variable (m : (ℓ : Loc nD τ sig) → Buf (Elt Ideal) ℓ)

/-! ## The writing points' blocks cover the output array -/

/-- Every entry of the output array lies in the block of a point that writes back. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 2048 := N_0
  have h0 : (i 0 : ℕ) < 2 := (i 0).isLt
  have h1 : (i 1 : ℕ) < 67 := (i 1).isLt
  have h2 : (i 2 : ℕ) < 65536 := (i 2).isLt
  obtain ⟨t, ht⟩ : ∃ t : Fin cfg0.N, t.val = 1024 * (i 0 : ℕ) + 16 * ((i 2 : ℕ) / 1024) + 15 :=
    ⟨⟨1024 * (i 0 : ℕ) + 16 * ((i 2 : ℕ) / 1024) + 15, by omega⟩, rfl⟩
  obtain ⟨e0, e1, e2⟩ := idx_facts3 t
  refine ⟨t, (flush0_3 t).mpr (by omega), ?_⟩
  show i ∈ ((View.whole main_v68).slice (win0_3.rect t)).set
  rw [View.set_slice_whole, Rect.mem_set_unit]
  intro a
  match a with
  | ⟨0, _⟩ =>
    show win0_3.index t 0 * 1 ≤ (i 0 : ℕ) ∧ (i 0 : ℕ) < win0_3.index t 0 * 1 + 1
    rw [e0]; omega
  | ⟨1, _⟩ =>
    show win0_3.index t 1 * 67 ≤ (i 1 : ℕ) ∧ (i 1 : ℕ) < win0_3.index t 1 * 67 + 67
    rw [e1]; omega
  | ⟨2, _⟩ =>
    show win0_3.index t 2 * 1024 ≤ (i 2 : ℕ) ∧ (i 2 : ℕ) < win0_3.index t 2 * 1024 + 1024
    rw [e2]; omega

/-! ## The finishing case at one entry, for any blocks -/

/-- What table tile 15 leaves at entry (0, p, q) of the output block, for any index block `x0`, table block `x1`,
    centre block `x2` and accumulator `xs0` found: the accumulator's entry plus this tile's one-hot sum, less the
    centre's coordinate on rows 0, 1, 2. -/
theorem outC_val (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec Ideal S1x1x1024 .i32) (x1 : Vec Ideal S1x67x1024 .f32) (x2 : Vec Ideal S1x3x1024 .f32) (xs0 : Vec Ideal S67x1024 .f32)
    (p : Fin 67) (q : Fin 1024) :
    (out0_C_3 c i arg3 harg3 arg4 harg4 arg5 harg5 arg6 harg6 arg7 harg7 hc0 hc1 x0 x1 x2 xs0 (ix3 (0 : Fin 1) p q) : EReal)
      = if h : p.val < 3 then
          (xs0 (ix2 p q) + ∑ k : Fin 1024, x1 (ix3 (0 : Fin 1) p k) * (if BitVec.ofNat 32 (1024 * (i 2).val + k.val) = x0 (ix3 (0 : Fin 1) (0 : Fin 1) q) then (1 : EReal) else 0)) - x2 (ix3 (0 : Fin 1) (⟨p.val, h⟩ : Fin 3) q)
        else xs0 (ix2 p q) + ∑ k : Fin 1024, x1 (ix3 (0 : Fin 1) p k) * (if BitVec.ofNat 32 (1024 * (i 2).val + k.val) = x0 (ix3 (0 : Fin 1) (0 : Fin 1) q) then (1 : EReal) else 0) := by
  by_cases h : p.val < 3
  · rw [dif_pos h]
    refine (out_C_lo c i arg3 harg3 arg4 harg4 arg5 harg5 arg6 harg6 arg7 harg7 hc0 hc1 x0 x1 x2 xs0 (⟨p.val, h⟩ : Fin 3) q).trans ?_
    rw [pay3_apply, pay2_apply]
  · rw [dif_neg h]
    have hp : p.val - 3 < 64 := by have := p.isLt; omega
    have e : p = (⟨(⟨p.val - 3, hp⟩ : Fin 64).val + 3, by omega⟩ : Fin 67) := Fin.ext (by show p.val = p.val - 3 + 3; omega)
    rw [e]
    refine (out_C_hi c i arg3 harg3 arg4 harg4 arg5 harg5 arg6 harg6 arg7 harg7 hc0 hc1 x0 x1 x2 xs0 (⟨p.val - 3, hp⟩ : Fin 64) q).trans ?_
    rw [pay4_apply, pay2_apply]

/-! ## The one-hot sums, tile by tile -/

/-- The sum over the first `J + 1` tiles is the sum over the first `J` plus tile `J`'s term. -/
theorem part_last_tile (idx : IVec S2x1x65536 32) (tbl : FVec Ideal S2x67x16384 .f32) (b : Fin 2) (p : Fin 67) (Q : Fin 65536) (J : ℕ) :
    Spec.part idx tbl b p Q (J + 1) = Spec.part idx tbl b p Q J
      + ∑ k : Fin 1024, Spec.row tbl b p (1024 * J + k.val) * Spec.hot (1024 * J + k.val) (idx (ix3 b (0 : Fin 1) Q)) := by
  unfold Spec.part
  exact Finset.sum_range_succ _ _

/-- The partial sum depends on the batch, the query slot and the tile count through their values only. -/
theorem part_of_vals (idx : IVec S2x1x65536 32) (tbl : FVec Ideal S2x67x16384 .f32) {b b' : Fin 2} (hb : b.val = b'.val) (p : Fin 67)
    {Q Q' : Fin 65536} (hQ : Q.val = Q'.val) {J J' : ℕ} (hJ : J = J') :
    Spec.part idx tbl b p Q J = Spec.part idx tbl b' p Q' J' := by
  obtain rfl := Fin.ext hb
  obtain rfl := Fin.ext hQ
  subst hJ
  rfl

/-- The finishing case at one entry, in the operands' entries. When the point is at table tile 15, the index block's
    entry is the index word of slot `Q`, the table block's row is row `p` of tile 15, the centre block's entry is the
    centre of slot `Q`, and the accumulator found holds the sum over tiles 0 .. 14, the output block's entry is the
    result array's. -/
theorem outC_spec (c : Dev nD) (i : grid0.Coords) (arg3 : Memref sig .tc .vmem S1x1x1024 .i32) (harg3 : arg3.IsWhole) (arg4 : Memref sig .tc .vmem S1x67x1024 .f32) (harg4 : arg4.IsWhole) (arg5 : Memref sig .tc .vmem S1x3x1024 .f32) (harg5 : arg5.IsWhole) (arg6 : Memref sig .tc .vmem S1x67x1024 .f32) (harg6 : arg6.IsWhole) (arg7 : Memref sig .tc .vmem S67x1024 .f32) (harg7 : arg7.IsWhole) (hc0 : ¬cond0_0 i) (hc1 : cond0_1 i)
    (x0 : Vec Ideal S1x1x1024 .i32) (x1 : Vec Ideal S1x67x1024 .f32) (x2 : Vec Ideal S1x3x1024 .f32) (xs0 : Vec Ideal S67x1024 .f32)
    (idx : IVec S2x1x65536 32) (tbl : FVec Ideal S2x67x16384 .f32) (cen : FVec Ideal S2x3x65536 .f32)
    (b : Fin 2) (Q : Fin 65536) (p : Fin 67) (q : Fin 1024)
    (hi : (i 2).val = 15)
    (h0 : x0 (ix3 (0 : Fin 1) (0 : Fin 1) q) = idx (ix3 b (0 : Fin 1) Q))
    (h1 : ∀ k : Fin 1024, x1 (ix3 (0 : Fin 1) p k) = tbl (ix3 b p (⟨1024 * 15 + k.val, by have := k.isLt; omega⟩ : Fin 16384)))
    (h2 : ∀ h : p.val < 3, x2 (ix3 (0 : Fin 1) (⟨p.val, h⟩ : Fin 3) q) = cen (ix3 b (⟨p.val, h⟩ : Fin 3) Q))
    (hs : xs0 (ix2 p q) = Spec.part idx tbl b p Q 15) :
    out0_C_3 c i arg3 harg3 arg4 harg4 arg5 harg5 arg6 harg6 arg7 harg7 hc0 hc1 x0 x1 x2 xs0 (ix3 (0 : Fin 1) p q) = Spec.out idx tbl cen (ix3 b p Q) := by
  refine (outC_val c i arg3 harg3 arg4 harg4 arg5 harg5 arg6 harg6 arg7 harg7 hc0 hc1 x0 x1 x2 xs0 p q).trans ?_
  have key : (xs0 (ix2 p q) + ∑ k : Fin 1024, x1 (ix3 (0 : Fin 1) p k) * (if BitVec.ofNat 32 (1024 * (i 2).val + k.val) = x0 (ix3 (0 : Fin 1) (0 : Fin 1) q) then (1 : EReal) else 0) : EReal) = Spec.part idx tbl b p Q 16 := by
    rw [part_last_tile, hs, hi, h0]
    congr 1
    refine Finset.sum_congr rfl fun k _ => ?_
    rw [h1 k]
    unfold Spec.row Spec.hot
    rw [dif_pos (by have := k.isLt; omega)]
  rw [key]
  show _ = (if h : p.val < 3 then (Spec.part idx tbl b p Q 16 - (cen (ix3 b (⟨p.val, h⟩ : Fin 3) Q) : EReal) : EReal) else Spec.part idx tbl b p Q 16)
  by_cases h : p.val < 3
  · rw [dif_pos h, dif_pos h, h2 h]
  · rw [dif_neg h, dif_neg h]

/-! ## The finishing point -/

/-- What the output's staging buffer holds after a point of table tile 15, entry by entry: the result array's entry at
    the point's batch, the row, and the point's query tile's slot. -/
theorem outC_apply (c : Dev nD) (t : Fin cfg0.N) (h15 : t.val % 16 = 15) (p : Fin 67) (q : Fin 1024) :
    ((outsAt0 m c t.val t.isLt).1 : Vec Ideal S1x67x1024 .f32) (ix3 (0 : Fin 1) p q)
      = Spec.out (V m c main_v64) (V m c main_v63) (V m c main_v67)
          (ix3 (⟨t.val / 1024, batch_lt t.val t.isLt⟩ : Fin 2) p (⟨1024 * ((t.val / 16) % 64) + q.val, slot_lt t.val q⟩ : Fin 65536)) := by
  have hN : cfg0.N = 2048 := N_0
  have h0 : ¬t.val % 16 = 0 := by omega
  have hlt : t.val - 1 < cfg0.N := Nat.lt_of_le_of_lt (Nat.sub_le _ _) t.isLt
  rw [outsAt0_C m c t h0 h15]
  dsimp only
  refine outC_spec c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h15) (iblk m c 0 t) (iblk m c 1 t) (iblk m c 2 t) (outsAt0 m c (t.val - 1) hlt).2
    (V m c main_v64) (V m c main_v63) (V m c main_v67) (⟨t.val / 1024, batch_lt t.val t.isLt⟩ : Fin 2) (⟨1024 * ((t.val / 16) % 64) + q.val, slot_lt t.val q⟩ : Fin 65536) p q
    ((coord2 t).trans h15) (iblk0_apply m c t q) (fun k => ?_) (fun h => iblk2_apply m c t (⟨p.val, h⟩ : Fin 3) q) ?_
  · have e : (⟨1024 * (t.val % 16) + k.val, point_lt t.val k⟩ : Fin 16384) = ⟨1024 * 15 + k.val, by have := k.isLt; omega⟩ :=
      Fin.ext (by show 1024 * (t.val % 16) + k.val = 1024 * 15 + k.val; rw [h15])
    rw [iblk1_apply m c t p k, e]
  · rw [acc_eq m c (t.val - 1) hlt p q]
    exact part_of_vals _ _ (by show (t.val - 1) / 1024 = t.val / 1024; omega) p
      (by show 1024 * (((t.val - 1) / 16) % 64) + q.val = 1024 * ((t.val / 16) % 64) + q.val; omega) (by omega)

/-! ## The write-back and the result array -/

/-- Entry (0, p, q) of the output window's block at point t, read off any contents G of the output array, is G's
    entry (batch, p, 1024 * query tile + q): on each axis the block's entry sits at block index times block size plus
    its coordinate in the block. -/
theorem read3_apply (G : FVec Ideal S2x67x65536 .f32) (t : Fin cfg0.N) (p : Fin 67) (q : Fin 1024) :
    ((((cfg0.win 3).blk t).view.read (Elt Ideal) G) : Vec Ideal S1x67x1024 .f32) (ix3 (0 : Fin 1) p q)
      = G (ix3 (⟨t.val / 1024, batch_lt t.val t.isLt⟩ : Fin 2) p (⟨1024 * ((t.val / 16) % 64) + q.val, slot_lt t.val q⟩ : Fin 65536)) := by
  have hi := idx_facts3 t
  rw [View.read_apply]
  show G _ = G _
  refine congrArg G (funext fun a => Fin.ext ?_)
  match a with
  | ⟨0, _⟩ => show win0_3.index t 0 * 1 + 1 * 0 = t.val / 1024; rw [hi.1]; omega
  | ⟨1, _⟩ => show win0_3.index t 1 * 67 + 1 * p.val = p.val; rw [hi.2.1]; omega
  | ⟨2, _⟩ => show win0_3.index t 2 * 1024 + 1 * q.val = 1024 * ((t.val / 16) % 64) + q.val; rw [hi.2.2]; omega

/-- What the output's staging buffer holds after a writing point, at any entry of the block, is the result array
    read through the point's block. -/
theorem flushed_at (c : Dev nD) (t : Fin cfg0.N) (h15 : t.val % 16 = 15) (y : S1x67x1024.Idx) :
    ((outsAt0 m c t.val t.isLt).1 : Vec Ideal S1x67x1024 .f32) (win0_3.xinj (grid0.coords t) y)
      = ((cfg0.win 3).blk t).view.read (Elt Ideal) (Spec.out (V m c main_v64) (V m c main_v63) (V m c main_v67)) y := by
  obtain ⟨a0, p, q, rfl⟩ : ∃ (a0 : Fin 1) (p : Fin 67) (q : Fin 1024), y = ix3 a0 p q := ⟨y 0, y 1, y 2, eq_ix3 y⟩
  obtain rfl : a0 = 0 := Subsingleton.elim _ _
  have hL : win0_3.xinj (grid0.coords t) (ix3 (0 : Fin 1) p q) = ix3 (0 : Fin 1) p q := by
    funext a
    match a with
    | ⟨0, _⟩ => rfl
    | ⟨1, _⟩ => rfl
    | ⟨2, _⟩ => rfl
  rw [hL, outC_apply m c t h15 p q]
  exact (read3_apply (Spec.out (V m c main_v64) (V m c main_v63) (V m c main_v67)) t p q).symm

/-- What a writing point writes back is its block of the result array. -/
theorem flushed_eq (c : Dev nD) (t : Fin cfg0.N) (hf : (cfg0.win 3).flush t = true) :
    (dats m 0 c).flushed 3 t
      = ((cfg0.win 3).blk t).view.read (Elt Ideal) (Spec.out (V m c main_v64) (V m c main_v63) (V m c main_v67)) := by
  have h15 : t.val % 16 = 15 := (flush0_3 t).mp hf
  show (cfg0.win 3).cut (grid0.coords t) ((dats m 0 c).after 3 t) = _
  rw [after0_3]
  funext y
  exact flushed_at m c t h15 y

/-- The output window's array after the run is the result array of the three operand arrays. -/
theorem final3 (c : Dev nD) :
    (dats m 0 c).arrAt 3 cfg0.N = Spec.out (V m c main_v64) (V m c main_v63) (V m c main_v67) :=
  (dats m 0 c).arrAt_eq_of_cover 3 _ (fun t hf => flushed_eq m c t hf) (cover3 c)

end Cert.KernelIdeal.Val

end
-- ==== Proof.KIValRun.lean ====
/-
  The gather program's run, read: at the ideal values, every weakly fair execution of the program ends with its two
  results at named values and its three arguments unchanged.

  The program is 90 host operations, the kernel region, and one reshape. The run of the region says what every buffer
  holds at the end: each of the kernel's four arrays what the region's proof data compute for it, every other buffer
  what it held at the region's entry pushed through the reshape. This module reads that off for the five buffers the
  claim speaks of:
    * the count of marked points (first result) is written before the region and touched by nothing after;
    * the second result is the reshape of the kernel's output array, which holds the one-hot sums over the index
      array, the table and the query centres the host operations built from the arguments;
    * the three arguments are written by nobody.
  Nothing is computed here; each clause is a chain of equations proved elsewhere.
-/
import proofs.«138576_j31576599560762_1_alg».proof.Proof.KIFrame
import proofs.«138576_j31576599560762_1_alg».proof.Proof.KIHost
import proofs.«138576_j31576599560762_1_alg».proof.Proof.KIFinal
import proofs.«138576_j31576599560762_1_alg».proof.Proof.Chain
import proofs.«138576_j31576599560762_1_alg».proof.Proof.GatherSpec

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr

variable (m : (ℓ : Loc nD τ sig) → Buf (Elt Ideal) ℓ) (ρ : Dev nD → PrngReg)

/-- What the kernel's output array holds after the last grid point, in terms of the arguments: the one-hot sums over
    the neighbour indices laid flat and the table of coordinates over feature channels, less the query centres on the
    three coordinate rows. The region's final contents are that function of the three arrays the region finds, and
    each of those is its stage-by-stage definition over the launch contents of the arguments. -/
theorem out_eq (c : Dev nD) :
    (dats m 0 c).arrAt 3 cfg0.N
      = Spec.out (Chain.nbrFlat (F := Ideal) (m ((c : Thread nD τ).loc main_arg0)) (m ((c : Thread nD τ).loc main_arg1)))
          (Chain.table (F := Ideal) (m ((c : Thread nD τ).loc main_arg0)) (m ((c : Thread nD τ).loc main_arg2)))
          (Chain.centres (F := Ideal) (m ((c : Thread nD τ).loc main_arg1))) := by
  rw [final3 m c, V_nbrFlat m c, V_table m c, V_centres m c]

/-- The run, read: on every core, the first result is the capped count of marked points, the second the kernel's
    output recast to four axes (query and slot apart), and the three arguments are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
        = Chain.count (F := Ideal) (m ((c.tc : Thread nD τ).loc main_arg0)) (m ((c.tc : Thread nD τ).loc main_arg1))
      ∧ r.2.mem ((c.tc : Thread nD τ).loc main_v69)
        = (fun i => shapeCast S2x67x2048x32
            (Spec.out (Chain.nbrFlat (F := Ideal) (m ((c.tc : Thread nD τ).loc main_arg0)) (m ((c.tc : Thread nD τ).loc main_arg1)))
              (Chain.table (F := Ideal) (m ((c.tc : Thread nD τ).loc main_arg0)) (m ((c.tc : Thread nD τ).loc main_arg2)))
              (Chain.centres (F := Ideal) (m ((c.tc : Thread nD τ).loc main_arg1))))
            shapeCasts_S2x67x65536_S2x67x2048x32 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans (W_count m (dats m) c),
     ((h c).2 main_v69 (Pipeline.mem_restRefs_of main_v69 (by decide) (by decide))).trans
       ((W_out m (dats m) c).trans
         (congrArg (fun X : FVec Ideal S2x67x65536 .f32 =>
           (fun i => shapeCast S2x67x2048x32 X shapeCasts_S2x67x65536_S2x67x2048x32 i)) (out_eq m c))),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Val

end
-- ==== Proof.RefRun.lean ====
/-
  The run of the reference's @main, read as one straight line of host operations.

  @main is a sequence of tensor operations, five of them calls of module-local functions (the
  running count `cumsum`, which itself calls `cumsum_0`; two selects `_where`, `_where_1`; two
  `take_along_axis`). A call executes the callee's body on the operands, each value of the body in
  a buffer of the call's own record, so @main is the line `ops` below: its own operations in order
  with each callee's operations in the place of the call, over that call's buffers. The line is cut
  into consecutive stretches `opsA … opsM` (one per stretch between calls and one per callee body;
  the stretch after the second select is cut once more after the scatter), and
  `ops` is the stretches end to end (`List.flatten [opsA, …, opsM]`).

  `main_eq`: @main is `seq ops` (both sides are the same chain of operation steps once the binds
  are re-associated, which `Prog.bind` does by computation). `run_all`: from any memory with zero
  counters every weakly fair execution terminates with each buffer at the fold `after ops` of the
  operations' results over the launch contents. `kept_arg0/1/2`: no operation writes an argument.
-/
import proofs.«138576_j31576599560762_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/
/-- @main's first fifteen: the squared distance of every centre to every point (the difference of the two
    broadcasts, squared, summed over the coordinate axis) and the shell mask `0.0025 ≤ d² < 0.04`. -/
abbrev opsA : List (HloOp τ sig (Elt F)) :=
  [ StableHlo.unary main_arg1 main_v0 (broadcastInDim S2x2048x1x3 ![0, 1, 3] bcast_S2x2048x3_S2x2048x1x3_0_1_3 : (⟨S2x2048x3, .f32⟩ : BufTy).Contents (Elt F) → (⟨S2x2048x1x3, .f32⟩ : BufTy).Contents (Elt F)),
    StableHlo.unary main_arg0 main_v1 (broadcastInDim S2x1x16384x3 ![0, 2, 3] bcast_S2x16384x3_S2x1x16384x3_0_2_3 : (⟨S2x16384x3, .f32⟩ : BufTy).Contents (Elt F) → (⟨S2x1x16384x3, .f32⟩ : BufTy).Contents (Elt F)),
    StableHlo.unary main_v0 main_v2 (broadcastInDim S2x2048x16384x3 ![0, 1, 2, 3] bcast_S2x2048x1x3_S2x2048x16384x3_0_1_2_3 : (⟨S2x2048x1x3, .f32⟩ : BufTy).Contents (Elt F) → (⟨S2x2048x16384x3, .f32⟩ : BufTy).Contents (Elt F)),
    StableHlo.unary main_v1 main_v3 (broadcastInDim S2x2048x16384x3 ![0, 1, 2, 3] bcast_S2x1x16384x3_S2x2048x16384x3_0_1_2_3 : (⟨S2x1x16384x3, .f32⟩ : BufTy).Contents (Elt F) → (⟨S2x2048x16384x3, .f32⟩ : BufTy).Contents (Elt F)),
    StableHlo.binary main_v2 main_v3 main_v4 (subf : (⟨S2x2048x16384x3, .f32⟩ : BufTy).Contents (Elt F) → (⟨S2x2048x16384x3, .f32⟩ : BufTy).Contents (Elt F) → (⟨S2x2048x16384x3, .f32⟩ : BufTy).Contents (Elt F)),
    StableHlo.binary main_v4 main_v4 main_v5 (mulf : (⟨S2x2048x16384x3, .f32⟩ : BufTy).Contents (Elt F) → (⟨S2x2048x16384x3, .f32⟩ : BufTy).Contents (Elt F) → (⟨S2x2048x16384x3, .f32⟩ : BufTy).Contents (Elt F)),
    StableHlo.nullary main_cst (constant S_ .f32 0x00000000#32),
    StableHlo.binary main_v5 main_cst main_v6 ((fun x v => Host.reduceAdd x v reducesTo_S2x2048x16384x3_S2x2048x16384_d3 h_S_) : (⟨S2x2048x16384x3, .f32⟩ : BufTy).Contents (Elt F) → (⟨S_, .f32⟩ : BufTy).Contents (Elt F) → (⟨S2x2048x16384, .f32⟩ : BufTy).Contents (Elt F)),
    StableHlo.nullary main_cst_0 (constant S_ .f32 0x3B23D70A#32),
    StableHlo.unary main_cst_0 main_v7 (broadcastInDim S2x2048x16384 ![] bcast_S_S2x2048x16384 : (⟨S_, .f32⟩ : BufTy).Contents (Elt F) → (⟨S2x2048x16384, .f32⟩ : BufTy).Contents (Elt F)),
    StableHlo.binary main_v6 main_v7 main_v8 (cmpf .oge : (⟨S2x2048x16384, .f32⟩ : BufTy).Contents (Elt F) → (⟨S2x2048x16384, .f32⟩ : BufTy).Contents (Elt F) → (⟨S2x2048x16384, .i1⟩ : BufTy).Contents (Elt F)),
    StableHlo.nullary main_cst_1 (constant S_ .f32 0x3D23D70A#32),
    StableHlo.unary main_cst_1 main_v9 (broadcastInDim S2x2048x16384 ![] bcast_S_S2x2048x16384 : (⟨S_, .f32⟩ : BufTy).Contents (Elt F) → (⟨S2x2048x16384, .f32⟩ : BufTy).Contents (Elt F)),
    StableHlo.binary main_v6 main_v9 main_v10 (cmpf .olt : (⟨S2x2048x16384, .f32⟩ : BufTy).Contents (Elt F) → (⟨S2x2048x16384, .f32⟩ : BufTy).Contents (Elt F) → (⟨S2x2048x16384, .i1⟩ : BufTy).Contents (Elt F)),
    StableHlo.binary main_v8 main_v10 main_v11 (andi : (⟨S2x2048x16384, .i1⟩ : BufTy).Contents (Elt F) → (⟨S2x2048x16384, .i1⟩ : BufTy).Contents (Elt F) → (⟨S2x2048x16384, .i1⟩ : BufTy).Contents (Elt F)) ]

/-- The call of `cumsum` on the mask, four operations over its record: the mask as 0/1 words, then `cumsum_0`'s
    three (the zero, its rank-zero broadcast, the windowed sum over the trailing 16384 positions padded in front:
    the inclusive running count along the point axis). -/
abbrev opsB : List (HloOp τ sig (Elt F)) :=
  [ StableHlo.TRef.unary (.of main_v11 : StableHlo.TRef sig ⟨S2x2048x16384, .i1⟩) (.of main_call0_v0 : StableHlo.TRef sig ⟨S2x2048x16384, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v0 : StableHlo.TRef sig ⟨S2x2048x16384, .i32⟩) (.of main_call0_call0_v0 : StableHlo.TRef sig ⟨S_, .i32⟩) (.of main_v12 : StableHlo.TRef sig ⟨S2x2048x16384, .i32⟩) (fun x v => Host.reduceWindow IntOp.addi ![1, 1, 16384] ![1, 1, 1] ![0, 0, 16383] ![0, 0, 0] x v reduceWindows_S2x2048x16384_S2x2048x16384_w1s1p0_0_w1s1p0_0_w16384s1p16383_0 h_S_) ]

/-- @main's next fourteen: the rank (running count less one), the count of the shell per centre capped at 32
    (the first result), and the mask of the shell's first 32. -/
abbrev opsC : List (HloOp τ sig (Elt F)) :=
  [ StableHlo.nullary main_c (constantI S_ 32 1#32),
    StableHlo.unary main_c main_v13 (broadcastInDim S2x2048x16384 ![] bcast_S_S2x2048x16384 : (⟨S_, .i32⟩ : BufTy).Contents (Elt F) → (⟨S2x2048x16384, .i32⟩ : BufTy).Contents (Elt F)),
    StableHlo.binary main_v12 main_v13 main_v14 (subi : (⟨S2x2048x16384, .i32⟩ : BufTy).Contents (Elt F) → (⟨S2x2048x16384, .i32⟩ : BufTy).Contents (Elt F) → (⟨S2x2048x16384, .i32⟩ : BufTy).Contents (Elt F)),
    StableHlo.unary main_v11 main_v15 ((extui 32 · natLt_1_32) : (⟨S2x2048x16384, .i1⟩ : BufTy).Contents (Elt F) → (⟨S2x2048x16384, .i32⟩ : BufTy).Contents (Elt F)),
    StableHlo.nullary main_c_2 (constantI S_ 32 0#32),
    StableHlo.binary main_v15 main_c_2 main_v16 ((fun x v => Host.reduce IntOp.addi x v reducesTo_S2x2048x16384_S2x2048_d2 h_S_) : (⟨S2x2048x16384, .i32⟩ : BufTy).Contents (Elt F) → (⟨S_, .i32⟩ : BufTy).Contents (Elt F) → (⟨S2x2048, .i32⟩ : BufTy).Contents (Elt F)),
    StableHlo.nullary main_c_3 (constantI S_ 32 32#32),
    StableHlo.unary main_c_3 main_v17 (broadcastInDim S2x2048 ![] bcast_S_S2x2048 : (⟨S_, .i32⟩ : BufTy).Contents (Elt F) → (⟨S2x2048, .i32⟩ : BufTy).Contents (Elt F)),
    StableHlo.binary main_v16 main_v17 main_v18 (minsi : (⟨S2x2048, .i32⟩ : BufTy).Contents (Elt F) → (⟨S2x2048, .i32⟩ : BufTy).Contents (Elt F) → (⟨S2x2048, .i32⟩ : BufTy).Contents (Elt F)),
    StableHlo.nullary main_c_4 (constantI S_ 32 32#32),
    StableHlo.unary main_c_4 main_v19 (broadcastInDim S2x2048x16384 ![] bcast_S_S2x2048x16384 : (⟨S_, .i32⟩ : BufTy).Contents (Elt F) → (⟨S2x2048x16384, .i32⟩ : BufTy).Contents (Elt F)),
    StableHlo.binary main_v14 main_v19 main_v20 (cmpi .slt : (⟨S2x2048x16384, .i32⟩ : BufTy).Contents (Elt F) → (⟨S2x2048x16384, .i32⟩ : BufTy).Contents (Elt F) → (⟨S2x2048x16384, .i1⟩ : BufTy).Contents (Elt F)),
    StableHlo.binary main_v11 main_v20 main_v21 (andi : (⟨S2x2048x16384, .i1⟩ : BufTy).Contents (Elt F) → (⟨S2x2048x16384, .i1⟩ : BufTy).Contents (Elt F) → (⟨S2x2048x16384, .i1⟩ : BufTy).Contents (Elt F)),
    StableHlo.nullary main_c_5 (constantI S_ 32 32#32) ]

/-- The call of `_where`, three operations over its record: the fill 32 at its own type, broadcast, and the select
    of the rank where the point is among the shell's first 32, the fill elsewhere (the scatter's slot). -/
abbrev opsD : List (HloOp τ sig (Elt F)) :=
  [ StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2x2048x16384, .i32⟩) (broadcastInDim S2x2048x16384 ![] bcast_S_S2x2048x16384),
    StableHlo.TRef.ternary (.of main_v21 : StableHlo.TRef sig ⟨S2x2048x16384, .i1⟩) (.of main_v14 : StableHlo.TRef sig ⟨S2x2048x16384, .i32⟩) (.of main_call1_v1 : StableHlo.TRef sig ⟨S2x2048x16384, .i32⟩) (.of main_v22 : StableHlo.TRef sig ⟨S2x2048x16384, .i32⟩) select ]

/-- @main's next twenty-nine: the three index grids (batch, centre, point; each with the wrap of a negative
    index, which no index here is), the zero table the scatter starts from, and the wrap of the slot. -/
abbrev opsE : List (HloOp τ sig (Elt F)) :=
  [ StableHlo.nullary main_v23 (iotaInDim S2 32 0),
    StableHlo.unary main_v23 main_v24 (broadcastInDim S2x1x1 ![0] bcast_S2_S2x1x1_0 : (⟨S2, .i32⟩ : BufTy).Contents (Elt F) → (⟨S2x1x1, .i32⟩ : BufTy).Contents (Elt F)),
    StableHlo.nullary main_v25 (iotaInDim S2048 32 0),
    StableHlo.unary main_v25 main_v26 (broadcastInDim S1x2048x1 ![1] bcast_S2048_S1x2048x1_1 : (⟨S2048, .i32⟩ : BufTy).Contents (Elt F) → (⟨S1x2048x1, .i32⟩ : BufTy).Contents (Elt F)),
    StableHlo.nullary main_v27 (iotaInDim S16384 32 0),
    StableHlo.unary main_v27 main_v28 (broadcastInDim S1x1x16384 ![2] bcast_S16384_S1x1x16384_2 : (⟨S16384, .i32⟩ : BufTy).Contents (Elt F) → (⟨S1x1x16384, .i32⟩ : BufTy).Contents (Elt F)),
    StableHlo.unary main_v28 main_v29 (broadcastInDim S2x2048x16384 ![0, 1, 2] bcast_S1x1x16384_S2x2048x16384_0_1_2 : (⟨S1x1x16384, .i32⟩ : BufTy).Contents (Elt F) → (⟨S2x2048x16384, .i32⟩ : BufTy).Contents (Elt F)),
    StableHlo.nullary main_c_6 (constantI S_ 32 0#32),
    StableHlo.unary main_c_6 main_v30 (broadcastInDim S2x2048x33 ![] bcast_S_S2x2048x33 : (⟨S_, .i32⟩ : BufTy).Contents (Elt F) → (⟨S2x2048x33, .i32⟩ : BufTy).Contents (Elt F)),
    StableHlo.nullary main_c_7 (constantI S_ 32 0#32),
    StableHlo.unary main_c_7 main_v31 (broadcastInDim S2x1x1 ![] bcast_S_S2x1x1 : (⟨S_, .i32⟩ : BufTy).Contents (Elt F) → (⟨S2x1x1, .i32⟩ : BufTy).Contents (Elt F)),
    StableHlo.binary main_v24 main_v31 main_v32 (cmpi .slt : (⟨S2x1x1, .i32⟩ : BufTy).Contents (Elt F) → (⟨S2x1x1, .i32⟩ : BufTy).Contents (Elt F) → (⟨S2x1x1, .i1⟩ : BufTy).Contents (Elt F)),
    StableHlo.nullary main_c_8 (constantI S_ 32 2#32),
    StableHlo.unary main_c_8 main_v33 (broadcastInDim S2x1x1 ![] bcast_S_S2x1x1 : (⟨S_, .i32⟩ : BufTy).Contents (Elt F) → (⟨S2x1x1, .i32⟩ : BufTy).Contents (Elt F)),
    StableHlo.binary main_v24 main_v33 main_v34 (addi : (⟨S2x1x1, .i32⟩ : BufTy).Contents (Elt F) → (⟨S2x1x1, .i32⟩ : BufTy).Contents (Elt F) → (⟨S2x1x1, .i32⟩ : BufTy).Contents (Elt F)),
    StableHlo.ternary main_v32 main_v34 main_v24 main_v35 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)),
    StableHlo.nullary main_c_9 (constantI S_ 32 0#32),
    StableHlo.unary main_c_9 main_v36 (broadcastInDim S1x2048x1 ![] bcast_S_S1x2048x1 : (⟨S_, .i32⟩ : BufTy).Contents (Elt F) → (⟨S1x2048x1, .i32⟩ : BufTy).Contents (Elt F)),
    StableHlo.binary main_v26 main_v36 main_v37 (cmpi .slt : (⟨S1x2048x1, .i32⟩ : BufTy).Contents (Elt F) → (⟨S1x2048x1, .i32⟩ : BufTy).Contents (Elt F) → (⟨S1x2048x1, .i1⟩ : BufTy).Contents (Elt F)),
    StableHlo.nullary main_c_10 (constantI S_ 32 2048#32),
    StableHlo.unary main_c_10 main_v38 (broadcastInDim S1x2048x1 ![] bcast_S_S1x2048x1 : (⟨S_, .i32⟩ : BufTy).Contents (Elt F) → (⟨S1x2048x1, .i32⟩ : BufTy).Contents (Elt F)),
    StableHlo.binary main_v26 main_v38 main_v39 (addi : (⟨S1x2048x1, .i32⟩ : BufTy).Contents (Elt F) → (⟨S1x2048x1, .i32⟩ : BufTy).Contents (Elt F) → (⟨S1x2048x1, .i32⟩ : BufTy).Contents (Elt F)),
    StableHlo.ternary main_v37 main_v39 main_v26 main_v40 (select : (⟨S1x2048x1, .i1⟩ : BufTy).Contents (Elt F) → (⟨S1x2048x1, .i32⟩ : BufTy).Contents (Elt F) → (⟨S1x2048x1, .i32⟩ : BufTy).Contents (Elt F) → (⟨S1x2048x1, .i32⟩ : BufTy).Contents (Elt F)),
    StableHlo.nullary main_c_11 (constantI S_ 32 0#32),
    StableHlo.unary main_c_11 main_v41 (broadcastInDim S2x2048x16384 ![] bcast_S_S2x2048x16384 : (⟨S_, .i32⟩ : BufTy).Contents (Elt F) → (⟨S2x2048x16384, .i32⟩ : BufTy).Contents (Elt F)),
    StableHlo.binary main_v22 main_v41 main_v42 (cmpi .slt : (⟨S2x2048x16384, .i32⟩ : BufTy).Contents (Elt F) → (⟨S2x2048x16384, .i32⟩ : BufTy).Contents (Elt F) → (⟨S2x2048x16384, .i1⟩ : BufTy).Contents (Elt F)),
    StableHlo.nullary main_c_12 (constantI S_ 32 33#32),
    StableHlo.unary main_c_12 main_v43 (broadcastInDim S2x2048x16384 ![] bcast_S_S2x2048x16384 : (⟨S_, .i32⟩ : BufTy).Contents (Elt F) → (⟨S2x2048x16384, .i32⟩ : BufTy).Contents (Elt F)),
    StableHlo.binary main_v22 main_v43 main_v44 (addi : (⟨S2x2048x16384, .i32⟩ : BufTy).Contents (Elt F) → (⟨S2x2048x16384, .i32⟩ : BufTy).Contents (Elt F) → (⟨S2x2048x16384, .i32⟩ : BufTy).Contents (Elt F)) ]

/-- @main's next eight: the scatter's index vectors (batch, centre, slot) and the scatter of each point's index
    into its centre's 33 slots (slot 32 takes every point outside the first 32 of the shell). -/
abbrev opsF : List (HloOp τ sig (Elt F)) :=
  [ StableHlo.ternary main_v42 main_v44 main_v22 main_v45 (select : (⟨S2x2048x16384, .i1⟩ : BufTy).Contents (Elt F) → (⟨S2x2048x16384, .i32⟩ : BufTy).Contents (Elt F) → (⟨S2x2048x16384, .i32⟩ : BufTy).Contents (Elt F) → (⟨S2x2048x16384, .i32⟩ : BufTy).Contents (Elt F)),
    StableHlo.unary main_v35 main_v46 (broadcastInDim S2x2048x16384 ![0, 1, 2] bcast_S2x1x1_S2x2048x16384_0_1_2 : (⟨S2x1x1, .i32⟩ : BufTy).Contents (Elt F) → (⟨S2x2048x16384, .i32⟩ : BufTy).Contents (Elt F)),
    StableHlo.unary main_v40 main_v47 (broadcastInDim S2x2048x16384 ![0, 1, 2] bcast_S1x2048x1_S2x2048x16384_0_1_2 : (⟨S1x2048x1, .i32⟩ : BufTy).Contents (Elt F) → (⟨S2x2048x16384, .i32⟩ : BufTy).Contents (Elt F)),
    StableHlo.unary main_v46 main_v48 (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)),
    StableHlo.unary main_v47 main_v49 (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)),
    StableHlo.unary main_v45 main_v50 (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)),
    StableHlo.nary ![main_v48, main_v49, main_v50] main_v51 (fun u => concatenate S2x2048x16384x3 3 [⟨S2x2048x16384x1, u 0⟩, ⟨S2x2048x16384x1, u 1⟩, ⟨S2x2048x16384x1, u 2⟩] concatenates_S2x2048x16384x1_S2x2048x16384x1_S2x2048x16384x1_S2x2048x16384x3_d3),
    StableHlo.ternary main_v30 main_v51 main_v29 main_v52 ((fun x i u => Host.scatter scatter_S2x2048x33_S2x2048x16384x3_S2x2048x16384_n_012_012_3 (fun _ b => b) x i u) : (⟨S2x2048x33, .i32⟩ : BufTy).Contents (Elt F) → (⟨S2x2048x16384x3, .i32⟩ : BufTy).Contents (Elt F) → (⟨S2x2048x16384, .i32⟩ : BufTy).Contents (Elt F) → (⟨S2x2048x33, .i32⟩ : BufTy).Contents (Elt F)) ]

/-- @main's next eight: the table's first 32 slots, the mask of the slots below the count, and slot 0. -/
abbrev opsG : List (HloOp τ sig (Elt F)) :=
  [ StableHlo.unary main_v52 main_v53 ((extractStridedSlice S2x2048x32 ![0, 0, 0] · slices_S2x2048x33_S2x2048x32_0_0_0) : (⟨S2x2048x33, .i32⟩ : BufTy).Contents (Elt F) → (⟨S2x2048x32, .i32⟩ : BufTy).Contents (Elt F)),
    StableHlo.nullary main_v54 (iotaInDim S32 32 0),
    StableHlo.unary main_v54 main_v55 (broadcastInDim S1x1x32 ![2] bcast_S32_S1x1x32_2 : (⟨S32, .i32⟩ : BufTy).Contents (Elt F) → (⟨S1x1x32, .i32⟩ : BufTy).Contents (Elt F)),
    StableHlo.unary main_v18 main_v56 (broadcastInDim S2x2048x1 ![0, 1] bcast_S2x2048_S2x2048x1_0_1 : (⟨S2x2048, .i32⟩ : BufTy).Contents (Elt F) → (⟨S2x2048x1, .i32⟩ : BufTy).Contents (Elt F)),
    StableHlo.unary main_v55 main_v57 (broadcastInDim S2x2048x32 ![0, 1, 2] bcast_S1x1x32_S2x2048x32_0_1_2 : (⟨S1x1x32, .i32⟩ : BufTy).Contents (Elt F) → (⟨S2x2048x32, .i32⟩ : BufTy).Contents (Elt F)),
    StableHlo.unary main_v56 main_v58 (broadcastInDim S2x2048x32 ![0, 1, 2] bcast_S2x2048x1_S2x2048x32_0_1_2 : (⟨S2x2048x1, .i32⟩ : BufTy).Contents (Elt F) → (⟨S2x2048x32, .i32⟩ : BufTy).Contents (Elt F)),
    StableHlo.binary main_v57 main_v58 main_v59 (cmpi .slt : (⟨S2x2048x32, .i32⟩ : BufTy).Contents (Elt F) → (⟨S2x2048x32, .i32⟩ : BufTy).Contents (Elt F) → (⟨S2x2048x32, .i1⟩ : BufTy).Contents (Elt F)),
    StableHlo.unary main_v53 main_v60 ((extractStridedSlice S2x2048x1 ![0, 0, 0] · slices_S2x2048x32_S2x2048x1_0_0_0) : (⟨S2x2048x32, .i32⟩ : BufTy).Contents (Elt F) → (⟨S2x2048x1, .i32⟩ : BufTy).Contents (Elt F)) ]

/-- The call of `_where_1`, two operations over its record: slot 0 broadcast along the slots, and the select of
    the table below the count, slot 0's entry from the count on (the filled index array). -/
abbrev opsH : List (HloOp τ sig (Elt F)) :=
  [ StableHlo.TRef.unary (.of main_v60 : StableHlo.TRef sig ⟨S2x2048x1, .i32⟩) (.of main_call2_v0 : StableHlo.TRef sig ⟨S2x2048x32, .i32⟩) (broadcastInDim S2x2048x32 ![0, 1, 2] bcast_S2x2048x1_S2x2048x32_0_1_2),
    StableHlo.TRef.ternary (.of main_v59 : StableHlo.TRef sig ⟨S2x2048x32, .i1⟩) (.of main_v53 : StableHlo.TRef sig ⟨S2x2048x32, .i32⟩) (.of main_call2_v0 : StableHlo.TRef sig ⟨S2x2048x32, .i32⟩) (.of main_v61 : StableHlo.TRef sig ⟨S2x2048x32, .i32⟩) select ]

/-- @main's next two: the points with the coordinate axis in the middle, and the index array flat. -/
abbrev opsI : List (HloOp τ sig (Elt F)) :=
  [ StableHlo.unary main_arg0 main_v62 ((transpose S2x3x16384 [0, 2, 1] · transposes_S2x16384x3_S2x3x16384_0_2_1) : (⟨S2x16384x3, .f32⟩ : BufTy).Contents (Elt F) → (⟨S2x3x16384, .f32⟩ : BufTy).Contents (Elt F)),
    StableHlo.reshape main_v61 main_v63 rfl shapeCasts_S2x2048x32_S2x1x65536 ]

/-- The call of `take_along_axis` on the transposed points and the flat index array, twenty-three operations over
    its record: the wrap of a negative index by 16384, the index array as a column, the test `0 ≤ i ≤ 16383` reduced
    over the unit axis, the gather of the three coordinates at each index, and the select of the gathered value where
    the index is in range, NaN elsewhere. -/
abbrev opsJ : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S2x1x65536, .i32⟩) (broadcastInDim S2x1x65536 ![] bcast_S_S2x1x65536),
    StableHlo.TRef.binary (.of main_v63 : StableHlo.TRef sig ⟨S2x1x65536, .i32⟩) (.of main_call3_v0 : StableHlo.TRef sig ⟨S2x1x65536, .i32⟩) (.of main_call3_v1 : StableHlo.TRef sig ⟨S2x1x65536, .i1⟩) (cmpi .slt),
    StableHlo.TRef.nullary (.of main_call3_c_0 : StableHlo.TRef sig ⟨S_, .i32⟩) (constantI S_ 32 16384#32),
    StableHlo.TRef.unary (.of main_call3_c_0 : StableHlo.TRef sig ⟨S_, .i32⟩) (.of main_call3_v2 : StableHlo.TRef sig ⟨S2x1x65536, .i32⟩) (broadcastInDim S2x1x65536 ![] bcast_S_S2x1x65536),
    StableHlo.TRef.binary (.of main_v63 : StableHlo.TRef sig ⟨S2x1x65536, .i32⟩) (.of main_call3_v2 : StableHlo.TRef sig ⟨S2x1x65536, .i32⟩) (.of main_call3_v3 : StableHlo.TRef sig ⟨S2x1x65536, .i32⟩) addi,
    StableHlo.TRef.ternary (.of main_call3_v1 : StableHlo.TRef sig ⟨S2x1x65536, .i1⟩) (.of main_call3_v3 : StableHlo.TRef sig ⟨S2x1x65536, .i32⟩) (.of main_v63 : StableHlo.TRef sig ⟨S2x1x65536, .i32⟩) (.of main_call3_v4 : StableHlo.TRef sig ⟨S2x1x65536, .i32⟩) select,
    StableHlo.TRef.reshape (.of main_call3_v4 : StableHlo.TRef sig ⟨S2x1x65536, .i32⟩) (.of main_call3_v5 : StableHlo.TRef sig ⟨S2x65536x1, .i32⟩) rfl shapeCasts_S2x1x65536_S2x65536x1,
    StableHlo.TRef.nullary (.of main_call3_c_1 : StableHlo.TRef sig ⟨S1, .i32⟩) (constantI S1 32 16383#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S2x65536x1, .i32⟩) (broadcastInDim S2x65536x1 ![] bcast_S_S2x65536x1),
    StableHlo.TRef.binary (.of main_call3_v5 : StableHlo.TRef sig ⟨S2x65536x1, .i32⟩) (.of main_call3_v6 : StableHlo.TRef sig ⟨S2x65536x1, .i32⟩) (.of main_call3_v7 : StableHlo.TRef sig ⟨S2x65536x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S2x65536x1, .i32⟩) (broadcastInDim S2x65536x1 ![0, 1, 2] bcast_S1x1x1_S2x65536x1_0_1_2),
    StableHlo.TRef.binary (.of main_call3_v5 : StableHlo.TRef sig ⟨S2x65536x1, .i32⟩) (.of main_call3_v9 : StableHlo.TRef sig ⟨S2x65536x1, .i32⟩) (.of main_call3_v10 : StableHlo.TRef sig ⟨S2x65536x1, .i1⟩) (cmpi .sle),
    StableHlo.TRef.binary (.of main_call3_v7 : StableHlo.TRef sig ⟨S2x65536x1, .i1⟩) (.of main_call3_v10 : StableHlo.TRef sig ⟨S2x65536x1, .i1⟩) (.of main_call3_v11 : StableHlo.TRef sig ⟨S2x65536x1, .i1⟩) andi,
    StableHlo.TRef.nullary (.of main_call3_c_3 : StableHlo.TRef sig ⟨S_, .i1⟩) (constantI S_ 1 1#1),
    StableHlo.TRef.binary (.of main_call3_v11 : StableHlo.TRef sig ⟨S2x65536x1, .i1⟩) (.of main_call3_c_3 : StableHlo.TRef sig ⟨S_, .i1⟩) (.of main_call3_v12 : StableHlo.TRef sig ⟨S2x65536, .i1⟩) (fun x v => Host.reduce IntOp.andi x v reducesTo_S2x65536x1_S2x65536_d2 h_S_),
    StableHlo.TRef.binary (.of main_v62 : StableHlo.TRef sig ⟨S2x3x16384, .f32⟩) (.of main_call3_v5 : StableHlo.TRef sig ⟨S2x65536x1, .i32⟩) (.of main_call3_v13 : StableHlo.TRef sig ⟨S2x3x65536, .f32⟩) (fun x i => Host.gather gather_S2x3x16384_S2x65536x1_S2x3x65536_1_2_0_0_2_2_131 x i),
    StableHlo.TRef.unary (.of main_call3_v12 : StableHlo.TRef sig ⟨S2x65536, .i1⟩) (.of main_call3_v14 : StableHlo.TRef sig ⟨S2x3x65536, .i1⟩) (broadcastInDim S2x3x65536 ![0, 2] bcast_S2x65536_S2x3x65536_0_2),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S2x3x65536, .f32⟩) (broadcastInDim S2x3x65536 ![] bcast_S_S2x3x65536),
    StableHlo.TRef.ternary (.of main_call3_v14 : StableHlo.TRef sig ⟨S2x3x65536, .i1⟩) (.of main_call3_v13 : StableHlo.TRef sig ⟨S2x3x65536, .f32⟩) (.of main_call3_v15 : StableHlo.TRef sig ⟨S2x3x65536, .f32⟩) (.of main_v64 : StableHlo.TRef sig ⟨S2x3x65536, .f32⟩) select ]

/-- @main's next six: the gathered coordinates per centre and slot, less the centre's own (the centres transposed
    and broadcast along the slots), and the index array flat once more. -/
abbrev opsK : List (HloOp τ sig (Elt F)) :=
  [ StableHlo.reshape main_v64 main_v65 rfl shapeCasts_S2x3x65536_S2x3x2048x32,
    StableHlo.unary main_arg1 main_v66 ((transpose S2x3x2048 [0, 2, 1] · transposes_S2x2048x3_S2x3x2048_0_2_1) : (⟨S2x2048x3, .f32⟩ : BufTy).Contents (Elt F) → (⟨S2x3x2048, .f32⟩ : BufTy).Contents (Elt F)),
    StableHlo.unary main_v66 main_v67 (broadcastInDim S2x3x2048x1 ![0, 1, 2] bcast_S2x3x2048_S2x3x2048x1_0_1_2 : (⟨S2x3x2048, .f32⟩ : BufTy).Contents (Elt F) → (⟨S2x3x2048x1, .f32⟩ : BufTy).Contents (Elt F)),
    StableHlo.unary main_v67 main_v68 (broadcastInDim S2x3x2048x32 ![0, 1, 2, 3] bcast_S2x3x2048x1_S2x3x2048x32_0_1_2_3 : (⟨S2x3x2048x1, .f32⟩ : BufTy).Contents (Elt F) → (⟨S2x3x2048x32, .f32⟩ : BufTy).Contents (Elt F)),
    StableHlo.binary main_v65 main_v68 main_v69 (subf : (⟨S2x3x2048x32, .f32⟩ : BufTy).Contents (Elt F) → (⟨S2x3x2048x32, .f32⟩ : BufTy).Contents (Elt F) → (⟨S2x3x2048x32, .f32⟩ : BufTy).Contents (Elt F)),
    StableHlo.reshape main_v61 main_v70 rfl shapeCasts_S2x2048x32_S2x1x65536 ]

/-- The call of `take_along_axis_2` on the features and the flat index array, twenty-three operations over its
    record: as `opsJ`, over 64 feature rows in place of the three coordinates. -/
abbrev opsL : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S2x1x65536, .i32⟩) (broadcastInDim S2x1x65536 ![] bcast_S_S2x1x65536),
    StableHlo.TRef.binary (.of main_v70 : StableHlo.TRef sig ⟨S2x1x65536, .i32⟩) (.of main_call4_v0 : StableHlo.TRef sig ⟨S2x1x65536, .i32⟩) (.of main_call4_v1 : StableHlo.TRef sig ⟨S2x1x65536, .i1⟩) (cmpi .slt),
    StableHlo.TRef.nullary (.of main_call4_c_0 : StableHlo.TRef sig ⟨S_, .i32⟩) (constantI S_ 32 16384#32),
    StableHlo.TRef.unary (.of main_call4_c_0 : StableHlo.TRef sig ⟨S_, .i32⟩) (.of main_call4_v2 : StableHlo.TRef sig ⟨S2x1x65536, .i32⟩) (broadcastInDim S2x1x65536 ![] bcast_S_S2x1x65536),
    StableHlo.TRef.binary (.of main_v70 : StableHlo.TRef sig ⟨S2x1x65536, .i32⟩) (.of main_call4_v2 : StableHlo.TRef sig ⟨S2x1x65536, .i32⟩) (.of main_call4_v3 : StableHlo.TRef sig ⟨S2x1x65536, .i32⟩) addi,
    StableHlo.TRef.ternary (.of main_call4_v1 : StableHlo.TRef sig ⟨S2x1x65536, .i1⟩) (.of main_call4_v3 : StableHlo.TRef sig ⟨S2x1x65536, .i32⟩) (.of main_v70 : StableHlo.TRef sig ⟨S2x1x65536, .i32⟩) (.of main_call4_v4 : StableHlo.TRef sig ⟨S2x1x65536, .i32⟩) select,
    StableHlo.TRef.reshape (.of main_call4_v4 : StableHlo.TRef sig ⟨S2x1x65536, .i32⟩) (.of main_call4_v5 : StableHlo.TRef sig ⟨S2x65536x1, .i32⟩) rfl shapeCasts_S2x1x65536_S2x65536x1,
    StableHlo.TRef.nullary (.of main_call4_c_1 : StableHlo.TRef sig ⟨S1, .i32⟩) (constantI S1 32 16383#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S2x65536x1, .i32⟩) (broadcastInDim S2x65536x1 ![] bcast_S_S2x65536x1),
    StableHlo.TRef.binary (.of main_call4_v5 : StableHlo.TRef sig ⟨S2x65536x1, .i32⟩) (.of main_call4_v6 : StableHlo.TRef sig ⟨S2x65536x1, .i32⟩) (.of main_call4_v7 : StableHlo.TRef sig ⟨S2x65536x1, .i1⟩) (cmpi .sge),
    StableHlo.TRef.unary (.of main_call4_c_1 : StableHlo.TRef sig ⟨S1, .i32⟩) (.of main_call4_v8 : StableHlo.TRef sig ⟨S1x1x1, .i32⟩) (broadcastInDim S1x1x1 ![2] bcast_S1_S1x1x1_2),
    StableHlo.TRef.unary (.of main_call4_v8 : StableHlo.TRef sig ⟨S1x1x1, .i32⟩) (.of main_call4_v9 : StableHlo.TRef sig ⟨S2x65536x1, .i32⟩) (broadcastInDim S2x65536x1 ![0, 1, 2] bcast_S1x1x1_S2x65536x1_0_1_2),
    StableHlo.TRef.binary (.of main_call4_v5 : StableHlo.TRef sig ⟨S2x65536x1, .i32⟩) (.of main_call4_v9 : StableHlo.TRef sig ⟨S2x65536x1, .i32⟩) (.of main_call4_v10 : StableHlo.TRef sig ⟨S2x65536x1, .i1⟩) (cmpi .sle),
    StableHlo.TRef.binary (.of main_call4_v7 : StableHlo.TRef sig ⟨S2x65536x1, .i1⟩) (.of main_call4_v10 : StableHlo.TRef sig ⟨S2x65536x1, .i1⟩) (.of main_call4_v11 : StableHlo.TRef sig ⟨S2x65536x1, .i1⟩) andi,
    StableHlo.TRef.nullary (.of main_call4_c_3 : StableHlo.TRef sig ⟨S_, .i1⟩) (constantI S_ 1 1#1),
    StableHlo.TRef.binary (.of main_call4_v11 : StableHlo.TRef sig ⟨S2x65536x1, .i1⟩) (.of main_call4_c_3 : StableHlo.TRef sig ⟨S_, .i1⟩) (.of main_call4_v12 : StableHlo.TRef sig ⟨S2x65536, .i1⟩) (fun x v => Host.reduce IntOp.andi x v reducesTo_S2x65536x1_S2x65536_d2 h_S_),
    StableHlo.TRef.binary (.of main_arg2 : StableHlo.TRef sig ⟨S2x64x16384, .f32⟩) (.of main_call4_v5 : StableHlo.TRef sig ⟨S2x65536x1, .i32⟩) (.of main_call4_v13 : StableHlo.TRef sig ⟨S2x64x65536, .f32⟩) (fun x i => Host.gather gather_S2x64x16384_S2x65536x1_S2x64x65536_1_2_0_0_2_2_1641 x i),
    StableHlo.TRef.unary (.of main_call4_v12 : StableHlo.TRef sig ⟨S2x65536, .i1⟩) (.of main_call4_v14 : StableHlo.TRef sig ⟨S2x64x65536, .i1⟩) (broadcastInDim S2x64x65536 ![0, 2] bcast_S2x65536_S2x64x65536_0_2),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S2x64x65536, .f32⟩) (broadcastInDim S2x64x65536 ![] bcast_S_S2x64x65536),
    StableHlo.TRef.ternary (.of main_call4_v14 : StableHlo.TRef sig ⟨S2x64x65536, .i1⟩) (.of main_call4_v13 : StableHlo.TRef sig ⟨S2x64x65536, .f32⟩) (.of main_call4_v15 : StableHlo.TRef sig ⟨S2x64x65536, .f32⟩) (.of main_v71 : StableHlo.TRef sig ⟨S2x64x65536, .f32⟩) select ]

/-- @main's last two: the gathered features per centre and slot, and the second result: the three relative
    coordinates over the 64 feature rows. -/
abbrev opsM : List (HloOp τ sig (Elt F)) :=
  [ StableHlo.reshape main_v71 main_v72 rfl shapeCasts_S2x64x65536_S2x64x2048x32,
    StableHlo.binary main_v69 main_v72 main_v73 ((fun a b => concatenate S2x67x2048x32 1 [⟨S2x3x2048x32, a⟩, ⟨S2x64x2048x32, b⟩] concatenates_S2x3x2048x32_S2x64x2048x32_S2x67x2048x32_d1) : (⟨S2x3x2048x32, .f32⟩ : BufTy).Contents (Elt F) → (⟨S2x64x2048x32, .f32⟩ : BufTy).Contents (Elt F) → (⟨S2x67x2048x32, .f32⟩ : BufTy).Contents (Elt F)) ]

/-- @main's 139 operations, in order: the thirteen stretches end to end. -/
abbrev ops : List (HloOp τ sig (Elt F)) :=
  List.flatten [opsA, opsB, opsC, opsD, opsE, opsF, opsG, opsH, opsI, opsJ, opsK, opsL, opsM]

/-! ## @main is the line -/

set_option maxRecDepth 65536 in
/-- @main is that straight line. A call is the callee's body applied, and sequencing grafts the rest of @main onto
    the body's end (`Prog.bind`, by recursion on the body), so both sides compute to the same chain of operation
    steps: the functions' definitions unfolded at their calls, the records at their fields, the stretches' lists
    appended. -/
theorem main_eq (c : Dev nD) : main (F := F) c = seq ops := rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only: stretch by stretch, one fact per operation in order. -/

theorem opsA_sub : (opsA : List (HloOp τ sig (Elt F))).Forall fun op => op.bufs ⊆ tcRefs τ sig :=
  ⟨unary_bufs_sub .., unary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..,
    unary_bufs_sub .., binary_bufs_sub .., binary_bufs_sub ..⟩
theorem opsB_sub : (opsB : List (HloOp τ sig (Elt F))).Forall fun op => op.bufs ⊆ tcRefs τ sig :=
  ⟨unary_bufs_sub .., nullary_bufs_sub .., unary_bufs_sub .., binary_bufs_sub ..⟩
theorem opsC_sub : (opsC : List (HloOp τ sig (Elt F))).Forall fun op => op.bufs ⊆ tcRefs τ sig :=
  ⟨nullary_bufs_sub .., unary_bufs_sub .., binary_bufs_sub .., unary_bufs_sub .., nullary_bufs_sub .., binary_bufs_sub ..,
    nullary_bufs_sub .., unary_bufs_sub .., binary_bufs_sub .., nullary_bufs_sub .., unary_bufs_sub .., binary_bufs_sub ..,
    binary_bufs_sub .., nullary_bufs_sub ..⟩
theorem opsD_sub : (opsD : List (HloOp τ sig (Elt F))).Forall fun op => op.bufs ⊆ tcRefs τ sig :=
  ⟨unary_bufs_sub .., unary_bufs_sub .., ternary_bufs_sub ..⟩
theorem opsE_sub : (opsE : List (HloOp τ sig (Elt F))).Forall fun op => op.bufs ⊆ tcRefs τ sig :=
  ⟨nullary_bufs_sub .., unary_bufs_sub .., nullary_bufs_sub .., unary_bufs_sub .., nullary_bufs_sub .., unary_bufs_sub ..,
    unary_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub ..⟩
theorem opsF_sub : (opsF : List (HloOp τ sig (Elt F))).Forall fun op => op.bufs ⊆ tcRefs τ sig :=
  ⟨ternary_bufs_sub .., unary_bufs_sub .., unary_bufs_sub .., unary_bufs_sub .., unary_bufs_sub .., unary_bufs_sub ..,
    nary_bufs_sub .., ternary_bufs_sub ..⟩
theorem opsG_sub : (opsG : List (HloOp τ sig (Elt F))).Forall fun op => op.bufs ⊆ tcRefs τ sig :=
  ⟨unary_bufs_sub .., nullary_bufs_sub .., unary_bufs_sub .., unary_bufs_sub .., unary_bufs_sub .., unary_bufs_sub ..,
    binary_bufs_sub .., unary_bufs_sub ..⟩
theorem opsH_sub : (opsH : List (HloOp τ sig (Elt F))).Forall fun op => op.bufs ⊆ tcRefs τ sig :=
  ⟨unary_bufs_sub .., ternary_bufs_sub ..⟩
theorem opsI_sub : (opsI : List (HloOp τ sig (Elt F))).Forall fun op => op.bufs ⊆ tcRefs τ sig :=
  ⟨unary_bufs_sub .., reshape_bufs_sub ..⟩
theorem opsJ_sub : (opsJ : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsK_sub : (opsK : List (HloOp τ sig (Elt F))).Forall fun op => op.bufs ⊆ tcRefs τ sig :=
  ⟨reshape_bufs_sub .., unary_bufs_sub .., unary_bufs_sub .., unary_bufs_sub .., binary_bufs_sub .., reshape_bufs_sub ..⟩
theorem opsL_sub : (opsL : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsM_sub : (opsM : List (HloOp τ sig (Elt F))).Forall fun op => op.bufs ⊆ tcRefs τ sig :=
  ⟨reshape_bufs_sub .., binary_bufs_sub ..⟩

theorem ops_sub : (ops : List (HloOp τ sig (Elt F))).Forall fun op => op.bufs ⊆ tcRefs τ sig := by
  simp only [ops, List.flatten_cons, List.flatten_nil, List.append_nil, List.forall_append]
  exact ⟨opsA_sub, opsB_sub, opsC_sub, opsD_sub, opsE_sub, opsF_sub, opsG_sub, opsH_sub, opsI_sub, opsJ_sub, opsK_sub, opsL_sub,
    opsM_sub⟩

/-! Every operation determines its results (none leaves a buffer at contents not chosen): each builder's `fresh` is
    empty by its definition. -/

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor
theorem opsE_fresh : (opsE : List (HloOp τ sig (Elt F))).Forall fun op => op.fresh = ∅ := by
  simp only [List.Forall]; repeat' constructor
theorem opsF_fresh : (opsF : List (HloOp τ sig (Elt F))).Forall fun op => op.fresh = ∅ := by
  simp only [List.Forall]; repeat' constructor
theorem opsG_fresh : (opsG : List (HloOp τ sig (Elt F))).Forall fun op => op.fresh = ∅ := by
  simp only [List.Forall]; repeat' constructor
theorem opsH_fresh : (opsH : List (HloOp τ sig (Elt F))).Forall fun op => op.fresh = ∅ := by
  simp only [List.Forall]; repeat' constructor
theorem opsI_fresh : (opsI : List (HloOp τ sig (Elt F))).Forall fun op => op.fresh = ∅ := by
  simp only [List.Forall]; repeat' constructor
theorem opsJ_fresh : (opsJ : List (HloOp τ sig (Elt F))).Forall fun op => op.fresh = ∅ := by
  simp only [List.Forall]; repeat' constructor
theorem opsK_fresh : (opsK : List (HloOp τ sig (Elt F))).Forall fun op => op.fresh = ∅ := by
  simp only [List.Forall]; repeat' constructor
theorem opsL_fresh : (opsL : List (HloOp τ sig (Elt F))).Forall fun op => op.fresh = ∅ := by
  simp only [List.Forall]; repeat' constructor
theorem opsM_fresh : (opsM : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (by
    simp only [ops, List.flatten_cons, List.flatten_nil, List.append_nil, List.forall_append]
    exact ⟨opsA_fresh, opsB_fresh, opsC_fresh, opsD_fresh, opsE_fresh, opsF_fresh, opsG_fresh, opsH_fresh, opsI_fresh, opsJ_fresh,
      opsK_fresh, opsL_fresh, opsM_fresh⟩)

/-! ## The run -/

/-- On every device, for any float values, from any memory with zero counters: every weakly fair execution of @main
    terminates, and every final state has each buffer at the fold of the operations' results over its launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## What each stretch writes, and what it keeps

Every tensor value has a buffer of its own and one operation writes it, so a stretch writes exactly its operations'
result buffers (`wA … wM`) and the fold over it leaves every other buffer as it was (`keepA … keepM`); the fold over
the whole line is the folds over the stretches in turn (`after_ops`). -/

/-- The fold over two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over the whole line, stretch by stretch. -/
theorem after_ops (V : Valuation τ sig (Elt F)) :
    after ops V = after opsM (after opsL (after opsK (after opsJ (after opsI (after opsH (after opsG (after opsF (after opsE
      (after opsD (after opsC (after opsB (after opsA V)))))))))))) := by
  simp only [ops, List.flatten_cons, List.flatten_nil, List.append_nil, after_app]

/-- A result buffer of the list `W`, as a device buffer, is among the list's. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev wA : List (Ref sig .tc) :=
  [main_v0, main_v1, main_v2, main_v3, main_v4, main_v5, main_cst, main_v6, main_cst_0, main_v7, main_v8, main_cst_1, main_v9,
    main_v10, main_v11]
abbrev wB : List (Ref sig .tc) := [main_call0_v0, main_call0_call0_c, main_call0_call0_v0, main_v12]
abbrev wC : List (Ref sig .tc) :=
  [main_c, main_v13, main_v14, main_v15, main_c_2, main_v16, main_c_3, main_v17, main_v18, main_c_4, main_v19, main_v20, main_v21,
    main_c_5]
abbrev wD : List (Ref sig .tc) := [main_call1_v0, main_call1_v1, main_v22]
abbrev wE : List (Ref sig .tc) :=
  [main_v23, main_v24, main_v25, main_v26, main_v27, main_v28, main_v29, main_c_6, main_v30, main_c_7, main_v31, main_v32, main_c_8,
    main_v33, main_v34, main_v35, main_c_9, main_v36, main_v37, main_c_10, main_v38, main_v39, main_v40, main_c_11, main_v41,
    main_v42, main_c_12, main_v43, main_v44]
abbrev wF : List (Ref sig .tc) := [main_v45, main_v46, main_v47, main_v48, main_v49, main_v50, main_v51, main_v52]
abbrev wG : List (Ref sig .tc) := [main_v53, main_v54, main_v55, main_v56, main_v57, main_v58, main_v59, main_v60]
abbrev wH : List (Ref sig .tc) := [main_call2_v0, main_v61]
abbrev wI : List (Ref sig .tc) := [main_v62, main_v63]
abbrev wJ : List (Ref sig .tc) :=
  [main_call3_c, main_call3_v0, main_call3_v1, main_call3_c_0, main_call3_v2, main_call3_v3, main_call3_v4, main_call3_v5,
    main_call3_c_1, main_call3_c_2, main_call3_v6, main_call3_v7, main_call3_v8, main_call3_v9, main_call3_v10, main_call3_v11,
    main_call3_c_3, main_call3_v12, main_call3_v13, main_call3_v14, main_call3_cst, main_call3_v15, main_v64]
abbrev wK : List (Ref sig .tc) := [main_v65, main_v66, main_v67, main_v68, main_v69, main_v70]
abbrev wL : List (Ref sig .tc) :=
  [main_call4_c, main_call4_v0, main_call4_v1, main_call4_c_0, main_call4_v2, main_call4_v3, main_call4_v4, main_call4_v5,
    main_call4_c_1, main_call4_c_2, main_call4_v6, main_call4_v7, main_call4_v8, main_call4_v9, main_call4_v10, main_call4_v11,
    main_call4_c_3, main_call4_v12, main_call4_v13, main_call4_v14, main_call4_cst, main_call4_v15, main_v71]
abbrev wM : List (Ref sig .tc) := [main_v72, main_v73]

theorem opsA_writes : (opsA : List (HloOp τ sig (Elt F))).Forall fun op => op.writes ⊆ (wA.map (Proc.devRef (τ := τ) .tc)).toFinset := by
  simp only [List.Forall]; repeat' apply And.intro
  all_goals exact single_sub_of_mem (by decide)
theorem opsB_writes : (opsB : List (HloOp τ sig (Elt F))).Forall fun op => op.writes ⊆ (wB.map (Proc.devRef (τ := τ) .tc)).toFinset := by
  simp only [List.Forall]; repeat' apply And.intro
  all_goals exact single_sub_of_mem (by decide)
theorem opsC_writes : (opsC : List (HloOp τ sig (Elt F))).Forall fun op => op.writes ⊆ (wC.map (Proc.devRef (τ := τ) .tc)).toFinset := by
  simp only [List.Forall]; repeat' apply And.intro
  all_goals exact single_sub_of_mem (by decide)
theorem opsD_writes : (opsD : List (HloOp τ sig (Elt F))).Forall fun op => op.writes ⊆ (wD.map (Proc.devRef (τ := τ) .tc)).toFinset := by
  simp only [List.Forall]; repeat' apply And.intro
  all_goals exact single_sub_of_mem (by decide)
theorem opsE_writes : (opsE : List (HloOp τ sig (Elt F))).Forall fun op => op.writes ⊆ (wE.map (Proc.devRef (τ := τ) .tc)).toFinset := by
  simp only [List.Forall]; repeat' apply And.intro
  all_goals exact single_sub_of_mem (by decide)
theorem opsF_writes : (opsF : List (HloOp τ sig (Elt F))).Forall fun op => op.writes ⊆ (wF.map (Proc.devRef (τ := τ) .tc)).toFinset := by
  simp only [List.Forall]; repeat' apply And.intro
  all_goals exact single_sub_of_mem (by decide)
theorem opsG_writes : (opsG : List (HloOp τ sig (Elt F))).Forall fun op => op.writes ⊆ (wG.map (Proc.devRef (τ := τ) .tc)).toFinset := by
  simp only [List.Forall]; repeat' apply And.intro
  all_goals exact single_sub_of_mem (by decide)
theorem opsH_writes : (opsH : List (HloOp τ sig (Elt F))).Forall fun op => op.writes ⊆ (wH.map (Proc.devRef (τ := τ) .tc)).toFinset := by
  simp only [List.Forall]; repeat' apply And.intro
  all_goals exact single_sub_of_mem (by decide)
theorem opsI_writes : (opsI : List (HloOp τ sig (Elt F))).Forall fun op => op.writes ⊆ (wI.map (Proc.devRef (τ := τ) .tc)).toFinset := by
  simp only [List.Forall]; repeat' apply And.intro
  all_goals exact single_sub_of_mem (by decide)
theorem opsJ_writes : (opsJ : List (HloOp τ sig (Elt F))).Forall fun op => op.writes ⊆ (wJ.map (Proc.devRef (τ := τ) .tc)).toFinset := by
  simp only [List.Forall]; repeat' apply And.intro
  all_goals exact single_sub_of_mem (by decide)
theorem opsK_writes : (opsK : List (HloOp τ sig (Elt F))).Forall fun op => op.writes ⊆ (wK.map (Proc.devRef (τ := τ) .tc)).toFinset := by
  simp only [List.Forall]; repeat' apply And.intro
  all_goals exact single_sub_of_mem (by decide)
theorem opsL_writes : (opsL : List (HloOp τ sig (Elt F))).Forall fun op => op.writes ⊆ (wL.map (Proc.devRef (τ := τ) .tc)).toFinset := by
  simp only [List.Forall]; repeat' apply And.intro
  all_goals exact single_sub_of_mem (by decide)
theorem opsM_writes : (opsM : List (HloOp τ sig (Elt F))).Forall fun op => op.writes ⊆ (wM.map (Proc.devRef (τ := τ) .tc)).toFinset := by
  simp only [List.Forall]; repeat' apply And.intro
  all_goals exact single_sub_of_mem (by decide)

variable {r : Ref sig .tc} (V : Valuation τ sig (Elt F))

theorem keepA (hr : r ∉ wA) : after opsA V (Proc.devRef .tc r) = V (Proc.devRef .tc r) := after_of_writes_sub opsA V opsA_writes hr
theorem keepB (hr : r ∉ wB) : after opsB V (Proc.devRef .tc r) = V (Proc.devRef .tc r) := after_of_writes_sub opsB V opsB_writes hr
theorem keepC (hr : r ∉ wC) : after opsC V (Proc.devRef .tc r) = V (Proc.devRef .tc r) := after_of_writes_sub opsC V opsC_writes hr
theorem keepD (hr : r ∉ wD) : after opsD V (Proc.devRef .tc r) = V (Proc.devRef .tc r) := after_of_writes_sub opsD V opsD_writes hr
theorem keepE (hr : r ∉ wE) : after opsE V (Proc.devRef .tc r) = V (Proc.devRef .tc r) := after_of_writes_sub opsE V opsE_writes hr
theorem keepF (hr : r ∉ wF) : after opsF V (Proc.devRef .tc r) = V (Proc.devRef .tc r) := after_of_writes_sub opsF V opsF_writes hr
theorem keepG (hr : r ∉ wG) : after opsG V (Proc.devRef .tc r) = V (Proc.devRef .tc r) := after_of_writes_sub opsG V opsG_writes hr
theorem keepH (hr : r ∉ wH) : after opsH V (Proc.devRef .tc r) = V (Proc.devRef .tc r) := after_of_writes_sub opsH V opsH_writes hr
theorem keepI (hr : r ∉ wI) : after opsI V (Proc.devRef .tc r) = V (Proc.devRef .tc r) := after_of_writes_sub opsI V opsI_writes hr
theorem keepJ (hr : r ∉ wJ) : after opsJ V (Proc.devRef .tc r) = V (Proc.devRef .tc r) := after_of_writes_sub opsJ V opsJ_writes hr
theorem keepK (hr : r ∉ wK) : after opsK V (Proc.devRef .tc r) = V (Proc.devRef .tc r) := after_of_writes_sub opsK V opsK_writes hr
theorem keepL (hr : r ∉ wL) : after opsL V (Proc.devRef .tc r) = V (Proc.devRef .tc r) := after_of_writes_sub opsL V opsL_writes hr
theorem keepM (hr : r ∉ wM) : after opsM V (Proc.devRef .tc r) = V (Proc.devRef .tc r) := after_of_writes_sub opsM V opsM_writes hr

/-- A buffer no stretch writes is, after the whole line, as it was. -/
theorem keep_all (hA : r ∉ wA) (hB : r ∉ wB) (hC : r ∉ wC) (hD : r ∉ wD) (hE : r ∉ wE) (hF : r ∉ wF) (hG : r ∉ wG) (hH : r ∉ wH)
    (hI : r ∉ wI) (hJ : r ∉ wJ) (hK : r ∉ wK) (hL : r ∉ wL) (hM : r ∉ wM) :
    after ops V (Proc.devRef .tc r) = V (Proc.devRef .tc r) := by
  rw [after_ops, keepM _ hM, keepL _ hL, keepK _ hK, keepJ _ hJ, keepI _ hI, keepH _ hH, keepG _ hG, keepF _ hF, keepE _ hE, keepD _ hD,
    keepC _ hC, keepB _ hB, keepA _ hA]

/-! ## The arguments are kept -/

variable (m : (ℓ : Loc nD τ sig) → Buf (Elt F) ℓ) (d : Dev nD)

/-- No operation writes an argument: after the line each holds what it was launched with. -/
theorem kept_arg0 : after ops (launchContents m d) (Proc.devRef .tc main_arg0) = m ((d.tc : Thread nD τ).loc main_arg0) :=
  keep_all (launchContents m d) (by decide) (by decide) (by decide) (by decide) (by decide) (by decide) (by decide) (by decide)
    (by decide) (by decide) (by decide) (by decide) (by decide)
theorem kept_arg1 : after ops (launchContents m d) (Proc.devRef .tc main_arg1) = m ((d.tc : Thread nD τ).loc main_arg1) :=
  keep_all (launchContents m d) (by decide) (by decide) (by decide) (by decide) (by decide) (by decide) (by decide) (by decide)
    (by decide) (by decide) (by decide) (by decide) (by decide)
theorem kept_arg2 : after ops (launchContents m d) (Proc.devRef .tc main_arg2) = m ((d.tc : Thread nD τ).loc main_arg2) :=
  keep_all (launchContents m d) (by decide) (by decide) (by decide) (by decide) (by decide) (by decide) (by decide) (by decide)
    (by decide) (by decide) (by decide) (by decide) (by decide)

end Cert.ReferenceIdeal.RefRun

end
-- ==== Proof.RefHead.lean ====
/-
  The head of the reference's line of operations, read back over any starting contents.

  The first eight stretches (83 operations, through the filled index array) compute, from the two point clouds,
  the capped count of marked points per query and the 32 neighbour indices per query: the shell test on squared
  distances, the running count that ranks the marked points, the scatter of point numbers into 33 slots, the
  first 32 slots with the unfilled ones replaced by slot 0. Read from the last operation back to the starting
  contents, the count buffer and the index buffer hold the same compositions of operations the stage-by-stage
  definitions state, over the starting contents of the two point-cloud arguments; and no operation of these
  stretches writes an argument.
-/
import proofs.«138576_j31576599560762_1_alg».proof.Proof.RefRun
import proofs.«138576_j31576599560762_1_alg».proof.Proof.Chain
import proofs.«138576_j31576599560762_1_alg».proof.Proof.LibNary3

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Reading a buffer after a line of operations -/

/-- Equal operand lists concatenate to the same vector (the evidence that the operands' shapes tile the result
    speaks of the shapes only, so it moves along the equation). -/
private theorem concatenate_operands_congr {α : Type} (t : Shape) (a : Fin t.rank) {xs xs' : List ((s : Shape) × (s.Idx → α))}
    (e : xs = xs') (h : Shape.Concatenates (xs.map (·.1)) t a) :
    concatenate t a xs h = concatenate t a xs' (e ▸ h) := by subst e; rfl

attribute [local congr] concatenate_operands_congr

/-- The eight stretches as one list of 83 operations. -/
local macro "open_head" : tactic => `(tactic|
  simp only [opsA, opsB, opsC, opsD, opsE, opsF, opsG, opsH,
    List.flatten_cons, List.flatten_nil, List.append_nil, List.cons_append, List.nil_append])

/-- What a buffer holds after a literal line of operations: at the operation that writes it, that operation's
    function of its operands' contents before it; at every other operation, what it held before (the two
    references differ). Unfolded from the last operation back to the starting contents. -/
local macro "read_line" : tactic => `(tactic|
  simp (disch := decide) only [after_cons, after_nil,
    TRef.nullary, TRef.unary, TRef.binary, TRef.ternary, TRef.of, TRef.toBuf, TRef.ofBuf, cast_eq,
    nullary_result', unary_result', binary_result', ternary_result', reshape_result', nary3_result',
    nullary_result_ne', unary_result_ne', binary_result_ne', ternary_result_ne', reshape_result_ne', nary_result_ne'])

variable (V : Valuation τ sig (Elt F))

/-! ## The head, stretch by stretch -/

/-- The fold over the eight stretches end to end is the folds over the stretches in turn. -/
theorem head_eq :
    after (List.flatten [opsA, opsB, opsC, opsD, opsE, opsF, opsG, opsH]) V
      = after opsH (after opsG (after opsF (after opsE (after opsD (after opsC (after opsB (after opsA V))))))) := by
  simp only [List.flatten_cons, List.flatten_nil, List.append_nil, after_app]

/-- A buffer none of the eight stretches writes is, after them, as it was. -/
theorem head_keep {r : Ref sig .tc} (hA : r ∉ wA) (hB : r ∉ wB) (hC : r ∉ wC) (hD : r ∉ wD) (hE : r ∉ wE) (hF : r ∉ wF)
    (hG : r ∉ wG) (hH : r ∉ wH) :
    after (List.flatten [opsA, opsB, opsC, opsD, opsE, opsF, opsG, opsH]) V (Proc.devRef .tc r) = V (Proc.devRef .tc r) := by
  rw [head_eq, keepH _ hH, keepG _ hG, keepF _ hF, keepE _ hE, keepD _ hD, keepC _ hC, keepB _ hB, keepA _ hA]

/-- No operation of the head writes an argument. -/
theorem head_arg0 : after (List.flatten [opsA, opsB, opsC, opsD, opsE, opsF, opsG, opsH]) V (Proc.devRef .tc main_arg0) = V (Proc.devRef .tc main_arg0) :=
  head_keep V (by decide) (by decide) (by decide) (by decide) (by decide) (by decide) (by decide) (by decide)
theorem head_arg1 : after (List.flatten [opsA, opsB, opsC, opsD, opsE, opsF, opsG, opsH]) V (Proc.devRef .tc main_arg1) = V (Proc.devRef .tc main_arg1) :=
  head_keep V (by decide) (by decide) (by decide) (by decide) (by decide) (by decide) (by decide) (by decide)
theorem head_arg2 : after (List.flatten [opsA, opsB, opsC, opsD, opsE, opsF, opsG, opsH]) V (Proc.devRef .tc main_arg2) = V (Proc.devRef .tc main_arg2) :=
  head_keep V (by decide) (by decide) (by decide) (by decide) (by decide) (by decide) (by decide) (by decide)

/-! ## What the head computes -/

-- the stage-by-stage definitions are stated over the kernel program's side conditions
variable [Cert.KernelIdeal.Facts]

set_option maxHeartbeats 16000000 in
/-- After the head the count buffer holds the number of marked points of each row, capped at 32. -/
theorem head_count :
    after (List.flatten [opsA, opsB, opsC, opsD, opsE, opsF, opsG, opsH]) V (Proc.devRef .tc main_v18)
      = Cert.KernelIdeal.Chain.count (F := F) (V (Proc.devRef .tc main_arg0)) (V (Proc.devRef .tc main_arg1)) := by
  open_head
  read_line
  rfl

set_option maxHeartbeats 16000000 in
/-- After the head the index buffer holds the 32 neighbour indices of each query. -/
theorem head_nbr :
    after (List.flatten [opsA, opsB, opsC, opsD, opsE, opsF, opsG, opsH]) V (Proc.devRef .tc main_v61)
      = Cert.KernelIdeal.Chain.nbr (F := F) (V (Proc.devRef .tc main_arg0)) (V (Proc.devRef .tc main_arg1)) := by
  open_head
  read_line
  rfl

end Cert.ReferenceIdeal.RefRun

end
-- ==== Proof.RefTail.lean ====
/-
  The reference's gathering tail, as plain functions of the flat neighbour indices and the three arguments.

  Given the flat index array (32 neighbour point numbers per query, query-major), the reference takes, along the
  point axis, the three coordinate rows of the transposed point cloud and the 64 feature rows at those indices
  (an index below 0 wrapped by the axis length, an index outside [0, 16383] after that read as a fill value),
  lays the 65536 slots out as (query, slot), subtracts each query's centre from the coordinate rows, and stacks the
  3 + 64 rows.
-/
import proofs.«138576_j31576599560762_1_alg».proof.ReferenceIdeal

noncomputable section

namespace Cert.ReferenceIdeal.Tail

open Idealize.ShloMosaic Cert.ReferenceIdeal
open Cert.ReferenceIdeal.Facts₀ Cert.ReferenceIdeal.Facts

variable {F : FTy → Type} [FloatOps F] [Cert.ReferenceIdeal.Facts]

/-- The indices as the gather reads them: a negative one wrapped by the axis length 16384, then laid out one
    index vector per (batch, slot). -/
def startIx (idx : IVec S2x1x65536 32) : IVec S2x65536x1 32 :=
  shapeCast S2x65536x1
    (select (cmpi .slt idx (broadcastInDim S2x1x65536 ![] bcast_S_S2x1x65536 (constantI S_ 32 0#32)))
      (addi idx (broadcastInDim S2x1x65536 ![] bcast_S_S2x1x65536 (constantI S_ 32 16384#32))) idx)
    shapeCasts_S2x1x65536_S2x65536x1

/-- Whether an index lies in [0, 16383], per (batch, slot). -/
def inRange (idx : IVec S2x1x65536 32) : IVec S2x65536 1 :=
  Host.reduce IntOp.andi
    (andi (cmpi .sge (startIx idx) (broadcastInDim S2x65536x1 ![] bcast_S_S2x65536x1 (constantI S_ 32 0#32)))
      (cmpi .sle (startIx idx) (broadcastInDim S2x65536x1 ![0, 1, 2] bcast_S1x1x1_S2x65536x1_0_1_2 (broadcastInDim S1x1x1 ![2] bcast_S1_S1x1x1_2 (constantI S1 32 16383#32)))))
    (constantI S_ 1 1#1) reducesTo_S2x65536x1_S2x65536_d2 h_S_

/-- The three coordinate rows taken at the indices. -/
def takeX (xt : FVec F S2x3x16384 .f32) (idx : IVec S2x1x65536 32) : FVec F S2x3x65536 .f32 :=
  select (broadcastInDim S2x3x65536 ![0, 2] bcast_S2x65536_S2x3x65536_0_2 (inRange idx))
    (Host.gather gather_S2x3x16384_S2x65536x1_S2x3x65536_1_2_0_0_2_2_131 xt (startIx idx))
    (broadcastInDim S2x3x65536 ![] bcast_S_S2x3x65536 (constant (F := F) S_ .f32 0x7FC00000#32))

/-- The 64 feature rows taken at the indices. -/
def takeF (ft : FVec F S2x64x16384 .f32) (idx : IVec S2x1x65536 32) : FVec F S2x64x65536 .f32 :=
  select (broadcastInDim S2x64x65536 ![0, 2] bcast_S2x65536_S2x64x65536_0_2 (inRange idx))
    (Host.gather gather_S2x64x16384_S2x65536x1_S2x64x65536_1_2_0_0_2_2_1641 ft (startIx idx))
    (broadcastInDim S2x64x65536 ![] bcast_S_S2x64x65536 (constant (F := F) S_ .f32 0x7FC00000#32))

/-- The reference's second result: the taken coordinates less the query centres, over the taken features. -/
def out (xyz : FVec F S2x16384x3 .f32) (nx : FVec F S2x2048x3 .f32) (ft : FVec F S2x64x16384 .f32) (idx : IVec S2x1x65536 32) :
    FVec F S2x67x2048x32 .f32 :=
  concatenate S2x67x2048x32 1
    [⟨S2x3x2048x32,
        subf (shapeCast S2x3x2048x32 (takeX (transpose S2x3x16384 [0, 2, 1] xyz transposes_S2x16384x3_S2x3x16384_0_2_1) idx) shapeCasts_S2x3x65536_S2x3x2048x32)
          (broadcastInDim S2x3x2048x32 ![0, 1, 2, 3] bcast_S2x3x2048x1_S2x3x2048x32_0_1_2_3
            (broadcastInDim S2x3x2048x1 ![0, 1, 2] bcast_S2x3x2048_S2x3x2048x1_0_1_2 (transpose S2x3x2048 [0, 2, 1] nx transposes_S2x2048x3_S2x3x2048_0_2_1)))⟩,
     ⟨S2x64x2048x32, shapeCast S2x64x2048x32 (takeF ft idx) shapeCasts_S2x64x65536_S2x64x2048x32⟩]
    concatenates_S2x3x2048x32_S2x64x2048x32_S2x67x2048x32_d1

end Cert.ReferenceIdeal.Tail

end
-- ==== Proof.RefRead.lean ====
/-
  The reference's run read back: after the line `ops`, the count buffer holds the shared chain's `count` and
  the result buffer holds the tail's `out` at the chain's flat neighbour indices.

  The line is its first eight stretches (through the filled index array), read elsewhere over any valuation, then
  its last five. Over any valuation the last five stretches leave in the result buffer the tail's `out` of what the
  valuation holds at the three arguments and, laid flat, at the neighbour buffer: the fold is unrolled from the last
  operation back (each operation's result at its own buffer is its function of its operands' contents, at any other
  buffer what was there), and the term left is `out` with its definitions unfolded. The count buffer is none of
  theirs. The first eight stretches keep the arguments, so the two halves compose.
-/
import proofs.«138576_j31576599560762_1_alg».proof.Proof.RefRun
import proofs.«138576_j31576599560762_1_alg».proof.Proof.RefHead
import proofs.«138576_j31576599560762_1_alg».proof.Proof.Chain
import proofs.«138576_j31576599560762_1_alg».proof.Proof.RefTail
import proofs.«138576_j31576599560762_1_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Reading a buffer after a line of operations -/

/-- Equal operand lists concatenate to the same vector: the evidence that the operands' shapes tile the result
    speaks of the shapes only, so it moves along the equation. -/
private theorem concatenate_operands_congr {α : Type} (t : Shape) (a : Fin t.rank) {xs xs' : List ((s : Shape) × (s.Idx → α))}
    (e : xs = xs') (h : Shape.Concatenates (xs.map (·.1)) t a) :
    concatenate t a xs h = concatenate t a xs' (e ▸ h) := by subst e; rfl

attribute [local congr] concatenate_operands_congr

/-- What a buffer holds after a literal line of operations, in one pass from the last operation back: at the
    operation that writes it, that operation's function of its operands' contents before it; at every other
    operation, what it held before (the two references differ). The typed references of a callee's operations are
    opened to their buffers, and their transports along `rfl` dropped. -/
local macro "read_line" : tactic => `(tactic|
  simp (disch := decide) only [after_cons, after_nil,
    TRef.nullary, TRef.unary, TRef.binary, TRef.ternary, TRef.reshape, TRef.of, TRef.toBuf, TRef.ofBuf, cast_eq,
    nullary_result', unary_result', binary_result', ternary_result', reshape_result', nary3_result',
    nullary_result_ne', unary_result_ne', binary_result_ne', ternary_result_ne', reshape_result_ne', nary_result_ne'])

variable (V : Valuation τ sig (Elt F))

/-! ## The tail: from the neighbour indices to the second result -/

set_option maxRecDepth 65536 in
set_option maxHeartbeats 16000000 in
/-- Over any valuation, the last five stretches (56 operations) leave in the result buffer the tail's `out` of the
    three arguments and of the index array found in the neighbour buffer, laid flat: the transposed points and the
    features taken along the point axis at those indices (each through its call's wrap of a negative index and its
    range test), the coordinates less the centres, stacked over the features. -/
theorem tail_out :
    after (List.flatten [opsI, opsJ, opsK, opsL, opsM]) V (Proc.devRef .tc main_v73)
      = Tail.out (V (Proc.devRef .tc main_arg0)) (V (Proc.devRef .tc main_arg1)) (V (Proc.devRef .tc main_arg2))
          (shapeCast S2x1x65536 (V (Proc.devRef .tc main_v61)) shapeCasts_S2x2048x32_S2x1x65536) := by
  simp only [opsI, opsJ, opsK, opsL, opsM, List.flatten_cons, List.flatten_nil, List.append_nil, List.cons_append, List.nil_append]
  read_line
  rfl

/-- A buffer none of the last five stretches writes is, after them, as it was. -/
theorem tail_keep {r : Ref sig .tc} (hI : r ∉ wI) (hJ : r ∉ wJ) (hK : r ∉ wK) (hL : r ∉ wL) (hM : r ∉ wM) :
    after (List.flatten [opsI, opsJ, opsK, opsL, opsM]) V (Proc.devRef .tc r) = V (Proc.devRef .tc r) := by
  simp only [List.flatten_cons, List.flatten_nil, List.append_nil, after_app]
  rw [keepM _ hM, keepL _ hL, keepK _ hK, keepJ _ hJ, keepI _ hI]

/-- The count buffer is none of theirs. -/
theorem tail_keep_v18 :
    after (List.flatten [opsI, opsJ, opsK, opsL, opsM]) V (Proc.devRef .tc main_v18) = V (Proc.devRef .tc main_v18) :=
  tail_keep V (by decide) (by decide) (by decide) (by decide) (by decide)

/-! ## The two results -/

/-- The line is its first eight stretches then its last five. -/
theorem ops_split : (ops : List (HloOp τ sig (Elt F)))
    = List.flatten [opsA, opsB, opsC, opsD, opsE, opsF, opsG, opsH] ++ List.flatten [opsI, opsJ, opsK, opsL, opsM] := by
  simp only [ops, List.flatten_cons, List.flatten_nil, List.append_nil, List.append_assoc]

-- the chain's stages are stated over the kernel program's side conditions
variable [Cert.KernelIdeal.Facts]
variable (m : (ℓ : Loc nD τ sig) → Buf (Elt F) ℓ) (d : Dev nD)

/-- After the whole line the count buffer holds the chain's count of the two point clouds: the first eight stretches
    leave it there and the last five do not write it. -/
theorem res_count :
    after ops (launchContents m d) (Proc.devRef .tc main_v18)
      = Cert.KernelIdeal.Chain.count (m ((d.tc : Thread nD τ).loc main_arg0)) (m ((d.tc : Thread nD τ).loc main_arg1)) := by
  rw [ops_split, after_app, tail_keep_v18]
  exact head_count (launchContents m d)

/-- After the whole line the result buffer holds the tail's `out` of the three arguments at the chain's flat neighbour
    indices: the first eight stretches leave the neighbour indices in their buffer and keep the arguments, the last
    five compute `out` from those, and the flat neighbour indices are by definition the neighbour indices laid flat. -/
theorem res_out :
    after ops (launchContents m d) (Proc.devRef .tc main_v73)
      = Tail.out (m ((d.tc : Thread nD τ).loc main_arg0)) (m ((d.tc : Thread nD τ).loc main_arg1)) (m ((d.tc : Thread nD τ).loc main_arg2))
          (Cert.KernelIdeal.Chain.nbrFlat (m ((d.tc : Thread nD τ).loc main_arg0)) (m ((d.tc : Thread nD τ).loc main_arg1))) := by
  rw [ops_split, after_app, tail_out, head_arg0, head_arg1, head_arg2, head_nbr]
  rfl

end Cert.ReferenceIdeal.RefRun

end
-- ==== Proof.LibScatterSet.lean ====
/-
  A scatter whose body returns the update ("set") creates no new values: every element of its result is an
  element of the operand or one of the updates. Hence a property that holds of every operand element and of
  every update holds of every element of the result, whatever the scatter indices are (in range or not,
  repeating or not) and whatever order the updates are taken in.

  The scatter is a left fold, over the update indices, of a step that either leaves the array as it is or
  replaces one element; the property "every element satisfies P" is kept by each step, so it holds at the end
  of the fold. The first lemma says this for any body that keeps P against every update; the second is the
  case of the body that returns the update.
-/
import Idealize.ShloMosaic.PureOps.ShapeOps

namespace Idealize.ShloMosaic

/-- An elementwise invariant of a scatter. If every operand element satisfies `P`, and the body `f` keeps
    `P` when it combines an element satisfying `P` with any update, then every element of the scatter's
    result satisfies `P`. By induction along the fold over the update indices: a step changes at most one
    element, to `f` of the old element (which satisfies `P`) and an update. Nothing is asked of the indices. -/
theorem Host.scatter_forall_of_forall {s si u : Shape} {w : Nat} {α : Type} (d : ScatterDims s si u)
    (f : α → α → α) (P : α → Prop) (x : s.Idx → α) (idx : IVec si w) (upd : u.Idx → α)
    (hx : ∀ i, P (x i)) (hf : ∀ a k, P a → P (f a (upd k))) (i : s.Idx) :
    P (Host.scatter d f x idx upd i) := by
  unfold Host.scatter
  generalize List.finRange u.numel = l
  induction l generalizing x i with
  | nil => exact hx i
  | cons n l ih =>
    rw [List.foldl_cons]
    apply ih
    intro i'
    rcases d.resultIdx? (u.rowMajor.symm n) idx with _ | j
    · exact hx i'
    · show P (if i' = j then f (x j) (upd (u.rowMajor.symm n)) else x i')
      split
      · exact hf _ _ (hx j)
      · exact hx i'

/-- A scatter that overwrites (its body returns the update: `x.at[idx].set(upd)`): every element of the
    result is an element of the operand or one of the updates, so a property `P` of all of those is a
    property of every element of the result. Nothing is asked of the indices: an update whose index falls
    outside the operand is dropped, and of two updates at one index either may be the one that stays. -/
theorem Host.scatter_set_of_forall {s si u : Shape} {w : Nat} {α : Type} (d : ScatterDims s si u)
    (P : α → Prop) (x : s.Idx → α) (idx : IVec si w) (upd : u.Idx → α)
    (hx : ∀ i, P (x i)) (hu : ∀ k, P (upd k)) (i : s.Idx) :
    P (Host.scatter d (fun _ b => b) x idx upd i) :=
  Host.scatter_forall_of_forall d (fun _ b => b) P x idx upd hx (fun _ k _ => hu k) i

end Idealize.ShloMosaic
-- ==== Proof.NbrRange.lean ====
/-
  Every neighbour index is a point number: each of the 32 indices the index computation produces for a query,
  read as a natural number, is below 16384, the number of points.

  The rows of 33 slots are made by a scatter that overwrites, from rows of zeros, with the point numbers as
  updates. Such a scatter creates no value: each slot holds 0 or a point number n, and n is a coordinate of an
  index into an axis of length 16384, written as a 32-bit word, so it is below 16384 either way. The later
  stages only move slots around: the slice keeps slots 0 … 31, the select chooses between a slot and slot 0
  of the same row, and the flat layout is a re-indexing. Nothing is evaluated; every step is pointwise.
-/
import proofs.«138576_j31576599560762_1_alg».proof.Proof.Chain
import proofs.«138576_j31576599560762_1_alg».proof.Proof.LibScatterSet

namespace Cert.KernelIdeal.Chain

open Idealize.ShloMosaic Cert.KernelIdeal
open Cert.KernelIdeal.Facts₀ Cert.KernelIdeal.Facts

variable {F : FTy → Type} [FloatOps F] [Cert.KernelIdeal.Facts]

/-- What the scatter writes at (b, m, n) is the 32-bit word of a coordinate along an axis of length 16384
    (the iota's axis, reached through the two broadcasts), hence a number below 16384. -/
theorem pointNo_lt (k : S2x2048x16384.Idx) : (pointNo k).toNat < 16384 := by
  unfold pointNo broadcastInDim iotaInDim
  rw [BitVec.toNat_ofNat]
  exact Nat.lt_of_le_of_lt (Nat.mod_le _ _) (Fin.isLt _)

/-- Every one of the 33 slots of a row holds a number below 16384: the scatter overwrites, its operand is all
    zeros and its updates are point numbers. -/
theorem slots33_lt (xyz : FVec F S2x16384x3 .f32) (nx : FVec F S2x2048x3 .f32) (i : S2x2048x33.Idx) :
    (slots33 xyz nx i).toNat < 16384 := by
  unfold slots33
  exact Host.scatter_set_of_forall _ (fun v : BitVec 32 => v.toNat < 16384) _ _ _
    (fun _ => by show (0#32).toNat < 16384; decide) pointNo_lt i

/-- The first 32 slots are slots of the 33. -/
theorem slots32_lt (xyz : FVec F S2x16384x3 .f32) (nx : FVec F S2x2048x3 .f32) (i : S2x2048x32.Idx) :
    (slots32 xyz nx i).toNat < 16384 := by
  unfold slots32 extractStridedSlice
  exact slots33_lt xyz nx _

/-- A neighbour index is slot s of its row or slot 0 of its row, whichever the count selects. -/
theorem nbr_lt (xyz : FVec F S2x16384x3 .f32) (nx : FVec F S2x2048x3 .f32) (i : S2x2048x32.Idx) :
    (nbr xyz nx i).toNat < 16384 := by
  unfold nbr select Scalar.select
  split
  · exact slots32_lt xyz nx i
  · unfold broadcastInDim extractStridedSlice
    exact slots32_lt xyz nx _

/-- The flat layout holds the same indices in another arrangement. -/
theorem nbrFlat_lt (xyz : FVec F S2x16384x3 .f32) (nx : FVec F S2x2048x3 .f32) (j : S2x1x65536.Idx) :
    (nbrFlat xyz nx j).toNat < 16384 := by
  unfold nbrFlat shapeCast
  exact nbr_lt xyz nx _

end Cert.KernelIdeal.Chain
-- ==== Proof.LibGatherRows.lean ====
/-
  A gather of ROWS along the last axis, batch by batch, read at an index.

  An operand [B, n, N] (B batches of n rows of N points) is read at start indices [B, M, 1], one point number per
  (batch, slot): the result [B, n, M] holds, at (b, p, Q), row p of batch b at the point whose number is the start
  index at (b, Q, 0). In StableHLO's dimension numbers: the batch axis 0 of the operand is paired with axis 0 of
  the start indices, the row axis 1 is the one offset axis (slice size n, result axis 1), the point axis 2 is
  collapsed and is the one axis the start index addresses (index vector axis 2, of length 1). This is what
  take_along_axis along the last axis lowers to. The start index is read as a signed integer and clamped into
  [0, N − 1], as every gather clamps its start indices.
-/
import Idealize.ShloMosaic.Lib.ValueIdx

namespace Idealize.ShloMosaic

open Idealize.ShloMosaic.ValueIdx

section RowTake
variable {α : Type}

/-- Those dimension numbers for an operand `[B, n, N]`, start indices `[B, M, 1]` and result `[B, n, M]`; their
    conditions `wf` are decided on a program's literal shapes. -/
abbrev rowTakeDims (B n N M : Nat)
    (wf : GatherDims.WF ⟨3, ![B, n, N]⟩ ⟨3, ![B, M, 1]⟩ ⟨3, ![B, n, M]⟩ [1] [2] [0] [2] [0] 2 ![1, n, 1]) :
    GatherDims ⟨3, ![B, n, N]⟩ ⟨3, ![B, M, 1]⟩ ⟨3, ![B, n, M]⟩ where
  offsetDims := [1]
  collapsedSliceDims := [2]
  operandBatchingDims := [0]
  startIndicesBatchingDims := [0]
  startIndexMap := [2]
  indexVectorDim := 2
  sliceSizes := ![1, n, 1]
  wf := wf

/-- THE GATHER READ AT `(b, p, Q)`: the operand at batch `b`, row `p`, and the point whose number is the start index
    `idx[b, Q, 0]`, read signed and clamped into `[0, N − 1]`. Axis by axis of the operand index: on the batch axis
    the start and the offset are 0 and the batching coordinate is `b`; on the row axis the start and the batching
    coordinate are 0 and the offset is `p`; on the point axis the batching coordinate and the offset are 0 and the
    start is the clamped index. -/
theorem gather_rowTake_apply {B n N M w : Nat} (hN : 0 < N)
    (wf : GatherDims.WF ⟨3, ![B, n, N]⟩ ⟨3, ![B, M, 1]⟩ ⟨3, ![B, n, M]⟩ [1] [2] [0] [2] [0] 2 ![1, n, 1])
    (x : (⟨3, ![B, n, N]⟩ : Shape).Idx → α) (idx : IVec ⟨3, ![B, M, 1]⟩ w) (b : Fin B) (p : Fin n) (Q : Fin M) :
    Host.gather (rowTakeDims B n N M wf) x idx (ix3 b p Q)
      = x (ix3 b p (⟨min (idx (ix3 b Q (0 : Fin 1))).toInt.toNat (N - 1), by omega⟩ : Fin N)) := by
  unfold Host.gather
  congr 1
  funext a
  refine Fin.ext ?_
  show (rowTakeDims B n N M wf).start (ix3 b p Q) idx a + (rowTakeDims B n N M wf).batchCoord (ix3 b p Q) a
      + (rowTakeDims B n N M wf).offCoord (ix3 b p Q) a = _
  have h10 : (1 : Fin 3) ∉ ([0] : List (Fin 3)) := by decide
  have h12 : (1 : Fin 3) ∉ ([2] : List (Fin 3)) := by decide
  have h20 : (2 : Fin 3) ∉ ([0] : List (Fin 3)) := by decide
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (⟨0, _⟩ : Fin 3) ∈ (rowTakeDims B n N M wf).operandBatchingDims from List.mem_singleton.mpr rfl)]
    simp only [Nat.zero_add, Nat.add_zero]
    rfl
  | ⟨1, h1⟩ =>
    have hs : (rowTakeDims B n N M wf).start (ix3 b p Q) idx ⟨1, h1⟩ = 0 := by
      unfold GatherDims.start
      exact dif_neg h12
    have ho : (rowTakeDims B n N M wf).offCoord (ix3 b p Q) ⟨1, h1⟩ = p.val := by
      unfold GatherDims.offCoord
      exact (dif_pos ((GatherDims.mem_sKept _ _).mpr ⟨h12, h10⟩)).trans rfl
    rw [GatherDims.batchCoord_eq_zero _ _ _ h10, hs, ho]
    show 0 + 0 + p.val = p.val
    omega
  | ⟨2, _⟩ =>
    rw [GatherDims.batchCoord_eq_zero _ _ _ h20,
      GatherDims.offCoord_eq_zero _ _ _ (fun h => ((GatherDims.mem_sKept _ _).mp h).1 (List.mem_singleton.mpr rfl))]
    simp only [Nat.add_zero]
    unfold GatherDims.start
    rw [dif_pos (show (⟨2, _⟩ : Fin 3) ∈ (rowTakeDims B n N M wf).startIndexMap from List.mem_singleton.mpr rfl)]
    have hsi : (rowTakeDims B n N M wf).siIdx (ix3 b p Q) ⟨List.idxOf (⟨2, by decide⟩ : Fin 3) (rowTakeDims B n N M wf).startIndexMap,
        List.idxOf_lt_length_iff.2 (List.mem_singleton.mpr rfl)⟩ = ix3 b Q (0 : Fin 1) := by
      funext c; refine Fin.ext ?_
      match c with
      | ⟨0, _⟩ => rfl
      | ⟨1, _⟩ => rfl
      | ⟨2, _⟩ => rfl
    rw [hsi]
    rfl

end RowTake

end Idealize.ShloMosaic
-- ==== Proof.RefTake.lean ====
/-
  The reference's two take-along-axis reads, at an index, for indices that are valid point numbers.

  When every flat neighbour index is below 16384 (read as a natural number), the reference's index handling does
  nothing: no index is negative, so none is wrapped by the axis length; every index passes both range tests, so the
  range mask is 1 everywhere and the fill value is never read; and the gather's clamp into [0, 16383] leaves the
  index as it is. What remains is the plain read: at (batch b, row p, slot Q) the taken array holds row p of
  batch b at the point whose number is the flat index at (b, 0, Q). The only layout fact used is that (b, 0, Q) in
  [2, 1, 65536] and (b, Q, 0) in [2, 65536, 1] have the same row-major position. Nothing is evaluated.
-/
import proofs.«138576_j31576599560762_1_alg».proof.Proof.RefTail
import proofs.«138576_j31576599560762_1_alg».proof.Proof.LibGatherRows
import Idealize.ShloMosaic.Lib.ValueIdx

namespace Cert.ReferenceIdeal.Tail

open Idealize.ShloMosaic Idealize.ShloMosaic.ValueIdx Cert.ReferenceIdeal
open Cert.ReferenceIdeal.Facts₀ Cert.ReferenceIdeal.Facts

variable {F : FTy → Type} [FloatOps F] [Cert.ReferenceIdeal.Facts]

/-! ## A 32-bit word below 16384, read signed -/

namespace Word

/-- A word below 16384 has its sign bit clear, so its signed reading is its unsigned one. -/
theorem toInt_of_lt (v : BitVec 32) (h : v.toNat < 16384) : v.toInt = (v.toNat : Int) :=
  BitVec.toInt_eq_toNat_of_lt (by omega)

/-- Such a word is not negative: the signed "less than zero" is the bit 0. -/
theorem slt_zero (v : BitVec 32) (h : v.toNat < 16384) : IntOp.cmpi .slt v 0#32 = 0#1 := by
  have hv := toInt_of_lt v h
  have hb : v.slt 0#32 = false := by
    unfold BitVec.slt
    rw [hv, BitVec.toInt_zero]
    exact decide_eq_false (by omega)
  show BitVec.ofBool (v.slt 0#32) = 0#1
  rw [hb]; rfl

/-- The signed "at least zero" is the bit 1. -/
theorem sge_zero (v : BitVec 32) (h : v.toNat < 16384) : IntOp.cmpi .sge v 0#32 = 1#1 := by
  have hv := toInt_of_lt v h
  have hb : (0#32).sle v = true := by
    unfold BitVec.sle
    rw [hv, BitVec.toInt_zero]
    exact decide_eq_true (by omega)
  show BitVec.ofBool ((0#32).sle v) = 1#1
  rw [hb]; rfl

/-- The signed "at most 16383" is the bit 1. -/
theorem sle_max (v : BitVec 32) (h : v.toNat < 16384) : IntOp.cmpi .sle v 16383#32 = 1#1 := by
  have hv := toInt_of_lt v h
  have h2 : (16383#32).toInt = 16383 := by decide
  have hb : v.sle 16383#32 = true := by
    unfold BitVec.sle
    rw [hv, h2]
    exact decide_eq_true (by omega)
  show BitVec.ofBool (v.sle 16383#32) = 1#1
  rw [hb]; rfl

/-- Read signed and clamped into [0, 16383], such a word is itself. -/
theorem clamp_of_lt (v : BitVec 32) (h : v.toNat < 16384) : min v.toInt.toNat (16384 - 1) = v.toNat := by
  have hv := toInt_of_lt v h
  omega

/-- A left fold by "and" from the bit 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_one f hf l

end Word

open Word

/-! ## The start indices -/

/-- No index is negative, so the wrap by the axis length is never taken: the start indices are the flat
    indices in the layout (batch, slot, 1). -/
theorem startIx_eq_shapeCast (idx : IVec S2x1x65536 32) (hlt : ∀ j, (idx j).toNat < 16384) :
    startIx idx = shapeCast S2x65536x1 idx shapeCasts_S2x1x65536_S2x65536x1 := by
  unfold startIx
  congr 1
  funext j
  show Scalar.select (IntOp.cmpi .slt (idx j) 0#32) (IntOp.addi (idx j) 16384#32) (idx j) = idx j
  rw [slt_zero _ (hlt j)]
  exact select_zero _ _

/-- Every start index is one of the flat indices, hence below 16384. -/
theorem startIx_lt (idx : IVec S2x1x65536 32) (hlt : ∀ j, (idx j).toNat < 16384) (k : S2x65536x1.Idx) :
    (startIx idx k).toNat < 16384 := by
  rw [startIx_eq_shapeCast idx hlt]
  unfold shapeCast
  exact hlt _

/-- The start index of (batch b, slot Q) is the flat index at (b, 0, Q): the two layouts [2, 1, 65536] and
    [2, 65536, 1] give (b, 0, Q) and (b, Q, 0) the same row-major position 65536 b + Q. -/
theorem startIx_apply (idx : IVec S2x1x65536 32) (hlt : ∀ j, (idx j).toNat < 16384) (b : Fin 2) (Q : Fin 65536) :
    startIx idx (ix3 b Q (0 : Fin 1)) = idx (ix3 b (0 : Fin 1) Q) := by
  rw [startIx_eq_shapeCast idx hlt]
  unfold shapeCast
  refine congrArg idx (Shape.reshapeEquiv_eq_of_rowMajor _ ?_)
  rw [Shape.rowMajor_val_three, Shape.rowMajor_val_three]
  show (b.val * 1 + 0) * 65536 + Q.val = (b.val * 65536 + Q.val) * 1 + 0
  omega

/-! ## The range mask -/

/-- Every index passes both range tests, so the mask is 1 at every (batch, slot): each entry is an
    and-reduction, from 1, of test bits that are all 1. -/
theorem inRange_eq_one (idx : IVec S2x1x65536 32) (hlt : ∀ j, (idx j).toNat < 16384) (k : S2x65536.Idx) :
    inRange idx k = 1#1 := by
  unfold inRange Host.reduce
  exact foldl_andi_one _ (fun n => by
    show IntOp.andi (IntOp.cmpi .sge (startIx idx _) 0#32) (IntOp.cmpi .sle (startIx idx _) 16383#32) = 1#1
    rw [sge_zero _ (startIx_lt idx hlt _), sle_max _ (startIx_lt idx hlt _)]
    decide) _

/-- In particular at (batch b, slot Q). -/
theorem inRange_apply (idx : IVec S2x1x65536 32) (hlt : ∀ j, (idx j).toNat < 16384) (b : Fin 2) (Q : Fin 65536) :
    inRange idx (ix2 b Q) = 1#1 :=
  inRange_eq_one idx hlt _

/-! ## The two reads -/

/-- A coordinate row taken at slot Q of batch b is the row at the point whose number is the flat index at
    (b, 0, Q): the mask is 1 there, and the gather reads batch b, row p, at the start index clamped into
    [0, 16383], which for an index below 16384 is the index. -/
theorem takeX_apply (xt : FVec F S2x3x16384 .f32) (idx : IVec S2x1x65536 32) (hlt : ∀ j, (idx j).toNat < 16384)
    (b : Fin 2) (p : Fin 3) (Q : Fin 65536) :
    takeX xt idx (ix3 b p Q) = xt (ix3 b p (⟨(idx (ix3 b (0 : Fin 1) Q)).toNat, hlt _⟩ : Fin 16384)) := by
  unfold takeX
  show Scalar.select (inRange idx _)
      (Host.gather (rowTakeDims 2 3 16384 65536 _) xt (startIx idx) (ix3 b p Q)) _ = _
  rw [inRange_eq_one idx hlt, select_one, gather_rowTake_apply (by decide)]
  refine congrArg (fun c => xt (ix3 b p c)) (Fin.ext ?_)
  show min (startIx idx (ix3 b Q (0 : Fin 1))).toInt.toNat (16384 - 1) = (idx (ix3 b (0 : Fin 1) Q)).toNat
  rw [startIx_apply idx hlt]
  exact clamp_of_lt _ (hlt _)

/-- A feature row taken at slot Q of batch b, likewise. -/
theorem takeF_apply (ft : FVec F S2x64x16384 .f32) (idx : IVec S2x1x65536 32) (hlt : ∀ j, (idx j).toNat < 16384)
    (b : Fin 2) (p : Fin 64) (Q : Fin 65536) :
    takeF ft idx (ix3 b p Q) = ft (ix3 b p (⟨(idx (ix3 b (0 : Fin 1) Q)).toNat, hlt _⟩ : Fin 16384)) := by
  unfold takeF
  show Scalar.select (inRange idx _)
      (Host.gather (rowTakeDims 2 64 16384 65536 _) ft (startIx idx) (ix3 b p Q)) _ = _
  rw [inRange_eq_one idx hlt, select_one, gather_rowTake_apply (by decide)]
  refine congrArg (fun c => ft (ix3 b p c)) (Fin.ext ?_)
  show min (startIx idx (ix3 b Q (0 : Fin 1))).toInt.toNat (16384 - 1) = (idx (ix3 b (0 : Fin 1) Q)).toNat
  rw [startIx_apply idx hlt]
  exact clamp_of_lt _ (hlt _)

end Cert.ReferenceIdeal.Tail
-- ==== Proof.LibOneHot.lean ====
/-
  One-hot gathers over the extended reals.

  A table column is read at a 32-bit index word `w` by contracting it with an
  indicator: the sum over every point number `n` of `table n` times `1` when
  the 32-bit word of `n` is `w` and `0` otherwise.  When `w` is the word of a
  point number inside the range, exactly one term survives and the sum is
  `table w`.  In `EReal` a product with `0` is `0` whatever the other factor
  is (infinite values included), so nothing is asked of the table's entries.

  The points may be enumerated in `J` tiles of `B` points each, `n = B * j + k`;
  `sum_tiles` turns such a double sum into one sum over `range (J * B)`.
-/
import Mathlib.Data.EReal.Basic
import Mathlib.Data.Fintype.BigOperators
import Mathlib.Algebra.BigOperators.Group.Finset.Basic

namespace Idealize.ShloMosaic.OneHot

open scoped BigOperators

/-- Below `2 ^ 32` a natural number is determined by its 32-bit word: the word
of `n` is `w` exactly when `n` is the number `w` denotes. -/
theorem ofNat_eq_iff (n : ℕ) (hn : n < 2 ^ 32) (w : BitVec 32) :
    BitVec.ofNat 32 n = w ↔ n = w.toNat := by
  constructor
  · intro h
    rw [← h, BitVec.toNat_ofNat, Nat.mod_eq_of_lt hn]
  · intro h
    apply BitVec.eq_of_toNat_eq
    rw [BitVec.toNat_ofNat, Nat.mod_eq_of_lt hn, h]

/-- A one-hot contraction over `range N` (with `N ≤ 2 ^ 32`, so that distinct
points have distinct words) reads the table at the hot index: only the term
`n = w.toNat` has a nonzero indicator, and every other term is `f n * 0 = 0`. -/
theorem sum_hot (N : ℕ) (hN : N ≤ 2 ^ 32) (f : ℕ → EReal) (w : BitVec 32) (hw : w.toNat < N) :
    ∑ n ∈ Finset.range N, f n * (if BitVec.ofNat 32 n = w then (1 : EReal) else 0) = f w.toNat := by
  rw [Finset.sum_eq_single w.toNat]
  · rw [if_pos ((ofNat_eq_iff w.toNat (lt_of_lt_of_le hw hN) w).2 rfl), mul_one]
  · intro n hn hne
    have hlt : n < 2 ^ 32 := lt_of_lt_of_le (Finset.mem_range.1 hn) hN
    rw [if_neg (fun h => hne ((ofNat_eq_iff n hlt w).1 h)), mul_zero]
  · intro h
    exact absurd (Finset.mem_range.2 hw) h

/-- A sum over `J` tiles of `B` points, the point `k` of tile `j` being number
`B * j + k`, is the sum over the first `J * B` numbers: each further tile
appends the block `B * J, …, B * J + B - 1` to the range. -/
theorem sum_tiles (J B : ℕ) (g : ℕ → EReal) :
    ∑ j ∈ Finset.range J, ∑ k : Fin B, g (B * j + k.val) = ∑ n ∈ Finset.range (J * B), g n := by
  induction J with
  | zero => simp
  | succ J ih =>
    rw [Finset.sum_range_succ, ih, Nat.succ_mul, Finset.sum_range_add,
      Fin.sum_univ_eq_sum_range (fun k => g (B * J + k)) B, Nat.mul_comm B J]

/-- The tiled one-hot gather: summing `f n` against the indicator of the word
`w` over `J` tiles of `B` points gives `f w.toNat`, for every index word that
denotes one of the `J * B` points. -/
theorem gather_tiles (J B : ℕ) (hJB : J * B ≤ 2 ^ 32) (f : ℕ → EReal) (w : BitVec 32)
    (hw : w.toNat < J * B) :
    ∑ j ∈ Finset.range J, ∑ k : Fin B,
        f (B * j + k.val) * (if BitVec.ofNat 32 (B * j + k.val) = w then (1 : EReal) else 0)
      = f w.toNat :=
  (sum_tiles J B (fun n => f n * (if BitVec.ofNat 32 n = w then (1 : EReal) else 0))).trans
    (sum_hot (J * B) hJB f w hw)

end Idealize.ShloMosaic.OneHot
-- ==== Proof.Bridge.lean ====
/-
  The two programs' results are one function, index by index, over the extended reals.

  The kernel's result, read at batch b, row p, query m, slot s, is the one-hot sum over all point numbers of the table
  entry (b, p, n) against the indicator of the index word w at flat slot 32 m + s, less the query centre on the three
  coordinate rows. The index word denotes a point number below 16384, so exactly one term of the sum survives: the
  table entry at n = w. The table is the transposed point cloud stacked over the features, so that entry is the
  point's coordinate p for p < 3 and feature channel p - 3 from row 3 on.
  The reference takes the same rows at the same index by a gather, lays the 65536 slots out as (query, slot),
  subtracts the same centre from the coordinate rows, and stacks the 3 + 64 rows.
  Both are therefore  xyz(b, w, p) - nx(b, m, p)  on rows p < 3 and  ft(b, p - 3, w)  on rows p ≥ 3; the subtraction
  is the extended reals' on both sides, so nothing is asked of it.

  The layout operations (stacking along an axis, regrouping 65536 slots as 2048 x 32, repeating over slots, swapping
  the last two axes) are each read at an index given by its coordinates; no array is ever evaluated.
-/
import proofs.«138576_j31576599560762_1_alg».proof.Proof.GatherSpec
import proofs.«138576_j31576599560762_1_alg».proof.Proof.Chain
import proofs.«138576_j31576599560762_1_alg».proof.Proof.RefTail
import proofs.«138576_j31576599560762_1_alg».proof.Proof.RefTake
import proofs.«138576_j31576599560762_1_alg».proof.Proof.LibOneHot
import Idealize.ShloMosaic.Lib.ValueLayout

noncomputable section

namespace Cert.Bridge

open Idealize.ShloMosaic Idealize.ShloMosaic.ValueIdx
open scoped BigOperators

/-! ## Layout operations at an index given by coordinates -/

section Layout

variable {α : Type}

/-- 65536 flat slots regrouped as 2048 queries of 32 slots: (m, s) is flat slot 32 m + s, the other two coordinates
    unchanged. Both positions in row-major order are ((b R + p) 2048 + m) 32 + s. -/
theorem cast_flat_to_grid {R : ℕ} (x : (⟨3, ![2, R, 65536]⟩ : Shape).Idx → α)
    (h : (⟨3, ![2, R, 65536]⟩ : Shape).ShapeCasts ⟨4, ![2, R, 2048, 32]⟩) (b : Fin 2) (p : Fin R) (m : Fin 2048) (s : Fin 32)
    (hQ : 32 * m.val + s.val < 65536) :
    shapeCast ⟨4, ![2, R, 2048, 32]⟩ x h (ix4 b p m s) = x (ix3 b p (⟨32 * m.val + s.val, hQ⟩ : Fin 65536)) :=
  shapeCast_apply x h _ _ (by
    rw [Shape.rowMajor_val_three, Shape.rowMajor_val_four]
    show (b.val * R + p.val) * 65536 + (32 * m.val + s.val) = ((b.val * R + p.val) * 2048 + m.val) * 32 + s.val
    generalize b.val * R + p.val = u
    omega)

/-- The other way: the grid laid flat, read at flat slot 32 m + s. -/
theorem cast_grid_to_flat {R : ℕ} (x : (⟨4, ![2, R, 2048, 32]⟩ : Shape).Idx → α)
    (h : (⟨4, ![2, R, 2048, 32]⟩ : Shape).ShapeCasts ⟨3, ![2, R, 65536]⟩) (b : Fin 2) (p : Fin R) (m : Fin 2048) (s : Fin 32)
    (hQ : 32 * m.val + s.val < 65536) :
    shapeCast ⟨3, ![2, R, 65536]⟩ x h (ix3 b p (⟨32 * m.val + s.val, hQ⟩ : Fin 65536)) = x (ix4 b p m s) :=
  shapeCast_apply x h _ _ (by
    rw [Shape.rowMajor_val_three, Shape.rowMajor_val_four]
    show ((b.val * R + p.val) * 2048 + m.val) * 32 + s.val = (b.val * R + p.val) * 65536 + (32 * m.val + s.val)
    generalize b.val * R + p.val = u
    omega)

/-- Two blocks of rows stacked (rank 3, along the row axis): a row above the seam is the first block's row. -/
theorem stack3_upper {A B C N : ℕ} (x₁ : (⟨3, ![2, A, N]⟩ : Shape).Idx → α) (x₂ : (⟨3, ![2, B, N]⟩ : Shape).Idx → α)
    (h : Shape.Concatenates [(⟨3, ![2, A, N]⟩ : Shape), ⟨3, ![2, B, N]⟩] ⟨3, ![2, C, N]⟩ 1)
    (b : Fin 2) (p : Fin C) (hp : p.val < A) (n : Fin N) :
    concatenate ⟨3, ![2, C, N]⟩ 1 [⟨⟨3, ![2, A, N]⟩, x₁⟩, ⟨⟨3, ![2, B, N]⟩, x₂⟩] h (ix3 b p n) = x₁ (ix3 b (⟨p.val, hp⟩ : Fin A) n) :=
  concatenate_pair_apply_left 1 x₁ x₂ h _ rfl _ (fun c => match c with | ⟨0, _⟩ => rfl | ⟨1, _⟩ => rfl | ⟨2, _⟩ => rfl)

/-- A row at or below the seam is the second block's row, the first block's height less. -/
theorem stack3_lower {A B C N : ℕ} (x₁ : (⟨3, ![2, A, N]⟩ : Shape).Idx → α) (x₂ : (⟨3, ![2, B, N]⟩ : Shape).Idx → α)
    (h : Shape.Concatenates [(⟨3, ![2, A, N]⟩ : Shape), ⟨3, ![2, B, N]⟩] ⟨3, ![2, C, N]⟩ 1)
    (b : Fin 2) (p : Fin C) (hp : A ≤ p.val) (hB : p.val - A < B) (n : Fin N) :
    concatenate ⟨3, ![2, C, N]⟩ 1 [⟨⟨3, ![2, A, N]⟩, x₁⟩, ⟨⟨3, ![2, B, N]⟩, x₂⟩] h (ix3 b p n) = x₂ (ix3 b (⟨p.val - A, hB⟩ : Fin B) n) :=
  concatenate_pair_apply_right 1 x₁ x₂ h _ rfl rfl _
    (fun c hc => match c, hc with | ⟨0, _⟩, _ => rfl | ⟨1, _⟩, hc => absurd rfl hc | ⟨2, _⟩, _ => rfl)
    (show p.val - A + A = p.val from Nat.sub_add_cancel hp)

/-- The same at rank 4. -/
theorem stack4_upper {A B C M S : ℕ} (x₁ : (⟨4, ![2, A, M, S]⟩ : Shape).Idx → α) (x₂ : (⟨4, ![2, B, M, S]⟩ : Shape).Idx → α)
    (h : Shape.Concatenates [(⟨4, ![2, A, M, S]⟩ : Shape), ⟨4, ![2, B, M, S]⟩] ⟨4, ![2, C, M, S]⟩ 1)
    (b : Fin 2) (p : Fin C) (hp : p.val < A) (m : Fin M) (s : Fin S) :
    concatenate ⟨4, ![2, C, M, S]⟩ 1 [⟨⟨4, ![2, A, M, S]⟩, x₁⟩, ⟨⟨4, ![2, B, M, S]⟩, x₂⟩] h (ix4 b p m s) = x₁ (ix4 b (⟨p.val, hp⟩ : Fin A) m s) :=
  concatenate_pair_apply_left 1 x₁ x₂ h _ rfl _ (fun c => match c with | ⟨0, _⟩ => rfl | ⟨1, _⟩ => rfl | ⟨2, _⟩ => rfl | ⟨3, _⟩ => rfl)

theorem stack4_lower {A B C M S : ℕ} (x₁ : (⟨4, ![2, A, M, S]⟩ : Shape).Idx → α) (x₂ : (⟨4, ![2, B, M, S]⟩ : Shape).Idx → α)
    (h : Shape.Concatenates [(⟨4, ![2, A, M, S]⟩ : Shape), ⟨4, ![2, B, M, S]⟩] ⟨4, ![2, C, M, S]⟩ 1)
    (b : Fin 2) (p : Fin C) (hp : A ≤ p.val) (hB : p.val - A < B) (m : Fin M) (s : Fin S) :
    concatenate ⟨4, ![2, C, M, S]⟩ 1 [⟨⟨4, ![2, A, M, S]⟩, x₁⟩, ⟨⟨4, ![2, B, M, S]⟩, x₂⟩] h (ix4 b p m s) = x₂ (ix4 b (⟨p.val - A, hB⟩ : Fin B) m s) :=
  concatenate_pair_apply_right 1 x₁ x₂ h _ rfl rfl _
    (fun c hc => match c, hc with | ⟨0, _⟩, _ => rfl | ⟨1, _⟩, hc => absurd rfl hc | ⟨2, _⟩, _ => rfl | ⟨3, _⟩, _ => rfl)
    (show p.val - A + A = p.val from Nat.sub_add_cancel hp)

/-- A (batch, coordinate, query) array repeated over a new last axis of S slots: every slot reads the same entry. -/
theorem repeat_slots {S : ℕ} (x : (⟨3, ![2, 3, 2048]⟩ : Shape).Idx → α)
    (h : (⟨3, ![2, 3, 2048]⟩ : Shape).BroadcastsInDim ⟨4, ![2, 3, 2048, S]⟩ ![0, 1, 2]) (b : Fin 2) (p : Fin 3) (m : Fin 2048) (s : Fin S) :
    broadcastInDim ⟨4, ![2, 3, 2048, S]⟩ ![0, 1, 2] h x (ix4 b p m s) = x (ix3 b p m) :=
  broadcastInDim_apply _ h x _ _ (fun c => match c with | ⟨0, _⟩ => rfl | ⟨1, _⟩ => rfl | ⟨2, _⟩ => rfl)

/-- A last axis of one slot stretched to 32: every slot reads slot 0. -/
theorem stretch_slots (x : (⟨4, ![2, 3, 2048, 1]⟩ : Shape).Idx → α)
    (h : (⟨4, ![2, 3, 2048, 1]⟩ : Shape).BroadcastsInDim ⟨4, ![2, 3, 2048, 32]⟩ ![0, 1, 2, 3]) (b : Fin 2) (p : Fin 3) (m : Fin 2048) (s : Fin 32) :
    broadcastInDim ⟨4, ![2, 3, 2048, 32]⟩ ![0, 1, 2, 3] h x (ix4 b p m s) = x (ix4 b p m (0 : Fin 1)) :=
  broadcastInDim_apply _ h x _ _ (fun c => match c with | ⟨0, _⟩ => rfl | ⟨1, _⟩ => rfl | ⟨2, _⟩ => rfl | ⟨3, _⟩ => rfl)

end Layout

/-! ## The kernel's side -/

section Kernel

open Cert.KernelIdeal

variable [Cert.KernelIdeal.Facts]

/-- The full one-hot sum reads the table at the index word: of the 16 x 1024 terms only the one whose point number is
    the number the word denotes has a nonzero indicator. -/
theorem part_full (idx : IVec S2x1x65536 32) (tbl : FVec Ideal S2x67x16384 .f32) (b : Fin 2) (p : Fin 67) (Q : Fin 65536)
    (hw : (idx (ix3 b (0 : Fin 1) Q)).toNat < 16384) :
    Spec.part idx tbl b p Q 16 = tbl (ix3 b p (⟨(idx (ix3 b (0 : Fin 1) Q)).toNat, hw⟩ : Fin 16384)) := by
  unfold Spec.part Spec.hot
  rw [Idealize.ShloMosaic.OneHot.gather_tiles 16 1024 (by norm_num) (Spec.row tbl b p) _ hw]
  unfold Spec.row
  rw [dif_pos hw]

/-- The table's first three rows are the point cloud with its last two axes swapped. -/
theorem table_coord (xyz : FVec Ideal S2x16384x3 .f32) (ft : FVec Ideal S2x64x16384 .f32) (b : Fin 2) (p : Fin 67) (hp : p.val < 3) (n : Fin 16384) :
    Chain.table xyz ft (ix3 b p n) = xyz (ix3 b n (⟨p.val, hp⟩ : Fin 3)) := by
  unfold Chain.table
  rw [stack3_upper _ _ _ b p hp n, transpose_ix3_021_apply]

/-- Its rows from 3 on are the features. -/
theorem table_feat (xyz : FVec Ideal S2x16384x3 .f32) (ft : FVec Ideal S2x64x16384 .f32) (b : Fin 2) (p : Fin 67) (hp : 3 ≤ p.val) (n : Fin 16384) :
    Chain.table xyz ft (ix3 b p n) = ft (ix3 b (⟨p.val - 3, by have := p.isLt; omega⟩ : Fin 64) n) := by
  unfold Chain.table
  exact stack3_lower _ _ _ b p hp _ n

/-- The centres array at flat slot 32 m + s is query m's centre coordinate. -/
theorem centres_at (nx : FVec Ideal S2x2048x3 .f32) (b : Fin 2) (p : Fin 3) (m : Fin 2048) (s : Fin 32) (hQ : 32 * m.val + s.val < 65536) :
    Chain.centres nx (ix3 b p (⟨32 * m.val + s.val, hQ⟩ : Fin 65536)) = nx (ix3 b m p) := by
  unfold Chain.centres
  rw [cast_grid_to_flat _ _ b p m s hQ, repeat_slots, transpose_ix3_021_apply]

/-- The result array at (b, p, Q), its two cases written at the coordinates. -/
theorem spec_out_at (idx : IVec S2x1x65536 32) (tbl : FVec Ideal S2x67x16384 .f32) (cen : FVec Ideal S2x3x65536 .f32)
    (b : Fin 2) (p : Fin 67) (Q : Fin 65536) :
    Spec.out idx tbl cen (ix3 b p Q)
      = if h : p.val < 3 then (Spec.part idx tbl b p Q 16 - (cen (ix3 b (⟨p.val, h⟩ : Fin 3) Q) : EReal) : EReal)
        else Spec.part idx tbl b p Q 16 := rfl

/-- The kernel's result through its final regrouping, on a coordinate row. -/
theorem kernel_coord (xyz : FVec Ideal S2x16384x3 .f32) (nx : FVec Ideal S2x2048x3 .f32) (ft : FVec Ideal S2x64x16384 .f32)
    (idx : IVec S2x1x65536 32) (hlt : ∀ j, (idx j).toNat < 16384)
    (b : Fin 2) (p : Fin 67) (hp : p.val < 3) (m : Fin 2048) (s : Fin 32) (hQ : 32 * m.val + s.val < 65536) :
    shapeCast S2x67x2048x32 (Spec.out idx (Chain.table xyz ft) (Chain.centres nx)) Facts₀.shapeCasts_S2x67x65536_S2x67x2048x32 (ix4 b p m s)
      = (xyz (ix3 b (⟨(idx (ix3 b (0 : Fin 1) (⟨32 * m.val + s.val, hQ⟩ : Fin 65536))).toNat, hlt _⟩ : Fin 16384) (⟨p.val, hp⟩ : Fin 3)) - nx (ix3 b m (⟨p.val, hp⟩ : Fin 3)) : EReal) := by
  rw [cast_flat_to_grid _ _ b p m s hQ, spec_out_at, dif_pos hp,
    part_full idx _ b p _ (hlt _), table_coord xyz ft b p hp, centres_at nx b ⟨p.val, hp⟩ m s hQ]

/-- And on a feature row. -/
theorem kernel_feat (xyz : FVec Ideal S2x16384x3 .f32) (nx : FVec Ideal S2x2048x3 .f32) (ft : FVec Ideal S2x64x16384 .f32)
    (idx : IVec S2x1x65536 32) (hlt : ∀ j, (idx j).toNat < 16384)
    (b : Fin 2) (p : Fin 67) (hp : 3 ≤ p.val) (m : Fin 2048) (s : Fin 32) (hQ : 32 * m.val + s.val < 65536) :
    shapeCast S2x67x2048x32 (Spec.out idx (Chain.table xyz ft) (Chain.centres nx)) Facts₀.shapeCasts_S2x67x65536_S2x67x2048x32 (ix4 b p m s)
      = ft (ix3 b (⟨p.val - 3, by have := p.isLt; omega⟩ : Fin 64) (⟨(idx (ix3 b (0 : Fin 1) (⟨32 * m.val + s.val, hQ⟩ : Fin 65536))).toNat, hlt _⟩ : Fin 16384)) := by
  rw [cast_flat_to_grid _ _ b p m s hQ, spec_out_at, dif_neg (Nat.not_lt.2 hp),
    part_full idx _ b p _ (hlt _), table_feat xyz ft b p hp]

end Kernel

/-! ## The reference's side -/

section Reference

open Cert.ReferenceIdeal

variable [Cert.ReferenceIdeal.Facts]

/-- The reference's result on a coordinate row: the point's coordinate taken at the index, less the query's centre. -/
theorem ref_coord (xyz : FVec Ideal S2x16384x3 .f32) (nx : FVec Ideal S2x2048x3 .f32) (ft : FVec Ideal S2x64x16384 .f32)
    (idx : IVec S2x1x65536 32) (hlt : ∀ j, (idx j).toNat < 16384)
    (b : Fin 2) (p : Fin 67) (hp : p.val < 3) (m : Fin 2048) (s : Fin 32) (hQ : 32 * m.val + s.val < 65536) :
    Tail.out xyz nx ft idx (ix4 b p m s)
      = (xyz (ix3 b (⟨(idx (ix3 b (0 : Fin 1) (⟨32 * m.val + s.val, hQ⟩ : Fin 65536))).toNat, hlt _⟩ : Fin 16384) (⟨p.val, hp⟩ : Fin 3)) - nx (ix3 b m (⟨p.val, hp⟩ : Fin 3)) : EReal) := by
  unfold Tail.out
  rw [stack4_upper _ _ _ b p hp m s, subf_apply, cast_flat_to_grid _ _ b ⟨p.val, hp⟩ m s hQ, Tail.takeX_apply _ idx hlt,
    transpose_ix3_021_apply, stretch_slots, repeat_slots, transpose_ix3_021_apply]

/-- And on a feature row: the feature taken at the index. -/
theorem ref_feat (xyz : FVec Ideal S2x16384x3 .f32) (nx : FVec Ideal S2x2048x3 .f32) (ft : FVec Ideal S2x64x16384 .f32)
    (idx : IVec S2x1x65536 32) (hlt : ∀ j, (idx j).toNat < 16384)
    (b : Fin 2) (p : Fin 67) (hp : 3 ≤ p.val) (m : Fin 2048) (s : Fin 32) (hQ : 32 * m.val + s.val < 65536) :
    Tail.out xyz nx ft idx (ix4 b p m s)
      = ft (ix3 b (⟨p.val - 3, by have := p.isLt; omega⟩ : Fin 64) (⟨(idx (ix3 b (0 : Fin 1) (⟨32 * m.val + s.val, hQ⟩ : Fin 65536))).toNat, hlt _⟩ : Fin 16384)) := by
  unfold Tail.out
  rw [stack4_lower _ _ _ b p hp (by have := p.isLt; omega) m s, cast_flat_to_grid _ _ b _ m s hQ, Tail.takeF_apply _ idx hlt]

end Reference

/-! ## The two results are one function -/

/-- Index by index: both sides are the point's coordinate at the index less the query's centre on the three coordinate
    rows, and the feature at the index on the 64 rows below. -/
theorem out_eq [Cert.KernelIdeal.Facts] [Cert.ReferenceIdeal.Facts]
    (xyz : FVec Ideal Cert.KernelIdeal.S2x16384x3 .f32) (nx : FVec Ideal Cert.KernelIdeal.S2x2048x3 .f32)
    (ft : FVec Ideal Cert.KernelIdeal.S2x64x16384 .f32) (idx : IVec Cert.KernelIdeal.S2x1x65536 32)
    (hlt : ∀ j, (idx j).toNat < 16384) :
    Cert.ReferenceIdeal.Tail.out xyz nx ft idx
      = shapeCast Cert.KernelIdeal.S2x67x2048x32
          (Cert.KernelIdeal.Spec.out idx (Cert.KernelIdeal.Chain.table xyz ft) (Cert.KernelIdeal.Chain.centres nx))
          Cert.KernelIdeal.Facts₀.shapeCasts_S2x67x65536_S2x67x2048x32 := by
  funext i
  obtain ⟨b, p, m, s, rfl⟩ : ∃ (b : Fin 2) (p : Fin 67) (m : Fin 2048) (s : Fin 32), i = ix4 b p m s :=
    ⟨i 0, i 1, i 2, i 3, eq_ix4 i⟩
  have hQ : 32 * m.val + s.val < 65536 := by have := m.isLt; have := s.isLt; omega
  by_cases hp : p.val < 3
  · exact (ref_coord xyz nx ft idx hlt b p hp m s hQ).trans (kernel_coord xyz nx ft idx hlt b p hp m s hQ).symm
  · exact (ref_feat xyz nx ft idx hlt b p (Nat.not_lt.1 hp) m s hQ).trans (kernel_feat xyz nx ft idx hlt b p (Nat.not_lt.1 hp) m s hQ).symm

/-- The same with the right-hand side written as a function of the index. -/
theorem out_eq_fun [Cert.KernelIdeal.Facts] [Cert.ReferenceIdeal.Facts]
    (xyz : FVec Ideal Cert.KernelIdeal.S2x16384x3 .f32) (nx : FVec Ideal Cert.KernelIdeal.S2x2048x3 .f32)
    (ft : FVec Ideal Cert.KernelIdeal.S2x64x16384 .f32) (idx : IVec Cert.KernelIdeal.S2x1x65536 32)
    (hlt : ∀ j, (idx j).toNat < 16384) :
    Cert.ReferenceIdeal.Tail.out xyz nx ft idx
      = fun i => shapeCast Cert.KernelIdeal.S2x67x2048x32
          (Cert.KernelIdeal.Spec.out idx (Cert.KernelIdeal.Chain.table xyz ft) (Cert.KernelIdeal.Chain.centres nx))
          Cert.KernelIdeal.Facts₀.shapeCasts_S2x67x65536_S2x67x2048x32 i :=
  out_eq xyz nx ft idx hlt

end Cert.Bridge

end
-- ==== Proof.lean ====
/-
  The certificate's proof.

  The kernel program computes, per query, the indices of up to 32 points in a shell around it (a running count and
  a scatter on the host), and then GATHERS the 3 + 64 table rows at those indices by a one-hot matrix product
  accumulated over 16 table tiles, subtracting the query centre from the three coordinate rows. The reference
  computes the same indices by the same host operations and gathers with take-along-axis. Over the extended reals
  a sum against a 0/1 vector with a single 1 is the selected entry, for any values, whenever the index is a valid
  point number; and every index is one, since the scatter writes only point numbers into rows of zeros. So the two
  results are one function of the arguments, index by index. The three frames are the programs' runs with their
  results dropped; the precondition is not needed.
-/
import proofs.«138576_j31576599560762_1_alg».proof.Defs
import proofs.«138576_j31576599560762_1_alg».proof.Proof.Gen.Kernel
import proofs.«138576_j31576599560762_1_alg».proof.Proof.Gen.KernelIdeal
import proofs.«138576_j31576599560762_1_alg».proof.Proof.Gen.ReferenceIdeal
import proofs.«138576_j31576599560762_1_alg».proof.Proof.Gen.Pre_finite_inputs
import proofs.«138576_j31576599560762_1_alg».proof.Proof.KFrame
import proofs.«138576_j31576599560762_1_alg».proof.Proof.KIFrame
import proofs.«138576_j31576599560762_1_alg».proof.Proof.KIValRun
import proofs.«138576_j31576599560762_1_alg».proof.Proof.RefRead
import proofs.«138576_j31576599560762_1_alg».proof.Proof.NbrRange
import proofs.«138576_j31576599560762_1_alg».proof.Proof.Bridge

noncomputable section

namespace Cert.Proof

open Idealize.ShloMosaic Idealize.ShloMosaic.TcCoe Idealize.SL.Sem

/-- The word-level kernel program runs to the end and leaves its three arguments unchanged. -/
theorem frame_k [Cert.Kernel.Facts] [Cert.Pre_finite_inputs.Facts] : Cert.frame_Kernel :=
  fun m ρ _ => Cert.Kernel.Fr.frame m ρ

/-- So does the idealized kernel program. -/
theorem frame_ki [Cert.KernelIdeal.Facts] [Cert.Pre_finite_inputs.Facts] : Cert.frame_KernelIdeal :=
  fun m ρ _ => Cert.KernelIdeal.Fr.frame m ρ

/-- The reference runs to the end and leaves its arguments unchanged: its run, with the results dropped. -/
theorem frame_ri [Cert.ReferenceIdeal.Facts] [Cert.Pre_finite_inputs.Facts] : Cert.frame_ReferenceIdeal :=
  fun m ρ _ =>
    (θ_run Cert.ReferenceIdeal.defs _ _).mono
      (fun _ h c => ⟨(h c _).trans (Cert.ReferenceIdeal.RefRun.kept_arg0 m c), (h c _).trans (Cert.ReferenceIdeal.RefRun.kept_arg1 m c),
        (h c _).trans (Cert.ReferenceIdeal.RefRun.kept_arg2 m c)⟩)
      (Cert.ReferenceIdeal.RefRun.run_all (F := Ideal) m ρ)

/-- From memories that agree on the arguments the two idealized programs end with equal results: the neighbour
    counts are the same term of the arguments, and the gathered rows agree entry by entry because every neighbour
    index is a point number. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ?_) (Cert.ReferenceIdeal.RefRun.run_all (F := Ideal) m' ρ')
  obtain ⟨h0, h1, h2⟩ := hagree c
  refine ⟨(h c _).trans ?_, (h c _).trans ?_, (h c _).trans (Cert.ReferenceIdeal.RefRun.kept_arg0 m' c),
    (h c _).trans (Cert.ReferenceIdeal.RefRun.kept_arg1 m' c), (h c _).trans (Cert.ReferenceIdeal.RefRun.kept_arg2 m' c)⟩
  · rw [Cert.ReferenceIdeal.RefRun.res_count m' c, h0, h1]
  · rw [Cert.ReferenceIdeal.RefRun.res_out m' c, h0, h1, h2]
    exact Cert.Bridge.out_eq_fun _ _ _ _ (Cert.KernelIdeal.Chain.nbrFlat_lt _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
